-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x16 : Shape := ⟨2, ![30000, 16]⟩
abbrev S2x480000 : Shape := ⟨2, ![2, 480000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S_ : Shape := ⟨0, ![]⟩

class Facts : Prop where
  bcast_S_S30000x16 : S_.BroadcastsInDim S30000x16 (![] : Fin 0 → Fin S30000x16.rank)
  reducesTo_S30000x16_S_d0_1 : S30000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S2x480000 : S_.BroadcastsInDim S2x480000 (![] : Fin 0 → Fin S2x480000.rank)
  reducesTo_S2x480000_S_d0_1 : S2x480000.ReducesTo [0, 1] S_

variable [Facts]

def fn_part4 {F : FTy → Type} [FloatOps F] (main_v63 : IVec S_ 1) (main_v65 : IVec S2x480000 1) (main_v67 : IVec S2x480000 1) : IVec S_ 1 :=
  let main_v68 : IVec S2x480000 1 := andi main_v65 main_v67
  let main_c_26 : IVec S_ 1 := constantI S_ 1 1#1
  let main_v69 : IVec S_ 1 := (fun x v => Host.reduce IntOp.andi x v reducesTo_S2x480000_S_d0_1 h_S_) main_v68 main_c_26
  let main_v70 : IVec S_ 1 := andi main_v63 main_v69
  main_v70

def fn_part3 {F : FTy → Type} [FloatOps F] (main_arg1 : IVec S2x480000 32) (main_arg12 : FVec F S3x128x128 .f32) (main_arg13 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg12
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_c_24 : IVec S_ 32 := constantI S_ 32 0#32
  let main_v64 : IVec S2x480000 32 := broadcastInDim S2x480000 ![] bcast_S_S2x480000 main_c_24
  let main_v65 : IVec S2x480000 1 := cmpi .sge main_arg1 main_v64
  let main_c_25 : IVec S_ 32 := constantI S_ 32 30000#32
  let main_v66 : IVec S2x480000 32 := broadcastInDim S2x480000 ![] bcast_S_S2x480000 main_c_25
  let main_v67 : IVec S2x480000 1 := cmpi .slt main_arg1 main_v66
  fn_part4 (F := F) main_v63 main_v65 main_v67

def fn_part2 {F : FTy → Type} [FloatOps F] (main_arg1 : IVec S2x480000 32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x256x128 .f32 := Host.absf main_arg10
  let main_cst_16 : FVec F S_ .f32 := constant S_ .f32 0x7F800000#32
  let main_v45 : FVec F S3x256x128 .f32 := broadcastInDim S3x256x128 ![] bcast_S_S3x256x128 main_cst_16
  let main_v46 : IVec S3x256x128 1 := cmpf .olt main_v44 main_v45
  let main_c_17 : IVec S_ 1 := constantI S_ 1 1#1
  let main_v47 : IVec S_ 1 := (fun x v => Host.reduce IntOp.andi x v reducesTo_S3x256x128_S_d0_1_2 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg1 main_arg12 main_arg13 main_v48 main_v49 main_v50

def fn_part1 {F : FTy → Type} [FloatOps F] (main_arg1 : IVec S2x480000 32) (main_arg5 : FVec F S3 .f32) (main_arg6 : FVec F S3x256x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S30000x16 .f32) (main_arg1 : IVec S2x480000 32) (main_arg2 : FVec F S16x128 .f32) (main_arg3 : FVec F S128 .f32) (main_arg4 : FVec F S128x3 .f32) (main_arg5 : FVec F S3 .f32) (main_arg6 : FVec F S3x256x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) : IVec S_ 1 :=
  let main_v0 : FVec F S30000x16 .f32 := Host.absf main_arg0
  let main_cst : FVec F S_ .f32 := constant S_ .f32 0x7F800000#32
  let main_v1 : FVec F S30000x16 .f32 := broadcastInDim S30000x16 ![] bcast_S_S30000x16 main_cst
  let main_v2 : IVec S30000x16 1 := cmpf .olt main_v0 main_v1
  let main_c : IVec S_ 1 := constantI S_ 1 1#1
  let main_v3 : IVec S_ 1 := (fun x v => Host.reduce IntOp.andi x v reducesTo_S30000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg4
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg1 main_arg5 main_arg6 main_arg7 main_arg8 main_arg9 main_arg10 main_arg11 main_arg12 main_arg13 main_v13 main_v16
-- ==== Kernel.lean ====
abbrev S30000x16 : Shape := ⟨2, ![30000, 16]⟩
abbrev S2x480000 : Shape := ⟨2, ![2, 480000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S1x480000 : Shape := ⟨2, ![1, 480000]⟩
abbrev S480000 : Shape := ⟨1, ![480000]⟩
abbrev S1x128 : Shape := ⟨2, ![1, 128]⟩
abbrev S30000x128 : Shape := ⟨2, ![30000, 128]⟩
abbrev S3000x16 : Shape := ⟨2, ![3000, 16]⟩
abbrev S3000x128 : Shape := ⟨2, ![3000, 128]⟩
abbrev S_ : Shape := ⟨0, ![]⟩
abbrev S480000x1 : Shape := ⟨2, ![480000, 1]⟩
abbrev S1 : Shape := ⟨1, ![1]⟩
abbrev S1x1 : Shape := ⟨2, ![1, 1]⟩
abbrev S480000x128 : Shape := ⟨2, ![480000, 128]⟩
abbrev S480000x256 : Shape := ⟨2, ![480000, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S4800x256 : Shape := ⟨2, ![4800, 256]⟩
abbrev S4800x128 : Shape := ⟨2, ![4800, 128]⟩
abbrev S30000x256 : Shape := ⟨2, ![30000, 256]⟩
abbrev S3000x256 : Shape := ⟨2, ![3000, 256]⟩
abbrev S1x3 : Shape := ⟨2, ![1, 3]⟩
abbrev S30000x3 : Shape := ⟨2, ![30000, 3]⟩
abbrev S3000x3 : Shape := ⟨2, ![3000, 3]⟩

abbrev nBuf : Space → Nat
  | .hbm => 247
  | .vmem => 60
  | .smem => 0
  | _ => 0

abbrev hbmTy0_0 (i : Nat) : BufTy := match i % 128 with
  | 0 => ⟨S30000x16, .f32⟩
  | 1 => ⟨S2x480000, .i32⟩
  | 2 => ⟨S16x128, .f32⟩
  | 3 => ⟨S128, .f32⟩
  | 4 => ⟨S128x3, .f32⟩
  | 5 => ⟨S3, .f32⟩
  | 6 => ⟨S3x256x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S1x480000, .i32⟩
  | 15 => ⟨S480000, .i32⟩
  | 16 => ⟨S1x480000, .i32⟩
  | 17 => ⟨S480000, .i32⟩
  | 18 => ⟨S1x128, .f32⟩
  | 19 => ⟨S30000x128, .f32⟩
  | 20 => ⟨S_, .i32⟩
  | 21 => ⟨S480000, .i32⟩
  | 22 => ⟨S480000, .i1⟩
  | 23 => ⟨S_, .i32⟩
  | 24 => ⟨S480000, .i32⟩
  | 25 => ⟨S480000, .i32⟩
  | 26 => ⟨S480000, .i32⟩
  | 27 => ⟨S480000x1, .i32⟩
  | 28 => ⟨S1, .i32⟩
  | 29 => ⟨S_, .i32⟩
  | 30 => ⟨S480000x1, .i32⟩
  | 31 => ⟨S480000x1, .i1⟩
  | 32 => ⟨S1x1, .i32⟩
  | 33 => ⟨S480000x1, .i32⟩
  | 34 => ⟨S480000x1, .i1⟩
  | 35 => ⟨S480000x1, .i1⟩
  | 36 => ⟨S_, .i1⟩
  | 37 => ⟨S480000, .i1⟩
  | 38 => ⟨S480000x128, .f32⟩
  | 39 => ⟨S480000x128, .i1⟩
  | 40 => ⟨S_, .f32⟩
  | 41 => ⟨S480000x128, .f32⟩
  | 42 => ⟨S480000x128, .f32⟩
  | 43 => ⟨S_, .i32⟩
  | 44 => ⟨S480000, .i32⟩
  | 45 => ⟨S480000, .i1⟩
  | 46 => ⟨S_, .i32⟩
  | 47 => ⟨S480000, .i32⟩
  | 48 => ⟨S480000, .i32⟩
  | 49 => ⟨S480000, .i32⟩
  | 50 => ⟨S480000x1, .i32⟩
  | 51 => ⟨S1, .i32⟩
  | 52 => ⟨S_, .i32⟩
  | 53 => ⟨S480000x1, .i32⟩
  | 54 => ⟨S480000x1, .i1⟩
  | 55 => ⟨S1x1, .i32⟩
  | 56 => ⟨S480000x1, .i32⟩
  | 57 => ⟨S480000x1, .i1⟩
  | 58 => ⟨S480000x1, .i1⟩
  | 59 => ⟨S_, .i1⟩
  | 60 => ⟨S480000, .i1⟩
  | 61 => ⟨S480000x128, .f32⟩
  | 62 => ⟨S480000x128, .i1⟩
  | 63 => ⟨S_, .f32⟩
  | 64 => ⟨S480000x128, .f32⟩
  | 65 => ⟨S480000x128, .f32⟩
  | 66 => ⟨S480000x256, .f32⟩
  | 67 => ⟨S1x256x128, .f32⟩
  | 68 => ⟨S256x128, .f32⟩
  | 69 => ⟨S1x128, .f32⟩
  | 70 => ⟨S128, .f32⟩
  | 71 => ⟨S1x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S480000x128, .f32⟩
  | 78 => ⟨S_, .f32⟩
  | 79 => ⟨S30000x128, .f32⟩
  | 80 => ⟨S480000x1, .i32⟩
  | 81 => ⟨S30000x128, .f32⟩
  | 82 => ⟨S30000x256, .f32⟩
  | 83 => ⟨S1x256x128, .f32⟩
  | 84 => ⟨S256x128, .f32⟩
  | 85 => ⟨S1x128, .f32⟩
  | 86 => ⟨S128, .f32⟩
  | 87 => ⟨S1x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S30000x128, .f32⟩
  | 94 => ⟨S30000x128, .f32⟩
  | 95 => ⟨S_, .i32⟩
  | 96 => ⟨S480000, .i32⟩
  | 97 => ⟨S480000, .i1⟩
  | 98 => ⟨S_, .i32⟩
  | 99 => ⟨S480000, .i32⟩
  | 100 => ⟨S480000, .i32⟩
  | 101 => ⟨S480000, .i32⟩
  | 102 => ⟨S480000x1, .i32⟩
  | 103 => ⟨S1, .i32⟩
  | 104 => ⟨S_, .i32⟩
  | 105 => ⟨S480000x1, .i32⟩
  | 106 => ⟨S480000x1, .i1⟩
  | 107 => ⟨S1x1, .i32⟩
  | 108 => ⟨S480000x1, .i32⟩
  | 109 => ⟨S480000x1, .i1⟩
  | 110 => ⟨S480000x1, .i1⟩
  | 111 => ⟨S_, .i1⟩
  | 112 => ⟨S480000, .i1⟩
  | 113 => ⟨S480000x128, .f32⟩
  | 114 => ⟨S480000x128, .i1⟩
  | 115 => ⟨S_, .f32⟩
  | 116 => ⟨S480000x128, .f32⟩
  | 117 => ⟨S480000x128, .f32⟩
  | 118 => ⟨S_, .i32⟩
  | 119 => ⟨S480000, .i32⟩
  | 120 => ⟨S480000, .i1⟩
  | 121 => ⟨S_, .i32⟩
  | 122 => ⟨S480000, .i32⟩
  | 123 => ⟨S480000, .i32⟩
  | 124 => ⟨S480000, .i32⟩
  | 125 => ⟨S480000x1, .i32⟩
  | 126 => ⟨S1, .i32⟩
  | 127 => ⟨S_, .i32⟩
  | _ => ⟨S30000x16, .f32⟩

abbrev hbmTy0_1 (i : Nat) : BufTy := match i % 128 with
  | 0 => ⟨S480000x1, .i32⟩
  | 1 => ⟨S480000x1, .i1⟩
  | 2 => ⟨S1x1, .i32⟩
  | 3 => ⟨S480000x1, .i32⟩
  | 4 => ⟨S480000x1, .i1⟩
  | 5 => ⟨S480000x1, .i1⟩
  | 6 => ⟨S_, .i1⟩
  | 7 => ⟨S480000, .i1⟩
  | 8 => ⟨S480000x128, .f32⟩
  | 9 => ⟨S480000x128, .i1⟩
  | 10 => ⟨S_, .f32⟩
  | 11 => ⟨S480000x128, .f32⟩
  | 12 => ⟨S480000x128, .f32⟩
  | 13 => ⟨S480000x256, .f32⟩
  | 14 => ⟨S1x256x128, .f32⟩
  | 15 => ⟨S256x128, .f32⟩
  | 16 => ⟨S1x128, .f32⟩
  | 17 => ⟨S128, .f32⟩
  | 18 => ⟨S1x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S480000x128, .f32⟩
  | 25 => ⟨S_, .f32⟩
  | 26 => ⟨S30000x128, .f32⟩
  | 27 => ⟨S480000x1, .i32⟩
  | 28 => ⟨S30000x128, .f32⟩
  | 29 => ⟨S30000x256, .f32⟩
  | 30 => ⟨S1x256x128, .f32⟩
  | 31 => ⟨S256x128, .f32⟩
  | 32 => ⟨S1x128, .f32⟩
  | 33 => ⟨S128, .f32⟩
  | 34 => ⟨S1x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S30000x128, .f32⟩
  | 41 => ⟨S30000x128, .f32⟩
  | 42 => ⟨S_, .i32⟩
  | 43 => ⟨S480000, .i32⟩
  | 44 => ⟨S480000, .i1⟩
  | 45 => ⟨S_, .i32⟩
  | 46 => ⟨S480000, .i32⟩
  | 47 => ⟨S480000, .i32⟩
  | 48 => ⟨S480000, .i32⟩
  | 49 => ⟨S480000x1, .i32⟩
  | 50 => ⟨S1, .i32⟩
  | 51 => ⟨S_, .i32⟩
  | 52 => ⟨S480000x1, .i32⟩
  | 53 => ⟨S480000x1, .i1⟩
  | 54 => ⟨S1x1, .i32⟩
  | 55 => ⟨S480000x1, .i32⟩
  | 56 => ⟨S480000x1, .i1⟩
  | 57 => ⟨S480000x1, .i1⟩
  | 58 => ⟨S_, .i1⟩
  | 59 => ⟨S480000, .i1⟩
  | 60 => ⟨S480000x128, .f32⟩
  | 61 => ⟨S480000x128, .i1⟩
  | 62 => ⟨S_, .f32⟩
  | 63 => ⟨S480000x128, .f32⟩
  | 64 => ⟨S480000x128, .f32⟩
  | 65 => ⟨S_, .i32⟩
  | 66 => ⟨S480000, .i32⟩
  | 67 => ⟨S480000, .i1⟩
  | 68 => ⟨S_, .i32⟩
  | 69 => ⟨S480000, .i32⟩
  | 70 => ⟨S480000, .i32⟩
  | 71 => ⟨S480000, .i32⟩
  | 72 => ⟨S480000x1, .i32⟩
  | 73 => ⟨S1, .i32⟩
  | 74 => ⟨S_, .i32⟩
  | 75 => ⟨S480000x1, .i32⟩
  | 76 => ⟨S480000x1, .i1⟩
  | 77 => ⟨S1x1, .i32⟩
  | 78 => ⟨S480000x1, .i32⟩
  | 79 => ⟨S480000x1, .i1⟩
  | 80 => ⟨S480000x1, .i1⟩
  | 81 => ⟨S_, .i1⟩
  | 82 => ⟨S480000, .i1⟩
  | 83 => ⟨S480000x128, .f32⟩
  | 84 => ⟨S480000x128, .i1⟩
  | 85 => ⟨S_, .f32⟩
  | 86 => ⟨S480000x128, .f32⟩
  | 87 => ⟨S480000x128, .f32⟩
  | 88 => ⟨S480000x256, .f32⟩
  | 89 => ⟨S1x256x128, .f32⟩
  | 90 => ⟨S256x128, .f32⟩
  | 91 => ⟨S1x128, .f32⟩
  | 92 => ⟨S128, .f32⟩
  | 93 => ⟨S1x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S480000x128, .f32⟩
  | 100 => ⟨S_, .f32⟩
  | 101 => ⟨S30000x128, .f32⟩
  | 102 => ⟨S480000x1, .i32⟩
  | 103 => ⟨S30000x128, .f32⟩
  | 104 => ⟨S30000x256, .f32⟩
  | 105 => ⟨S1x256x128, .f32⟩
  | 106 => ⟨S256x128, .f32⟩
  | 107 => ⟨S1x128, .f32⟩
  | 108 => ⟨S128, .f32⟩
  | 109 => ⟨S1x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S30000x128, .f32⟩
  | 116 => ⟨S30000x128, .f32⟩
  | 117 => ⟨S1x3, .f32⟩
  | 118 => ⟨S30000x3, .f32⟩
  | _ => ⟨S30000x16, .f32⟩

abbrev hbmTy (i : Nat) : BufTy := match i / 128 with
  | 0 => hbmTy0_0 i
  | 1 => hbmTy0_1 i
  | _ => ⟨S30000x16, .f32⟩

abbrev bufTy : (tb : Table) → Fin (tcTables nBuf tb) → BufTy
  | .hbm, ⟨i, _⟩ => hbmTy i
  | .local _ .vmem, ⟨0, _⟩ => ⟨S3000x16, .f32⟩
  | .local _ .vmem, ⟨1, _⟩ => ⟨S3000x16, .f32⟩
  | .local _ .vmem, ⟨2, _⟩ => ⟨S16x128, .f32⟩
  | .local _ .vmem, ⟨3, _⟩ => ⟨S1x128, .f32⟩
  | .local _ .vmem, ⟨4, _⟩ => ⟨S3000x128, .f32⟩
  | .local _ .vmem, ⟨5, _⟩ => ⟨S3000x128, .f32⟩
  | .local _ .vmem, ⟨6, _⟩ => ⟨S4800x256, .f32⟩
  | .local _ .vmem, ⟨7, _⟩ => ⟨S4800x256, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4800x128, .f32⟩
  | .local _ .vmem, ⟨13, _⟩ => ⟨S4800x128, .f32⟩
  | .local _ .vmem, ⟨14, _⟩ => ⟨S3000x256, .f32⟩
  | .local _ .vmem, ⟨15, _⟩ => ⟨S3000x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S3000x128, .f32⟩
  | .local _ .vmem, ⟨21, _⟩ => ⟨S3000x128, .f32⟩
  | .local _ .vmem, ⟨22, _⟩ => ⟨S4800x256, .f32⟩
  | .local _ .vmem, ⟨23, _⟩ => ⟨S4800x256, .f32⟩
  | .local _ .vmem, ⟨24, _⟩ => ⟨S256x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4800x128, .f32⟩
  | .local _ .vmem, ⟨29, _⟩ => ⟨S4800x128, .f32⟩
  | .local _ .vmem, ⟨30, _⟩ => ⟨S3000x256, .f32⟩
  | .local _ .vmem, ⟨31, _⟩ => ⟨S3000x256, .f32⟩
  | .local _ .vmem, ⟨32, _⟩ => ⟨S256x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S3000x128, .f32⟩
  | .local _ .vmem, ⟨37, _⟩ => ⟨S3000x128, .f32⟩
  | .local _ .vmem, ⟨38, _⟩ => ⟨S4800x256, .f32⟩
  | .local _ .vmem, ⟨39, _⟩ => ⟨S4800x256, .f32⟩
  | .local _ .vmem, ⟨40, _⟩ => ⟨S256x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S4800x128, .f32⟩
  | .local _ .vmem, ⟨45, _⟩ => ⟨S4800x128, .f32⟩
  | .local _ .vmem, ⟨46, _⟩ => ⟨S3000x256, .f32⟩
  | .local _ .vmem, ⟨47, _⟩ => ⟨S3000x256, .f32⟩
  | .local _ .vmem, ⟨48, _⟩ => ⟨S256x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S3000x128, .f32⟩
  | .local _ .vmem, ⟨53, _⟩ => ⟨S3000x128, .f32⟩
  | .local _ .vmem, ⟨54, _⟩ => ⟨S3000x128, .f32⟩
  | .local _ .vmem, ⟨55, _⟩ => ⟨S3000x128, .f32⟩
  | .local _ .vmem, ⟨56, _⟩ => ⟨S128x3, .f32⟩
  | .local _ .vmem, ⟨57, _⟩ => ⟨S1x3, .f32⟩
  | .local _ .vmem, ⟨58, _⟩ => ⟨S3000x3, .f32⟩
  | .local _ .vmem, ⟨59, _⟩ => ⟨S3000x3, .f32⟩
  | _, _ => ⟨S30000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_cst : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v36 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_call3_cst : Ref sig .tc := ⟨.hbm, 138, rfl⟩
abbrev main_call3_v15 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_cst_0 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v66 : Ref sig .tc := ⟨.hbm, 192, rfl⟩
abbrev main_call5_c : Ref sig .tc := ⟨.hbm, 193, rfl⟩
abbrev main_call5_v0 : Ref sig .tc := ⟨.hbm, 194, rfl⟩
abbrev main_call5_v1 : Ref sig .tc := ⟨.hbm, 195, rfl⟩
abbrev main_call5_c_0 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_c_1 : Ref sig .tc := ⟨.hbm, 201, rfl⟩
abbrev main_call5_c_2 : Ref sig .tc := ⟨.hbm, 202, rfl⟩
abbrev main_call5_v6 : Ref sig .tc := ⟨.hbm, 203, rfl⟩
abbrev main_call5_v7 : Ref sig .tc := ⟨.hbm, 204, rfl⟩
abbrev main_call5_v8 : Ref sig .tc := ⟨.hbm, 205, rfl⟩
abbrev main_call5_v9 : Ref sig .tc := ⟨.hbm, 206, rfl⟩
abbrev main_call5_v10 : Ref sig .tc := ⟨.hbm, 207, rfl⟩
abbrev main_call5_v11 : Ref sig .tc := ⟨.hbm, 208, rfl⟩
abbrev main_call5_c_3 : Ref sig .tc := ⟨.hbm, 209, rfl⟩
abbrev main_call5_v12 : Ref sig .tc := ⟨.hbm, 210, rfl⟩
abbrev main_call5_v13 : Ref sig .tc := ⟨.hbm, 211, rfl⟩
abbrev main_call5_v14 : Ref sig .tc := ⟨.hbm, 212, rfl⟩
abbrev main_call5_cst : Ref sig .tc := ⟨.hbm, 213, rfl⟩
abbrev main_call5_v15 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_cst_1 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4800x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4800x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4800x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4800x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S3000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4800x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4800x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S3000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S3000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S3000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S3000x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  shapeCasts_S128_S1x128 : S128.ShapeCasts S1x128
  inb_S3000x16_S3000x16_0_0 : ∀ a, (![0, 0] : Fin 2 → Nat) a + S3000x16.size a ≤ S3000x16.size a
  h_S3000x16 : 0 < S3000x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S3000x128_S3000x128_0_0 : ∀ a, (![0, 0] : Fin 2 → Nat) a + S3000x128.size a ≤ S3000x128.size a
  h_S3000x128 : 0 < S3000x128.numel
  bcast_S_S480000 : S_.BroadcastsInDim S480000 (![] : Fin 0 → Fin S480000.rank)
  bcast_S480000_S480000x1_0 : S480000.BroadcastsInDim S480000x1 (![0] : Fin 1 → Fin S480000x1.rank)
  bcast_S_S480000x1 : S_.BroadcastsInDim S480000x1 (![] : Fin 0 → Fin S480000x1.rank)
  bcast_S1_S1x1_1 : S1.BroadcastsInDim S1x1 (![1] : Fin 1 → Fin S1x1.rank)
  bcast_S1x1_S480000x1_0_1 : S1x1.BroadcastsInDim S480000x1 (![0, 1] : Fin 2 → Fin S480000x1.rank)
  reducesTo_S480000x1_S480000_d1 : S480000x1.ReducesTo [1] S480000
  h_S_ : 0 < S_.numel
  bcast_S480000_S480000x128_0 : S480000.BroadcastsInDim S480000x128 (![0] : Fin 1 → Fin S480000x128.rank)
  bcast_S_S480000x128 : S_.BroadcastsInDim S480000x128 (![] : Fin 0 → Fin S480000x128.rank)
  concatenates_S480000x128_S480000x128_S480000x256_d1 : Shape.Concatenates [S480000x128, S480000x128] S480000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  inb_S4800x256_S4800x256_0_0 : ∀ a, (![0, 0] : Fin 2 → Nat) a + S4800x256.size a ≤ S4800x256.size a
  h_S4800x256 : 0 < S4800x256.numel
  shapeCasts_S4800x256_S4800x256 : S4800x256.ShapeCasts S4800x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S4800x128 : S1x128.Broadcasts S4800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4800x128_S4800x128_0_0 : ∀ a, (![0, 0] : Fin 2 → Nat) a + S4800x128.size a ≤ S4800x128.size a
  h_S4800x128 : 0 < S4800x128.numel
  bcast_S_S30000x128 : S_.BroadcastsInDim S30000x128 (![] : Fin 0 → Fin S30000x128.rank)
  concatenates_S30000x128_S30000x128_S30000x256_d1 : Shape.Concatenates [S30000x128, S30000x128] S30000x256 1
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  shapeCasts_S3_S1x3 : S3.ShapeCasts S1x3
  shapeCasts_S3000x128_S3000x128 : S3000x128.ShapeCasts S3000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S3000x3 : S1x3.Broadcasts S3000x3
  inb_S3000x3_S3000x3_0_0 : ∀ a, (![0, 0] : Fin 2 → Nat) a + S3000x3.size a ≤ S3000x3.size a
  h_S3000x3 : 0 < S3000x3.numel
  dot_S3000x16_S16x128_S3000x128_1_0_0_1_n_n_wf : DotDims.WF S3000x16 S16x128 S3000x128 [1] [0] [0] [1] [] []
  gather_S30000x128_S480000x1_S480000x128_1_0_n_n_0_1_1128_wf : GatherDims.WF S30000x128 S480000x1 S480000x128 [1] [0] [] [0] [] 1 ![1, 128]
  dot_S4800x256_S256x128_S4800x128_1_0_0_1_n_n_wf : DotDims.WF S4800x256 S256x128 S4800x128 [1] [0] [0] [1] [] []
  dot_S4800x128_S128x128_S4800x128_1_0_0_1_n_n_wf : DotDims.WF S4800x128 S128x128 S4800x128 [1] [0] [0] [1] [] []
  scatter_S30000x128_S480000x1_S480000x128_1_0_0_1_wf : ScatterDims.WF S30000x128 S480000x1 S480000x128 [1] [0] [0] 1
  dot_S3000x256_S256x128_S3000x128_1_0_0_1_n_n_wf : DotDims.WF S3000x256 S256x128 S3000x128 [1] [0] [0] [1] [] []
  dot_S3000x128_S128x128_S3000x128_1_0_0_1_n_n_wf : DotDims.WF S3000x128 S128x128 S3000x128 [1] [0] [0] [1] [] []
  dot_S3000x128_S128x3_S3000x3_1_0_0_1_n_n_wf : DotDims.WF S3000x128 S128x3 S3000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x16.size a ≤ S30000x16.size a
  hwx0_0 : ∀ i : grid0.Coords, EltTy.bits .f32 = 32 ∨ (Rect.block (s := S30000x16) S3000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x128.size a ≤ S30000x128.size a
  hwx0_3 : ∀ i : grid0.Coords, EltTy.bits .f32 = 32 ∨ (Rect.block (s := S30000x128) S3000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4800x256.size a ≤ S480000x256.size a
  hwx1_0 : ∀ i : grid1.Coords, EltTy.bits .f32 = 32 ∨ (Rect.block (s := S480000x256) S4800x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4800x128.size a ≤ S480000x128.size a
  hwx1_5 : ∀ i : grid1.Coords, EltTy.bits .f32 = 32 ∨ (Rect.block (s := S480000x128) S4800x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x256.size a ≤ S30000x256.size a
  hwx2_0 : ∀ i : grid2.Coords, EltTy.bits .f32 = 32 ∨ (Rect.block (s := S30000x256) S3000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3000x128.size a ≤ S30000x128.size a
  hwx2_5 : ∀ i : grid2.Coords, EltTy.bits .f32 = 32 ∨ (Rect.block (s := S30000x128) S3000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4800x256.size a ≤ S480000x256.size a
  hwx3_0 : ∀ i : grid3.Coords, EltTy.bits .f32 = 32 ∨ (Rect.block (s := S480000x256) S4800x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4800x128.size a ≤ S480000x128.size a
  hwx3_5 : ∀ i : grid3.Coords, EltTy.bits .f32 = 32 ∨ (Rect.block (s := S480000x128) S4800x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x256.size a ≤ S30000x256.size a
  hwx4_0 : ∀ i : grid4.Coords, EltTy.bits .f32 = 32 ∨ (Rect.block (s := S30000x256) S3000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S3000x128.size a ≤ S30000x128.size a
  hwx4_5 : ∀ i : grid4.Coords, EltTy.bits .f32 = 32 ∨ (Rect.block (s := S30000x128) S3000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4800x256.size a ≤ S480000x256.size a
  hwx5_0 : ∀ i : grid5.Coords, EltTy.bits .f32 = 32 ∨ (Rect.block (s := S480000x256) S4800x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4800x128.size a ≤ S480000x128.size a
  hwx5_5 : ∀ i : grid5.Coords, EltTy.bits .f32 = 32 ∨ (Rect.block (s := S480000x128) S4800x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3000x256.size a ≤ S30000x256.size a
  hwx6_0 : ∀ i : grid6.Coords, EltTy.bits .f32 = 32 ∨ (Rect.block (s := S30000x256) S3000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S3000x128.size a ≤ S30000x128.size a
  hwx6_5 : ∀ i : grid6.Coords, EltTy.bits .f32 = 32 ∨ (Rect.block (s := S30000x128) S3000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3000x128.size a ≤ S30000x128.size a
  hwx7_0 : ∀ i : grid7.Coords, EltTy.bits .f32 = 32 ∨ (Rect.block (s := S30000x128) S3000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x3.size a ≤ S128x3.size a
  hwx7_1 : ∀ i : grid7.Coords, EltTy.bits .f32 = 32 ∨ (Rect.block (s := S128x3) S128x3.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x3.size a ≤ S1x3.size a
  hwx7_2 : ∀ i : grid7.Coords, EltTy.bits .f32 = 32 ∨ (Rect.block (s := S1x3) S1x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S3000x3.size a ≤ S30000x3.size a
  hwx7_3 : ∀ i : grid7.Coords, EltTy.bits .f32 = 32 ∨ (Rect.block (s := S30000x3) S3000x3.size (cc7_transform_3 i) (hinb7_3 i)).WholeWords (EltTy.packing .f32)

variable [Facts₀]

def dot_S3000x16_S16x128_S3000x128_1_0_0_1_n_n : DotDims S3000x16 S16x128 S3000x128 where
  lhsContracting := [1]
  rhsContracting := [0]
  lhsNonContracting := [0]
  rhsNonContracting := [1]
  lhsBatch := []
  rhsBatch := []
  wf := dot_S3000x16_S16x128_S3000x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S4800x256_S256x128_S4800x128_1_0_0_1_n_n : DotDims S4800x256 S256x128 S4800x128 where
  lhsContracting := [1]
  rhsContracting := [0]
  lhsNonContracting := [0]
  rhsNonContracting := [1]
  lhsBatch := []
  rhsBatch := []
  wf := dot_S4800x256_S256x128_S4800x128_1_0_0_1_n_n_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x128_S128x3_S3000x3_1_0_0_1_n_n : DotDims S3000x128 S128x3 S3000x3 where
  lhsContracting := [1]
  rhsContracting := [0]
  lhsNonContracting := [0]
  rhsNonContracting := [1]
  lhsBatch := []
  rhsBatch := []
  wf := dot_S3000x128_S128x3_S3000x3_1_0_0_1_n_n_wf

abbrev win0_0 : Pipeline.Window sig grid0 :=
  Pipeline.Window.ofSpec (Memref.whole main_arg0) S3000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S4800x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S4800x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S3000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S3000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S4800x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S4800x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S3000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S3000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S4800x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S4800x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S3000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S3000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v95) S3000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S128x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S3000x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S30000x16 : Shape := ⟨2, ![30000, 16]⟩
abbrev S2x480000 : Shape := ⟨2, ![2, 480000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S1x480000 : Shape := ⟨2, ![1, 480000]⟩
abbrev S480000 : Shape := ⟨1, ![480000]⟩
abbrev S30000x128 : Shape := ⟨2, ![30000, 128]⟩
abbrev S1x128 : Shape := ⟨2, ![1, 128]⟩
abbrev S_ : Shape := ⟨0, ![]⟩
abbrev S480000x1 : Shape := ⟨2, ![480000, 1]⟩
abbrev S480000x128 : Shape := ⟨2, ![480000, 128]⟩
abbrev S480000x256 : Shape := ⟨2, ![480000, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S30000x256 : Shape := ⟨2, ![30000, 256]⟩
abbrev S30000x3 : Shape := ⟨2, ![30000, 3]⟩
abbrev S1x3 : Shape := ⟨2, ![1, 3]⟩

abbrev nBuf : Space → Nat
  | .hbm => 215
  | .vmem => 0
  | .smem => 0
  | _ => 0

abbrev hbmTy0_0 (i : Nat) : BufTy := match i % 128 with
  | 0 => ⟨S30000x16, .f32⟩
  | 1 => ⟨S2x480000, .i32⟩
  | 2 => ⟨S16x128, .f32⟩
  | 3 => ⟨S128, .f32⟩
  | 4 => ⟨S128x3, .f32⟩
  | 5 => ⟨S3, .f32⟩
  | 6 => ⟨S3x256x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S1x480000, .i32⟩
  | 15 => ⟨S480000, .i32⟩
  | 16 => ⟨S1x480000, .i32⟩
  | 17 => ⟨S480000, .i32⟩
  | 18 => ⟨S30000x128, .f32⟩
  | 19 => ⟨S1x128, .f32⟩
  | 20 => ⟨S30000x128, .f32⟩
  | 21 => ⟨S30000x128, .f32⟩
  | 22 => ⟨S_, .i32⟩
  | 23 => ⟨S480000, .i32⟩
  | 24 => ⟨S480000, .i1⟩
  | 25 => ⟨S_, .i32⟩
  | 26 => ⟨S480000, .i32⟩
  | 27 => ⟨S480000, .i32⟩
  | 28 => ⟨S480000, .i32⟩
  | 29 => ⟨S480000x1, .i32⟩
  | 30 => ⟨S480000x128, .f32⟩
  | 31 => ⟨S_, .i32⟩
  | 32 => ⟨S480000, .i32⟩
  | 33 => ⟨S480000, .i1⟩
  | 34 => ⟨S_, .i32⟩
  | 35 => ⟨S480000, .i32⟩
  | 36 => ⟨S480000, .i32⟩
  | 37 => ⟨S480000, .i32⟩
  | 38 => ⟨S480000x1, .i32⟩
  | 39 => ⟨S480000x128, .f32⟩
  | 40 => ⟨S480000x256, .f32⟩
  | 41 => ⟨S1x256x128, .f32⟩
  | 42 => ⟨S256x128, .f32⟩
  | 43 => ⟨S1x128, .f32⟩
  | 44 => ⟨S128, .f32⟩
  | 45 => ⟨S1x128x128, .f32⟩
  | 46 => ⟨S128x128, .f32⟩
  | 47 => ⟨S1x128, .f32⟩
  | 48 => ⟨S128, .f32⟩
  | 49 => ⟨S480000x128, .f32⟩
  | 50 => ⟨S1x128, .f32⟩
  | 51 => ⟨S480000x128, .f32⟩
  | 52 => ⟨S480000x128, .f32⟩
  | 53 => ⟨S_, .f32⟩
  | 54 => ⟨S480000x128, .f32⟩
  | 55 => ⟨S480000x128, .f32⟩
  | 56 => ⟨S480000x128, .f32⟩
  | 57 => ⟨S1x128, .f32⟩
  | 58 => ⟨S480000x128, .f32⟩
  | 59 => ⟨S480000x128, .f32⟩
  | 60 => ⟨S_, .f32⟩
  | 61 => ⟨S30000x128, .f32⟩
  | 62 => ⟨S480000x1, .i32⟩
  | 63 => ⟨S30000x128, .f32⟩
  | 64 => ⟨S30000x256, .f32⟩
  | 65 => ⟨S1x256x128, .f32⟩
  | 66 => ⟨S256x128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S30000x128, .f32⟩
  | 74 => ⟨S1x128, .f32⟩
  | 75 => ⟨S30000x128, .f32⟩
  | 76 => ⟨S30000x128, .f32⟩
  | 77 => ⟨S_, .f32⟩
  | 78 => ⟨S30000x128, .f32⟩
  | 79 => ⟨S30000x128, .f32⟩
  | 80 => ⟨S30000x128, .f32⟩
  | 81 => ⟨S1x128, .f32⟩
  | 82 => ⟨S30000x128, .f32⟩
  | 83 => ⟨S30000x128, .f32⟩
  | 84 => ⟨S30000x128, .f32⟩
  | 85 => ⟨S_, .i32⟩
  | 86 => ⟨S480000, .i32⟩
  | 87 => ⟨S480000, .i1⟩
  | 88 => ⟨S_, .i32⟩
  | 89 => ⟨S480000, .i32⟩
  | 90 => ⟨S480000, .i32⟩
  | 91 => ⟨S480000, .i32⟩
  | 92 => ⟨S480000x1, .i32⟩
  | 93 => ⟨S480000x128, .f32⟩
  | 94 => ⟨S_, .i32⟩
  | 95 => ⟨S480000, .i32⟩
  | 96 => ⟨S480000, .i1⟩
  | 97 => ⟨S_, .i32⟩
  | 98 => ⟨S480000, .i32⟩
  | 99 => ⟨S480000, .i32⟩
  | 100 => ⟨S480000, .i32⟩
  | 101 => ⟨S480000x1, .i32⟩
  | 102 => ⟨S480000x128, .f32⟩
  | 103 => ⟨S480000x256, .f32⟩
  | 104 => ⟨S1x256x128, .f32⟩
  | 105 => ⟨S256x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S480000x128, .f32⟩
  | 113 => ⟨S1x128, .f32⟩
  | 114 => ⟨S480000x128, .f32⟩
  | 115 => ⟨S480000x128, .f32⟩
  | 116 => ⟨S_, .f32⟩
  | 117 => ⟨S480000x128, .f32⟩
  | 118 => ⟨S480000x128, .f32⟩
  | 119 => ⟨S480000x128, .f32⟩
  | 120 => ⟨S1x128, .f32⟩
  | 121 => ⟨S480000x128, .f32⟩
  | 122 => ⟨S480000x128, .f32⟩
  | 123 => ⟨S_, .f32⟩
  | 124 => ⟨S30000x128, .f32⟩
  | 125 => ⟨S480000x1, .i32⟩
  | 126 => ⟨S30000x128, .f32⟩
  | 127 => ⟨S30000x256, .f32⟩
  | _ => ⟨S30000x16, .f32⟩

abbrev hbmTy0_1 (i : Nat) : BufTy := match i % 128 with
  | 0 => ⟨S1x256x128, .f32⟩
  | 1 => ⟨S256x128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S128, .f32⟩
  | 8 => ⟨S30000x128, .f32⟩
  | 9 => ⟨S1x128, .f32⟩
  | 10 => ⟨S30000x128, .f32⟩
  | 11 => ⟨S30000x128, .f32⟩
  | 12 => ⟨S_, .f32⟩
  | 13 => ⟨S30000x128, .f32⟩
  | 14 => ⟨S30000x128, .f32⟩
  | 15 => ⟨S30000x128, .f32⟩
  | 16 => ⟨S1x128, .f32⟩
  | 17 => ⟨S30000x128, .f32⟩
  | 18 => ⟨S30000x128, .f32⟩
  | 19 => ⟨S30000x128, .f32⟩
  | 20 => ⟨S_, .i32⟩
  | 21 => ⟨S480000, .i32⟩
  | 22 => ⟨S480000, .i1⟩
  | 23 => ⟨S_, .i32⟩
  | 24 => ⟨S480000, .i32⟩
  | 25 => ⟨S480000, .i32⟩
  | 26 => ⟨S480000, .i32⟩
  | 27 => ⟨S480000x1, .i32⟩
  | 28 => ⟨S480000x128, .f32⟩
  | 29 => ⟨S_, .i32⟩
  | 30 => ⟨S480000, .i32⟩
  | 31 => ⟨S480000, .i1⟩
  | 32 => ⟨S_, .i32⟩
  | 33 => ⟨S480000, .i32⟩
  | 34 => ⟨S480000, .i32⟩
  | 35 => ⟨S480000, .i32⟩
  | 36 => ⟨S480000x1, .i32⟩
  | 37 => ⟨S480000x128, .f32⟩
  | 38 => ⟨S480000x256, .f32⟩
  | 39 => ⟨S1x256x128, .f32⟩
  | 40 => ⟨S256x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S480000x128, .f32⟩
  | 48 => ⟨S1x128, .f32⟩
  | 49 => ⟨S480000x128, .f32⟩
  | 50 => ⟨S480000x128, .f32⟩
  | 51 => ⟨S_, .f32⟩
  | 52 => ⟨S480000x128, .f32⟩
  | 53 => ⟨S480000x128, .f32⟩
  | 54 => ⟨S480000x128, .f32⟩
  | 55 => ⟨S1x128, .f32⟩
  | 56 => ⟨S480000x128, .f32⟩
  | 57 => ⟨S480000x128, .f32⟩
  | 58 => ⟨S_, .f32⟩
  | 59 => ⟨S30000x128, .f32⟩
  | 60 => ⟨S480000x1, .i32⟩
  | 61 => ⟨S30000x128, .f32⟩
  | 62 => ⟨S30000x256, .f32⟩
  | 63 => ⟨S1x256x128, .f32⟩
  | 64 => ⟨S256x128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S128, .f32⟩
  | 71 => ⟨S30000x128, .f32⟩
  | 72 => ⟨S1x128, .f32⟩
  | 73 => ⟨S30000x128, .f32⟩
  | 74 => ⟨S30000x128, .f32⟩
  | 75 => ⟨S_, .f32⟩
  | 76 => ⟨S30000x128, .f32⟩
  | 77 => ⟨S30000x128, .f32⟩
  | 78 => ⟨S30000x128, .f32⟩
  | 79 => ⟨S1x128, .f32⟩
  | 80 => ⟨S30000x128, .f32⟩
  | 81 => ⟨S30000x128, .f32⟩
  | 82 => ⟨S30000x128, .f32⟩
  | 83 => ⟨S30000x3, .f32⟩
  | 84 => ⟨S1x3, .f32⟩
  | 85 => ⟨S30000x3, .f32⟩
  | 86 => ⟨S30000x3, .f32⟩
  | _ => ⟨S30000x16, .f32⟩

abbrev hbmTy (i : Nat) : BufTy := match i / 128 with
  | 0 => hbmTy0_0 i
  | 1 => hbmTy0_1 i
  | _ => ⟨S30000x16, .f32⟩

abbrev bufTy : (tb : Table) → Fin (tcTables nBuf tb) → BufTy
  | .hbm, ⟨i, _⟩ => hbmTy i
  | _, _ => ⟨S30000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_cst : Ref sig .tc := ⟨.hbm, 77, rfl⟩
abbrev main_call1_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_3 : Ref sig .tc := ⟨.hbm, 85, rfl⟩
abbrev main_v62 : Ref sig .tc := ⟨.hbm, 86, rfl⟩
abbrev main_v63 : Ref sig .tc := ⟨.hbm, 87, rfl⟩
abbrev main_c_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_5 : Ref sig .tc := ⟨.hbm, 94, rfl⟩
abbrev main_v69 : Ref sig .tc := ⟨.hbm, 95, rfl⟩
abbrev main_v70 : Ref sig .tc := ⟨.hbm, 96, rfl⟩
abbrev main_c_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call2_cst : Ref sig .tc := ⟨.hbm, 116, rfl⟩
abbrev main_call2_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_7 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_call3_cst : Ref sig .tc := ⟨.hbm, 140, rfl⟩
abbrev main_call3_v0 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_8 : Ref sig .tc := ⟨.hbm, 148, rfl⟩
abbrev main_v116 : Ref sig .tc := ⟨.hbm, 149, rfl⟩
abbrev main_v117 : Ref sig .tc := ⟨.hbm, 150, rfl⟩
abbrev main_c_9 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_c_10 : Ref sig .tc := ⟨.hbm, 157, rfl⟩
abbrev main_v123 : Ref sig .tc := ⟨.hbm, 158, rfl⟩
abbrev main_v124 : Ref sig .tc := ⟨.hbm, 159, rfl⟩
abbrev main_c_11 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_call4_cst : Ref sig .tc := ⟨.hbm, 179, rfl⟩
abbrev main_call4_v0 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_12 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_call5_cst : Ref sig .tc := ⟨.hbm, 203, rfl⟩
abbrev main_call5_v0 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x128_S480000x256_d1 : Shape.Concatenates [S480000x128, S480000x128] S480000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  bcast_S1x128_S480000x128_0_1 : S1x128.BroadcastsInDim S480000x128 (![0, 1] : Fin 2 → Fin S480000x128.rank)
  bcast_S_S480000x128 : S_.BroadcastsInDim S480000x128 (![] : Fin 0 → Fin S480000x128.rank)
  bcast_S_S30000x128 : S_.BroadcastsInDim S30000x128 (![] : Fin 0 → Fin S30000x128.rank)
  concatenates_S30000x128_S30000x128_S30000x256_d1 : Shape.Concatenates [S30000x128, S30000x128] S30000x256 1
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  bcast_S3_S1x3_1 : S3.BroadcastsInDim S1x3 (![1] : Fin 1 → Fin S1x3.rank)
  bcast_S1x3_S30000x3_0_1 : S1x3.BroadcastsInDim S30000x3 (![0, 1] : Fin 2 → Fin S30000x3.rank)
  dot_S30000x16_S16x128_S30000x128_1_0_0_1_n_n_wf : DotDims.WF S30000x16 S16x128 S30000x128 [1] [0] [0] [1] [] []
  gather_S30000x128_S480000x1_S480000x128_1_0_n_n_0_1_1128_wf : GatherDims.WF S30000x128 S480000x1 S480000x128 [1] [0] [] [0] [] 1 ![1, 128]
  dot_S480000x256_S256x128_S480000x128_1_0_0_1_n_n_wf : DotDims.WF S480000x256 S256x128 S480000x128 [1] [0] [0] [1] [] []
  dot_S480000x128_S128x128_S480000x128_1_0_0_1_n_n_wf : DotDims.WF S480000x128 S128x128 S480000x128 [1] [0] [0] [1] [] []
  scatter_S30000x128_S480000x1_S480000x128_1_0_0_1_wf : ScatterDims.WF S30000x128 S480000x1 S480000x128 [1] [0] [0] 1
  dot_S30000x256_S256x128_S30000x128_1_0_0_1_n_n_wf : DotDims.WF S30000x256 S256x128 S30000x128 [1] [0] [0] [1] [] []
  dot_S30000x128_S128x128_S30000x128_1_0_0_1_n_n_wf : DotDims.WF S30000x128 S128x128 S30000x128 [1] [0] [0] [1] [] []
  dot_S30000x128_S128x3_S30000x3_1_0_0_1_n_n_wf : DotDims.WF S30000x128 S128x3 S30000x3 [1] [0] [0] [1] [] []

variable [Facts₀]

def dot_S30000x16_S16x128_S30000x128_1_0_0_1_n_n : DotDims S30000x16 S16x128 S30000x128 where
  lhsContracting := [1]
  rhsContracting := [0]
  lhsNonContracting := [0]
  rhsNonContracting := [1]
  lhsBatch := []
  rhsBatch := []
  wf := dot_S30000x16_S16x128_S30000x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S480000x256_S256x128_S480000x128_1_0_0_1_n_n : DotDims S480000x256 S256x128 S480000x128 where
  lhsContracting := [1]
  rhsContracting := [0]
  lhsNonContracting := [0]
  rhsNonContracting := [1]
  lhsBatch := []
  rhsBatch := []
  wf := dot_S480000x256_S256x128_S480000x128_1_0_0_1_n_n_wf
def dot_S480000x128_S128x128_S480000x128_1_0_0_1_n_n : DotDims S480000x128 S128x128 S480000x128 where
  lhsContracting := [1]
  rhsContracting := [0]
  lhsNonContracting := [0]
  rhsNonContracting := [1]
  lhsBatch := []
  rhsBatch := []
  wf := dot_S480000x128_S128x128_S480000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def dot_S30000x128_S128x3_S30000x3_1_0_0_1_n_n : DotDims S30000x128 S128x3 S30000x3 where
  lhsContracting := [1]
  rhsContracting := [0]
  lhsNonContracting := [0]
  rhsNonContracting := [1]
  lhsBatch := []
  rhsBatch := []
  wf := dot_S30000x128_S128x3_S30000x3_1_0_0_1_n_n_wf

class Facts : Prop extends Facts₀ where

variable [Facts]
-- ==== Proof.KKeep.lean ====
/-
  Which buffers each stretch of host operations of the kernel program writes, and that every other buffer keeps
  its contents across the stretch: each tensor value of the program has a buffer of its own, written once, so a
  value made early (an argument, the two index rows, the node states of a layer) is read unchanged later.
-/
import proofs.«410631_j824633721181_1_alg».proof.Proof.Gen.KernelIdeal.Frame

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers `hostOps0` writes. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps0`. -/
theorem keep_hostOps0 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers `hostOps1` writes. -/
abbrev hostOps1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps1`. -/
theorem keep_hostOps1 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The buffers `hostOps1_1` writes. -/
abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
theorem hostOps1_1_writes : (hostOps1_1 : List (HloOp τ sig (Elt F))).Forall fun op => op.writes ⊆ (hostOps1_1_W.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps1_1`. -/
theorem keep_hostOps1_1 (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

/-- The buffers `hostOps1_2` writes. -/
abbrev hostOps1_2_W : List (Ref sig .tc) := [main_v8, main_v9, main_v10, main_v11, main_v12, main_v13, main_v14, main_v15, main_v16, main_v17, main_v18]
theorem hostOps1_2_writes : (hostOps1_2 : List (HloOp τ sig (Elt F))).Forall fun op => op.writes ⊆ (hostOps1_2_W.map (Proc.devRef (τ := τ) .tc)).toFinset := by
  simp only [hostOps1_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps1_2`. -/
theorem keep_hostOps1_2 (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

/-- The buffers `hostOps2` writes. -/
abbrev hostOps2_W : List (Ref sig .tc) := [main_cst, main_v20, main_v21, main_v22, main_v23, main_v24, main_v25, main_v26, main_v27, main_v28, main_v29, main_v30, main_v31, main_v32, main_v33]
theorem hostOps2_writes : (hostOps2 : List (HloOp τ sig (Elt F))).Forall fun op => op.writes ⊆ (hostOps2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps2`. -/
theorem keep_hostOps2 (c : Dev nD) (r : Ref sig .tc) (h : r ∉ hostOps2_W) :
    W7 m ρ c (Proc.devRef .tc r) = W6 m ρ c (Proc.devRef .tc r) :=
  StableHlo.after_of_writes_sub hostOps2 _ hostOps2_writes h

/-- The buffers `hostOps3` writes. -/
abbrev hostOps3_W : List (Ref sig .tc) := [main_v35]
theorem hostOps3_writes : (hostOps3 : List (HloOp τ sig (Elt F))).Forall fun op => op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps3`. -/
theorem keep_hostOps3 (c : Dev nD) (r : Ref sig .tc) (h : r ∉ hostOps3_W) :
    W9 m ρ c (Proc.devRef .tc r) = W8 m ρ c (Proc.devRef .tc r) :=
  StableHlo.after_of_writes_sub hostOps3 _ hostOps3_writes h

/-- The buffers `hostOps3_1` writes. -/
abbrev hostOps3_1_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v36]
theorem hostOps3_1_writes : (hostOps3_1 : List (HloOp τ sig (Elt F))).Forall fun op => op.writes ⊆ (hostOps3_1_W.map (Proc.devRef (τ := τ) .tc)).toFinset := by
  simp only [hostOps3_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps3_1`. -/
theorem keep_hostOps3_1 (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h

/-- The buffers `hostOps3_2` writes. -/
abbrev hostOps3_2_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v37]
theorem hostOps3_2_writes : (hostOps3_2 : List (HloOp τ sig (Elt F))).Forall fun op => op.writes ⊆ (hostOps3_2_W.map (Proc.devRef (τ := τ) .tc)).toFinset := by
  simp only [hostOps3_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps3_2`. -/
theorem keep_hostOps3_2 (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h

/-- The buffers `hostOps3_3` writes. -/
abbrev hostOps3_3_W : List (Ref sig .tc) := [main_v38, main_v39, main_v40, main_v41, main_v42, main_v43, main_v44, main_v45, main_v46, main_v47, main_v48]
theorem hostOps3_3_writes : (hostOps3_3 : List (HloOp τ sig (Elt F))).Forall fun op => op.writes ⊆ (hostOps3_3_W.map (Proc.devRef (τ := τ) .tc)).toFinset := by
  simp only [hostOps3_3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps3_3`. -/
theorem keep_hostOps3_3 (c : Dev nD) (r : Ref sig .tc) (h : r ∉ hostOps3_3_W) :
    W12 m ρ c (Proc.devRef .tc r) = W11 m ρ c (Proc.devRef .tc r) :=
  StableHlo.after_of_writes_sub hostOps3_3 _ hostOps3_3_writes h

/-- The buffers `hostOps4` writes. -/
abbrev hostOps4_W : List (Ref sig .tc) := [main_cst_0, main_v50, main_v51, main_v52, main_v53, main_v54, main_v55, main_v56, main_v57, main_v58, main_v59, main_v60, main_v61, main_v62, main_v63]
theorem hostOps4_writes : (hostOps4 : List (HloOp τ sig (Elt F))).Forall fun op => op.writes ⊆ (hostOps4_W.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps4`. -/
theorem keep_hostOps4 (c : Dev nD) (r : Ref sig .tc) (h : r ∉ hostOps4_W) :
    W14 m ρ c (Proc.devRef .tc r) = W13 m ρ c (Proc.devRef .tc r) :=
  StableHlo.after_of_writes_sub hostOps4 _ hostOps4_writes h

/-- The buffers `hostOps5` writes. -/
abbrev hostOps5_W : List (Ref sig .tc) := [main_v65]
theorem hostOps5_writes : (hostOps5 : List (HloOp τ sig (Elt F))).Forall fun op => op.writes ⊆ (hostOps5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps5`. -/
theorem keep_hostOps5 (c : Dev nD) (r : Ref sig .tc) (h : r ∉ hostOps5_W) :
    W16 m ρ c (Proc.devRef .tc r) = W15 m ρ c (Proc.devRef .tc r) :=
  StableHlo.after_of_writes_sub hostOps5 _ hostOps5_writes h

/-- The buffers `hostOps5_1` writes. -/
abbrev hostOps5_1_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v66]
theorem hostOps5_1_writes : (hostOps5_1 : List (HloOp τ sig (Elt F))).Forall fun op => op.writes ⊆ (hostOps5_1_W.map (Proc.devRef (τ := τ) .tc)).toFinset := by
  simp only [hostOps5_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps5_1`. -/
theorem keep_hostOps5_1 (c : Dev nD) (r : Ref sig .tc) (h : r ∉ hostOps5_1_W) :
    W17 m ρ c (Proc.devRef .tc r) = W16 m ρ c (Proc.devRef .tc r) :=
  StableHlo.after_of_writes_sub hostOps5_1 _ hostOps5_1_writes h

/-- The buffers `hostOps5_2` writes. -/
abbrev hostOps5_2_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v67]
theorem hostOps5_2_writes : (hostOps5_2 : List (HloOp τ sig (Elt F))).Forall fun op => op.writes ⊆ (hostOps5_2_W.map (Proc.devRef (τ := τ) .tc)).toFinset := by
  simp only [hostOps5_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps5_2`. -/
theorem keep_hostOps5_2 (c : Dev nD) (r : Ref sig .tc) (h : r ∉ hostOps5_2_W) :
    W18 m ρ c (Proc.devRef .tc r) = W17 m ρ c (Proc.devRef .tc r) :=
  StableHlo.after_of_writes_sub hostOps5_2 _ hostOps5_2_writes h

/-- The buffers `hostOps5_3` writes. -/
abbrev hostOps5_3_W : List (Ref sig .tc) := [main_v68, main_v69, main_v70, main_v71, main_v72, main_v73, main_v74, main_v75, main_v76, main_v77, main_v78]
theorem hostOps5_3_writes : (hostOps5_3 : List (HloOp τ sig (Elt F))).Forall fun op => op.writes ⊆ (hostOps5_3_W.map (Proc.devRef (τ := τ) .tc)).toFinset := by
  simp only [hostOps5_3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps5_3`. -/
theorem keep_hostOps5_3 (c : Dev nD) (r : Ref sig .tc) (h : r ∉ hostOps5_3_W) :
    W19 m ρ c (Proc.devRef .tc r) = W18 m ρ c (Proc.devRef .tc r) :=
  StableHlo.after_of_writes_sub hostOps5_3 _ hostOps5_3_writes h

/-- The buffers `hostOps6` writes. -/
abbrev hostOps6_W : List (Ref sig .tc) := [main_cst_1, main_v80, main_v81, main_v82, main_v83, main_v84, main_v85, main_v86, main_v87, main_v88, main_v89, main_v90, main_v91, main_v92, main_v93]
theorem hostOps6_writes : (hostOps6 : List (HloOp τ sig (Elt F))).Forall fun op => op.writes ⊆ (hostOps6_W.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps6`. -/
theorem keep_hostOps6 (c : Dev nD) (r : Ref sig .tc) (h : r ∉ hostOps6_W) :
    W21 m ρ c (Proc.devRef .tc r) = W20 m ρ c (Proc.devRef .tc r) :=
  StableHlo.after_of_writes_sub hostOps6 _ hostOps6_writes h

/-- The buffers `hostOps7` writes. -/
abbrev hostOps7_W : List (Ref sig .tc) := [main_v95, main_v96]
theorem hostOps7_writes : (hostOps7 : List (HloOp τ sig (Elt F))).Forall fun op => op.writes ⊆ (hostOps7_W.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- Every other buffer keeps its contents across `hostOps7`. -/
theorem keep_hostOps7 (c : Dev nD) (r : Ref sig .tc) (h : r ∉ hostOps7_W) :
    W23 m ρ c (Proc.devRef .tc r) = W22 m ρ c (Proc.devRef .tc r) :=
  StableHlo.after_of_writes_sub hostOps7 _ hostOps7_writes h

/-! ## Chains: the arguments and the two index rows, read at any later boundary -/

/-- The buffers no item after the first stretch writes and no region before the last takes as an array: the arguments
    from the fifth on and the two index rows. -/
abbrev KL : List (Ref sig .tc) := [main_arg4, main_arg5, main_arg6, main_arg7, main_arg8, main_arg9, main_arg10, main_arg11, main_arg12, main_arg13, main_v1, main_v3]

/-- The arguments. -/
abbrev KA : List (Ref sig .tc) := [main_arg0, main_arg1, main_arg2, main_arg3, main_arg4, main_arg5, main_arg6, main_arg7, main_arg8, main_arg9, main_arg10, main_arg11, main_arg12, main_arg13]

theorem KA_notin_hostOps0 : ∀ r ∈ KA, r ∉ hostOps0_W := by decide
/-- An argument after the first stretch is as launched. -/
theorem arg_W1 (c : Dev nD) (r : Ref sig .tc) (hr : r ∈ KA) : W1 m ρ c (Proc.devRef .tc r) = m ((c : Thread nD τ).loc r) :=
  keep_hostOps0 m ρ c r (KA_notin_hostOps0 r hr)

theorem back_W1 (c : Dev nD) (r : Ref sig .tc) (hr : r ∈ KL) : W1 m ρ c (Proc.devRef .tc r) = W1 m ρ c (Proc.devRef .tc r) := rfl
theorem KL_ne_spec0 : ∀ r ∈ KL, ∀ w, Pipeline.arrRef spec0 w ≠ r := by decide
theorem back_W2 (c : Dev nD) (r : Ref sig .tc) (hr : r ∈ KL) : W2 m ρ c (Proc.devRef .tc r) = W1 m ρ c (Proc.devRef .tc r) :=
  (W2_of_ne m ρ c r (KL_ne_spec0 r hr)).trans (back_W1 m ρ c r hr)
theorem KL_notin_hostOps1 : ∀ r ∈ KL, r ∉ hostOps1_W := by decide
theorem back_W3 (c : Dev nD) (r : Ref sig .tc) (hr : r ∈ KL) : W3 m ρ c (Proc.devRef .tc r) = W1 m ρ c (Proc.devRef .tc r) :=
  (keep_hostOps1 m ρ c r (KL_notin_hostOps1 r hr)).trans (back_W2 m ρ c r hr)
theorem KL_notin_hostOps1_1 : ∀ r ∈ KL, r ∉ hostOps1_1_W := by decide
theorem back_W4 (c : Dev nD) (r : Ref sig .tc) (hr : r ∈ KL) : W4 m ρ c (Proc.devRef .tc r) = W1 m ρ c (Proc.devRef .tc r) :=
  (keep_hostOps1_1 m ρ c r (KL_notin_hostOps1_1 r hr)).trans (back_W3 m ρ c r hr)
theorem KL_notin_hostOps1_2 : ∀ r ∈ KL, r ∉ hostOps1_2_W := by decide
theorem back_W5 (c : Dev nD) (r : Ref sig .tc) (hr : r ∈ KL) : W5 m ρ c (Proc.devRef .tc r) = W1 m ρ c (Proc.devRef .tc r) :=
  (keep_hostOps1_2 m ρ c r (KL_notin_hostOps1_2 r hr)).trans (back_W4 m ρ c r hr)
theorem KL_ne_spec1 : ∀ r ∈ KL, ∀ w, Pipeline.arrRef spec1 w ≠ r := by decide
theorem back_W6 (c : Dev nD) (r : Ref sig .tc) (hr : r ∈ KL) : W6 m ρ c (Proc.devRef .tc r) = W1 m ρ c (Proc.devRef .tc r) :=
  (W6_of_ne m ρ c r (KL_ne_spec1 r hr)).trans (back_W5 m ρ c r hr)
theorem KL_notin_hostOps2 : ∀ r ∈ KL, r ∉ hostOps2_W := by decide
theorem back_W7 (c : Dev nD) (r : Ref sig .tc) (hr : r ∈ KL) : W7 m ρ c (Proc.devRef .tc r) = W1 m ρ c (Proc.devRef .tc r) :=
  (keep_hostOps2 m ρ c r (KL_notin_hostOps2 r hr)).trans (back_W6 m ρ c r hr)
theorem KL_ne_spec2 : ∀ r ∈ KL, ∀ w, Pipeline.arrRef spec2 w ≠ r := by decide
theorem back_W8 (c : Dev nD) (r : Ref sig .tc) (hr : r ∈ KL) : W8 m ρ c (Proc.devRef .tc r) = W1 m ρ c (Proc.devRef .tc r) :=
  (W8_of_ne m ρ c r (KL_ne_spec2 r hr)).trans (back_W7 m ρ c r hr)
theorem KL_notin_hostOps3 : ∀ r ∈ KL, r ∉ hostOps3_W := by decide
theorem back_W9 (c : Dev nD) (r : Ref sig .tc) (hr : r ∈ KL) : W9 m ρ c (Proc.devRef .tc r) = W1 m ρ c (Proc.devRef .tc r) :=
  (keep_hostOps3 m ρ c r (KL_notin_hostOps3 r hr)).trans (back_W8 m ρ c r hr)
theorem KL_notin_hostOps3_1 : ∀ r ∈ KL, r ∉ hostOps3_1_W := by decide
theorem back_W10 (c : Dev nD) (r : Ref sig .tc) (hr : r ∈ KL) : W10 m ρ c (Proc.devRef .tc r) = W1 m ρ c (Proc.devRef .tc r) :=
  (keep_hostOps3_1 m ρ c r (KL_notin_hostOps3_1 r hr)).trans (back_W9 m ρ c r hr)
theorem KL_notin_hostOps3_2 : ∀ r ∈ KL, r ∉ hostOps3_2_W := by decide
theorem back_W11 (c : Dev nD) (r : Ref sig .tc) (hr : r ∈ KL) : W11 m ρ c (Proc.devRef .tc r) = W1 m ρ c (Proc.devRef .tc r) :=
  (keep_hostOps3_2 m ρ c r (KL_notin_hostOps3_2 r hr)).trans (back_W10 m ρ c r hr)
theorem KL_notin_hostOps3_3 : ∀ r ∈ KL, r ∉ hostOps3_3_W := by decide
theorem back_W12 (c : Dev nD) (r : Ref sig .tc) (hr : r ∈ KL) : W12 m ρ c (Proc.devRef .tc r) = W1 m ρ c (Proc.devRef .tc r) :=
  (keep_hostOps3_3 m ρ c r (KL_notin_hostOps3_3 r hr)).trans (back_W11 m ρ c r hr)
theorem KL_ne_spec3 : ∀ r ∈ KL, ∀ w, Pipeline.arrRef spec3 w ≠ r := by decide
theorem back_W13 (c : Dev nD) (r : Ref sig .tc) (hr : r ∈ KL) : W13 m ρ c (Proc.devRef .tc r) = W1 m ρ c (Proc.devRef .tc r) :=
  (W13_of_ne m ρ c r (KL_ne_spec3 r hr)).trans (back_W12 m ρ c r hr)
theorem KL_notin_hostOps4 : ∀ r ∈ KL, r ∉ hostOps4_W := by decide
theorem back_W14 (c : Dev nD) (r : Ref sig .tc) (hr : r ∈ KL) : W14 m ρ c (Proc.devRef .tc r) = W1 m ρ c (Proc.devRef .tc r) :=
  (keep_hostOps4 m ρ c r (KL_notin_hostOps4 r hr)).trans (back_W13 m ρ c r hr)
theorem KL_ne_spec4 : ∀ r ∈ KL, ∀ w, Pipeline.arrRef spec4 w ≠ r := by decide
theorem back_W15 (c : Dev nD) (r : Ref sig .tc) (hr : r ∈ KL) : W15 m ρ c (Proc.devRef .tc r) = W1 m ρ c (Proc.devRef .tc r) :=
  (W15_of_ne m ρ c r (KL_ne_spec4 r hr)).trans (back_W14 m ρ c r hr)
theorem KL_notin_hostOps5 : ∀ r ∈ KL, r ∉ hostOps5_W := by decide
theorem back_W16 (c : Dev nD) (r : Ref sig .tc) (hr : r ∈ KL) : W16 m ρ c (Proc.devRef .tc r) = W1 m ρ c (Proc.devRef .tc r) :=
  (keep_hostOps5 m ρ c r (KL_notin_hostOps5 r hr)).trans (back_W15 m ρ c r hr)
theorem KL_notin_hostOps5_1 : ∀ r ∈ KL, r ∉ hostOps5_1_W := by decide
theorem back_W17 (c : Dev nD) (r : Ref sig .tc) (hr : r ∈ KL) : W17 m ρ c (Proc.devRef .tc r) = W1 m ρ c (Proc.devRef .tc r) :=
  (keep_hostOps5_1 m ρ c r (KL_notin_hostOps5_1 r hr)).trans (back_W16 m ρ c r hr)
theorem KL_notin_hostOps5_2 : ∀ r ∈ KL, r ∉ hostOps5_2_W := by decide
theorem back_W18 (c : Dev nD) (r : Ref sig .tc) (hr : r ∈ KL) : W18 m ρ c (Proc.devRef .tc r) = W1 m ρ c (Proc.devRef .tc r) :=
  (keep_hostOps5_2 m ρ c r (KL_notin_hostOps5_2 r hr)).trans (back_W17 m ρ c r hr)
theorem KL_notin_hostOps5_3 : ∀ r ∈ KL, r ∉ hostOps5_3_W := by decide
theorem back_W19 (c : Dev nD) (r : Ref sig .tc) (hr : r ∈ KL) : W19 m ρ c (Proc.devRef .tc r) = W1 m ρ c (Proc.devRef .tc r) :=
  (keep_hostOps5_3 m ρ c r (KL_notin_hostOps5_3 r hr)).trans (back_W18 m ρ c r hr)
theorem KL_ne_spec5 : ∀ r ∈ KL, ∀ w, Pipeline.arrRef spec5 w ≠ r := by decide
theorem back_W20 (c : Dev nD) (r : Ref sig .tc) (hr : r ∈ KL) : W20 m ρ c (Proc.devRef .tc r) = W1 m ρ c (Proc.devRef .tc r) :=
  (W20_of_ne m ρ c r (KL_ne_spec5 r hr)).trans (back_W19 m ρ c r hr)
theorem KL_notin_hostOps6 : ∀ r ∈ KL, r ∉ hostOps6_W := by decide
theorem back_W21 (c : Dev nD) (r : Ref sig .tc) (hr : r ∈ KL) : W21 m ρ c (Proc.devRef .tc r) = W1 m ρ c (Proc.devRef .tc r) :=
  (keep_hostOps6 m ρ c r (KL_notin_hostOps6 r hr)).trans (back_W20 m ρ c r hr)
theorem KL_ne_spec6 : ∀ r ∈ KL, ∀ w, Pipeline.arrRef spec6 w ≠ r := by decide
theorem back_W22 (c : Dev nD) (r : Ref sig .tc) (hr : r ∈ KL) : W22 m ρ c (Proc.devRef .tc r) = W1 m ρ c (Proc.devRef .tc r) :=
  (W22_of_ne m ρ c r (KL_ne_spec6 r hr)).trans (back_W21 m ρ c r hr)
theorem KL_notin_hostOps7 : ∀ r ∈ KL, r ∉ hostOps7_W := by decide
theorem back_W23 (c : Dev nD) (r : Ref sig .tc) (hr : r ∈ KL) : W23 m ρ c (Proc.devRef .tc r) = W1 m ρ c (Proc.devRef .tc r) :=
  (keep_hostOps7 m ρ c r (KL_notin_hostOps7 r hr)).trans (back_W22 m ρ c r hr)

/-! ## Chains: a layer's node states, read until the layer's residual sum; the source rows, read across the second gather -/

theorem main_v5_W2 (c : Dev nD) : W2 m ρ c (Proc.devRef .tc main_v5) = W2 m ρ c (Proc.devRef .tc main_v5) := rfl
theorem main_v5_W3 (c : Dev nD) : W3 m ρ c (Proc.devRef .tc main_v5) = W2 m ρ c (Proc.devRef .tc main_v5) :=
  (keep_hostOps1 m ρ c main_v5 (by decide)).trans (main_v5_W2 m ρ c)
theorem main_v5_W4 (c : Dev nD) : W4 m ρ c (Proc.devRef .tc main_v5) = W2 m ρ c (Proc.devRef .tc main_v5) :=
  (keep_hostOps1_1 m ρ c main_v5 (by decide)).trans (main_v5_W3 m ρ c)
theorem main_v5_W5 (c : Dev nD) : W5 m ρ c (Proc.devRef .tc main_v5) = W2 m ρ c (Proc.devRef .tc main_v5) :=
  (keep_hostOps1_2 m ρ c main_v5 (by decide)).trans (main_v5_W4 m ρ c)
theorem main_v5_W6 (c : Dev nD) : W6 m ρ c (Proc.devRef .tc main_v5) = W2 m ρ c (Proc.devRef .tc main_v5) :=
  (W6_of_ne m ρ c main_v5 (by decide)).trans (main_v5_W5 m ρ c)
theorem main_v5_W7 (c : Dev nD) : W7 m ρ c (Proc.devRef .tc main_v5) = W2 m ρ c (Proc.devRef .tc main_v5) :=
  (keep_hostOps2 m ρ c main_v5 (by decide)).trans (main_v5_W6 m ρ c)
theorem main_v5_W8 (c : Dev nD) : W8 m ρ c (Proc.devRef .tc main_v5) = W2 m ρ c (Proc.devRef .tc main_v5) :=
  (W8_of_ne m ρ c main_v5 (by decide)).trans (main_v5_W7 m ρ c)
theorem main_v35_W9 (c : Dev nD) : W9 m ρ c (Proc.devRef .tc main_v35) = W9 m ρ c (Proc.devRef .tc main_v35) := rfl
theorem main_v35_W10 (c : Dev nD) : W10 m ρ c (Proc.devRef .tc main_v35) = W9 m ρ c (Proc.devRef .tc main_v35) :=
  (keep_hostOps3_1 m ρ c main_v35 (by decide)).trans (main_v35_W9 m ρ c)
theorem main_v35_W11 (c : Dev nD) : W11 m ρ c (Proc.devRef .tc main_v35) = W9 m ρ c (Proc.devRef .tc main_v35) :=
  (keep_hostOps3_2 m ρ c main_v35 (by decide)).trans (main_v35_W10 m ρ c)
theorem main_v35_W12 (c : Dev nD) : W12 m ρ c (Proc.devRef .tc main_v35) = W9 m ρ c (Proc.devRef .tc main_v35) :=
  (keep_hostOps3_3 m ρ c main_v35 (by decide)).trans (main_v35_W11 m ρ c)
theorem main_v35_W13 (c : Dev nD) : W13 m ρ c (Proc.devRef .tc main_v35) = W9 m ρ c (Proc.devRef .tc main_v35) :=
  (W13_of_ne m ρ c main_v35 (by decide)).trans (main_v35_W12 m ρ c)
theorem main_v35_W14 (c : Dev nD) : W14 m ρ c (Proc.devRef .tc main_v35) = W9 m ρ c (Proc.devRef .tc main_v35) :=
  (keep_hostOps4 m ρ c main_v35 (by decide)).trans (main_v35_W13 m ρ c)
theorem main_v35_W15 (c : Dev nD) : W15 m ρ c (Proc.devRef .tc main_v35) = W9 m ρ c (Proc.devRef .tc main_v35) :=
  (W15_of_ne m ρ c main_v35 (by decide)).trans (main_v35_W14 m ρ c)
theorem main_v65_W16 (c : Dev nD) : W16 m ρ c (Proc.devRef .tc main_v65) = W16 m ρ c (Proc.devRef .tc main_v65) := rfl
theorem main_v65_W17 (c : Dev nD) : W17 m ρ c (Proc.devRef .tc main_v65) = W16 m ρ c (Proc.devRef .tc main_v65) :=
  (keep_hostOps5_1 m ρ c main_v65 (by decide)).trans (main_v65_W16 m ρ c)
theorem main_v65_W18 (c : Dev nD) : W18 m ρ c (Proc.devRef .tc main_v65) = W16 m ρ c (Proc.devRef .tc main_v65) :=
  (keep_hostOps5_2 m ρ c main_v65 (by decide)).trans (main_v65_W17 m ρ c)
theorem main_v65_W19 (c : Dev nD) : W19 m ρ c (Proc.devRef .tc main_v65) = W16 m ρ c (Proc.devRef .tc main_v65) :=
  (keep_hostOps5_3 m ρ c main_v65 (by decide)).trans (main_v65_W18 m ρ c)
theorem main_v65_W20 (c : Dev nD) : W20 m ρ c (Proc.devRef .tc main_v65) = W16 m ρ c (Proc.devRef .tc main_v65) :=
  (W20_of_ne m ρ c main_v65 (by decide)).trans (main_v65_W19 m ρ c)
theorem main_v65_W21 (c : Dev nD) : W21 m ρ c (Proc.devRef .tc main_v65) = W16 m ρ c (Proc.devRef .tc main_v65) :=
  (keep_hostOps6 m ρ c main_v65 (by decide)).trans (main_v65_W20 m ρ c)
theorem main_v65_W22 (c : Dev nD) : W22 m ρ c (Proc.devRef .tc main_v65) = W16 m ρ c (Proc.devRef .tc main_v65) :=
  (W22_of_ne m ρ c main_v65 (by decide)).trans (main_v65_W21 m ρ c)
theorem main_v6_W4 (c : Dev nD) : W4 m ρ c (Proc.devRef .tc main_v6) = W3 m ρ c (Proc.devRef .tc main_v6) :=
  keep_hostOps1_1 m ρ c main_v6 (by decide)
theorem main_v36_W11 (c : Dev nD) : W11 m ρ c (Proc.devRef .tc main_v36) = W10 m ρ c (Proc.devRef .tc main_v36) :=
  keep_hostOps3_2 m ρ c main_v36 (by decide)
theorem main_v66_W18 (c : Dev nD) : W18 m ρ c (Proc.devRef .tc main_v66) = W17 m ρ c (Proc.devRef .tc main_v66) :=
  keep_hostOps5_2 m ρ c main_v66 (by decide)

end Cert.KernelIdeal.Keep

end
-- ==== Proof.Forms.lean ====
/-
  The whole-array forms both programs are compared through, written once with the host's operations:
  a linear layer `x · W + b` (the bias a one-row matrix broadcast down the rows), the two-layer perceptron
  `relu (x · W₁ + b₁) · W₂ + b₂`, the row gather `h[idx]` with NumPy's wrap of a negative index, and the
  same gather with the out-of-range rows overwritten by the not-a-number pattern (`jnp.take`'s fill mode).
-/
import proofs.«410631_j824633721181_1_alg».proof.Proof.Gen.KernelIdeal
import proofs.«410631_j824633721181_1_alg».proof.Proof.Gen.ReferenceIdeal

noncomputable section

namespace Cert.Forms

open Idealize.ShloMosaic Idealize.SL.Sem
open Cert.ReferenceIdeal Cert.ReferenceIdeal.Facts₀

variable {F : FTy → Type} [FloatOps F]

/-- The encoder: `x · W + b` over 30000 rows, 16 → 128. -/
def lin0 (x : FVec F S30000x16 .f32) (W : FVec F S16x128 .f32) (b : FVec F S1x128 .f32) : FVec F S30000x128 .f32 :=
  addf (Host.dotGeneral dot_S30000x16_S16x128_S30000x128_1_0_0_1_n_n none x W)
    (broadcastInDim S30000x128 ![0, 1] bcast_S1x128_S30000x128_0_1 b)

/-- The decoder: `h · W + b` over 30000 rows, 128 → 3. -/
def lin7 (h : FVec F S30000x128 .f32) (W : FVec F S128x3 .f32) (b : FVec F S1x3 .f32) : FVec F S30000x3 .f32 :=
  addf (Host.dotGeneral dot_S30000x128_S128x3_S30000x3_1_0_0_1_n_n none h W)
    (broadcastInDim S30000x3 ![0, 1] bcast_S1x3_S30000x3_0_1 b)

/-- `max x 0` on the edge rows. -/
def reluE (x : FVec F S480000x128 .f32) : FVec F S480000x128 .f32 :=
  maximumf x (broadcastInDim S480000x128 ![] bcast_S_S480000x128 (constant S_ .f32 0x00000000#32))

/-- `max x 0` on the node rows. -/
def reluN (x : FVec F S30000x128 .f32) : FVec F S30000x128 .f32 :=
  maximumf x (broadcastInDim S30000x128 ![] bcast_S_S30000x128 (constant S_ .f32 0x00000000#32))

/-- The edge perceptron: `relu (x · W₁ + b₁) · W₂ + b₂` over 480000 rows, 256 → 128 → 128. -/
def mlpE (x : FVec F S480000x256 .f32) (W1 : FVec F S256x128 .f32) (b1 : FVec F S1x128 .f32)
    (W2 : FVec F S128x128 .f32) (b2 : FVec F S1x128 .f32) : FVec F S480000x128 .f32 :=
  addf (Host.dotGeneral dot_S480000x128_S128x128_S480000x128_1_0_0_1_n_n none
      (reluE (addf (Host.dotGeneral dot_S480000x256_S256x128_S480000x128_1_0_0_1_n_n none x W1)
        (broadcastInDim S480000x128 ![0, 1] bcast_S1x128_S480000x128_0_1 b1))) W2)
    (broadcastInDim S480000x128 ![0, 1] bcast_S1x128_S480000x128_0_1 b2)

/-- The node perceptron: `relu (x · W₁ + b₁) · W₂ + b₂` over 30000 rows, 256 → 128 → 128. -/
def mlpN (x : FVec F S30000x256 .f32) (W1 : FVec F S256x128 .f32) (b1 : FVec F S1x128 .f32)
    (W2 : FVec F S128x128 .f32) (b2 : FVec F S1x128 .f32) : FVec F S30000x128 .f32 :=
  addf (Host.dotGeneral dot_S30000x128_S128x128_S30000x128_1_0_0_1_n_n none
      (reluN (addf (Host.dotGeneral dot_S30000x256_S256x128_S30000x128_1_0_0_1_n_n none x W1)
        (broadcastInDim S30000x128 ![0, 1] bcast_S1x128_S30000x128_0_1 b1))) W2)
    (broadcastInDim S30000x128 ![0, 1] bcast_S1x128_S30000x128_0_1 b2)

/-- An index column for the gather: a negative index `i` is read as `i + 30000`. -/
def wrapIdx (idx : IVec S480000 32) : IVec S480000x1 32 :=
  broadcastInDim S480000x1 ![0] bcast_S480000_S480000x1_0
    (select (cmpi .slt idx (broadcastInDim S480000 ![] bcast_S_S480000 (constantI S_ 32 0#32)))
      (addi idx (broadcastInDim S480000 ![] bcast_S_S480000 (constantI S_ 32 30000#32))) idx)

/-- The rows `h[idx]`: the gather at the wrapped indices (a start outside the table is clamped into it). -/
def rowsAt (h : FVec F S30000x128 .f32) (idx : IVec S480000 32) : FVec F S480000x128 .f32 :=
  Host.gather gather_S30000x128_S480000x1_S480000x128_1_0_n_n_0_1_1128 h (wrapIdx idx)

/-- Which rows of the gather are in range: `0 ≤ i ≤ 29999` for the wrapped index `i`. -/
def inRange (idx : IVec S480000 32) : IVec S480000 1 :=
  Host.reduce IntOp.andi
    (andi (cmpi .sge (wrapIdx idx) (broadcastInDim S480000x1 ![] Cert.KernelIdeal.Facts₀.bcast_S_S480000x1 (constantI S_ 32 0#32)))
      (cmpi .sle (wrapIdx idx) (broadcastInDim S480000x1 ![0, 1] Cert.KernelIdeal.Facts₀.bcast_S1x1_S480000x1_0_1
        (broadcastInDim Cert.KernelIdeal.S1x1 ![1] Cert.KernelIdeal.Facts₀.bcast_S1_S1x1_1 (constantI Cert.KernelIdeal.S1 32 29999#32)))))
    (constantI S_ 1 1#1) Cert.KernelIdeal.Facts₀.reducesTo_S480000x1_S480000_d1 Cert.KernelIdeal.Facts₀.h_S_

/-- The rows `h[idx]` with every out-of-range row overwritten by the not-a-number pattern. -/
def rowsAtFill (h : FVec F S30000x128 .f32) (idx : IVec S480000 32) : FVec F S480000x128 .f32 :=
  select (broadcastInDim S480000x128 ![0] Cert.KernelIdeal.Facts₀.bcast_S480000_S480000x128_0 (inRange idx)) (rowsAt h idx)
    (broadcastInDim S480000x128 ![] bcast_S_S480000x128 (constant S_ .f32 0x7FC00000#32))

end Cert.Forms

end
-- ==== Proof.Net.lean ====
/-
  The network both programs compute, as one function of the fourteen argument arrays, written with the host's
  operations: the encoder `x · W + b`; three message-passing layers, each gathering the node states at the two
  ends of every edge, passing the concatenated pair through the edge perceptron, summing the messages into their
  destination nodes, passing the node state beside its sum through the node perceptron and adding the result to
  the state; the decoder `h · W + b`. It is stated over PARAMETERS for the two things the programs spell
  differently: how the rows at the edges' ends are taken (`Tr`, `Tc`) and how a bias vector becomes a one-row
  matrix (`B`, `B3`).
-/
import proofs.«410631_j824633721181_1_alg».proof.Proof.Forms

noncomputable section

namespace Cert.Net

open Idealize.ShloMosaic Idealize.SL.Sem
open Cert.ReferenceIdeal Cert.ReferenceIdeal.Facts₀

variable {F : FTy → Type} [FloatOps F]

/-- The source ends of the edges: row 0 of the edge list. -/
def rowOf (ei : IVec S2x480000 32) : IVec S480000 32 :=
  shapeCast S480000 (extractStridedSlice S1x480000 ![0, 0] ei slices_S2x480000_S1x480000_0_0) shapeCasts_S1x480000_S480000

/-- The destination ends of the edges: row 1 of the edge list. -/
def colOf (ei : IVec S2x480000 32) : IVec S480000 32 :=
  shapeCast S480000 (extractStridedSlice S1x480000 ![1, 0] ei slices_S2x480000_S1x480000_1_0) shapeCasts_S1x480000_S480000

/-- The messages summed into their destination nodes. -/
def aggOf (col : IVec S480000 32) (msg : FVec F S480000x128 .f32) : FVec F S30000x128 .f32 :=
  Host.scatterAdd scatter_S30000x128_S480000x1_S480000x128_1_0_0_1
    (broadcastInDim S30000x128 ![] bcast_S_S30000x128 (constant S_ .f32 0x00000000#32))
    (broadcastInDim S480000x1 ![0] bcast_S480000_S480000x1_0 col) msg

/-- One message-passing layer over the node states `h`, its eight weight arrays given as matrices and one-row biases. -/
def layer (Tr Tc : FVec F S30000x128 .f32 → FVec F S480000x128 .f32) (col : IVec S480000 32) (h : FVec F S30000x128 .f32)
    (eW1 : FVec F S256x128 .f32) (eb1 : FVec F S1x128 .f32) (eW2 : FVec F S128x128 .f32) (eb2 : FVec F S1x128 .f32)
    (nW1 : FVec F S256x128 .f32) (nb1 : FVec F S1x128 .f32) (nW2 : FVec F S128x128 .f32) (nb2 : FVec F S1x128 .f32) :
    FVec F S30000x128 .f32 :=
  addf h (Cert.Forms.mlpN
    (concatenate S30000x256 1 [⟨S30000x128, h⟩, ⟨S30000x128, aggOf col (Cert.Forms.mlpE
      (concatenate S480000x256 1 [⟨S480000x128, Tr h⟩, ⟨S480000x128, Tc h⟩] concatenates_S480000x128_S480000x128_S480000x256_d1)
      eW1 eb1 eW2 eb2)⟩] concatenates_S30000x128_S30000x128_S30000x256_d1)
    nW1 nb1 nW2 nb2)

/-- Layer `l`'s [256, 128] matrix out of a stacked [3, 256, 128] array. -/
def w256_0 (a : FVec F S3x256x128 .f32) : FVec F S256x128 .f32 :=
  shapeCast S256x128 (extractStridedSlice S1x256x128 ![0, 0, 0] a slices_S3x256x128_S1x256x128_0_0_0) shapeCasts_S1x256x128_S256x128
def w256_1 (a : FVec F S3x256x128 .f32) : FVec F S256x128 .f32 :=
  shapeCast S256x128 (extractStridedSlice S1x256x128 ![1, 0, 0] a slices_S3x256x128_S1x256x128_1_0_0) shapeCasts_S1x256x128_S256x128
def w256_2 (a : FVec F S3x256x128 .f32) : FVec F S256x128 .f32 :=
  shapeCast S256x128 (extractStridedSlice S1x256x128 ![2, 0, 0] a slices_S3x256x128_S1x256x128_2_0_0) shapeCasts_S1x256x128_S256x128

/-- Layer `l`'s [128, 128] matrix out of a stacked [3, 128, 128] array. -/
def w128_0 (a : FVec F S3x128x128 .f32) : FVec F S128x128 .f32 :=
  shapeCast S128x128 (extractStridedSlice S1x128x128 ![0, 0, 0] a slices_S3x128x128_S1x128x128_0_0_0) shapeCasts_S1x128x128_S128x128
def w128_1 (a : FVec F S3x128x128 .f32) : FVec F S128x128 .f32 :=
  shapeCast S128x128 (extractStridedSlice S1x128x128 ![1, 0, 0] a slices_S3x128x128_S1x128x128_1_0_0) shapeCasts_S1x128x128_S128x128
def w128_2 (a : FVec F S3x128x128 .f32) : FVec F S128x128 .f32 :=
  shapeCast S128x128 (extractStridedSlice S1x128x128 ![2, 0, 0] a slices_S3x128x128_S1x128x128_2_0_0) shapeCasts_S1x128x128_S128x128

/-- Layer `l`'s bias vector out of a stacked [3, 128] array. -/
def b128_0 (a : FVec F S3x128 .f32) : FVec F S128 .f32 :=
  shapeCast S128 (extractStridedSlice S1x128 ![0, 0] a slices_S3x128_S1x128_0_0) shapeCasts_S1x128_S128
def b128_1 (a : FVec F S3x128 .f32) : FVec F S128 .f32 :=
  shapeCast S128 (extractStridedSlice S1x128 ![1, 0] a slices_S3x128_S1x128_1_0) shapeCasts_S1x128_S128
def b128_2 (a : FVec F S3x128 .f32) : FVec F S128 .f32 :=
  shapeCast S128 (extractStridedSlice S1x128 ![2, 0] a slices_S3x128_S1x128_2_0) shapeCasts_S1x128_S128

section Whole

variable (Tr Tc : FVec F S30000x128 .f32 → FVec F S480000x128 .f32) (B : FVec F S128 .f32 → FVec F S1x128 .f32)
  (B3 : FVec F S3 .f32 → FVec F S1x3 .f32)
  (x : FVec F S30000x16 .f32) (ei : IVec S2x480000 32) (encW : FVec F S16x128 .f32) (encb : FVec F S128 .f32)
  (decW : FVec F S128x3 .f32) (decb : FVec F S3 .f32)
  (eW1 : FVec F S3x256x128 .f32) (eb1 : FVec F S3x128 .f32) (eW2 : FVec F S3x128x128 .f32) (eb2 : FVec F S3x128 .f32)
  (nW1 : FVec F S3x256x128 .f32) (nb1 : FVec F S3x128 .f32) (nW2 : FVec F S3x128x128 .f32) (nb2 : FVec F S3x128 .f32)

/-- The node states after the encoder. -/
def h0 : FVec F S30000x128 .f32 := Cert.Forms.lin0 x encW (B encb)

/-- The node states after the first layer. -/
def h1 : FVec F S30000x128 .f32 :=
  layer Tr Tc (colOf ei) (h0 B x encW encb) (w256_0 eW1) (B (b128_0 eb1)) (w128_0 eW2) (B (b128_0 eb2))
    (w256_0 nW1) (B (b128_0 nb1)) (w128_0 nW2) (B (b128_0 nb2))

/-- The node states after the second layer. -/
def h2 : FVec F S30000x128 .f32 :=
  layer Tr Tc (colOf ei) (h1 Tr Tc B x ei encW encb eW1 eb1 eW2 eb2 nW1 nb1 nW2 nb2)
    (w256_1 eW1) (B (b128_1 eb1)) (w128_1 eW2) (B (b128_1 eb2))
    (w256_1 nW1) (B (b128_1 nb1)) (w128_1 nW2) (B (b128_1 nb2))

/-- The node states after the third layer. -/
def h3 : FVec F S30000x128 .f32 :=
  layer Tr Tc (colOf ei) (h2 Tr Tc B x ei encW encb eW1 eb1 eW2 eb2 nW1 nb1 nW2 nb2)
    (w256_2 eW1) (B (b128_2 eb1)) (w128_2 eW2) (B (b128_2 eb2))
    (w256_2 nW1) (B (b128_2 nb1)) (w128_2 nW2) (B (b128_2 nb2))

/-- The network's result. -/
def out : FVec F S30000x3 .f32 :=
  Cert.Forms.lin7 (h3 Tr Tc B x ei encW encb eW1 eb1 eW2 eb2 nW1 nb1 nW2 nb2) decW (B3 decb)

end Whole

/-- A bias vector as a one-row matrix, by a change of shape (the kernel program's spelling). -/
def rowCast (b : FVec F S128 .f32) : FVec F S1x128 .f32 := shapeCast S1x128 b Cert.KernelIdeal.Facts₀.shapeCasts_S128_S1x128
def rowCast3 (b : FVec F S3 .f32) : FVec F S1x3 .f32 := shapeCast S1x3 b Cert.KernelIdeal.Facts₀.shapeCasts_S3_S1x3

/-- A bias vector as a one-row matrix, by a broadcast along a new leading axis (the reference's spelling). -/
def rowBcast (b : FVec F S128 .f32) : FVec F S1x128 .f32 := broadcastInDim S1x128 ![1] bcast_S128_S1x128_1 b
def rowBcast3 (b : FVec F S3 .f32) : FVec F S1x3 .f32 := broadcastInDim S1x3 ![1] bcast_S3_S1x3_1 b

end Cert.Net

end
-- ==== Proof.KRows.lean ====
/-
  The two index rows of the kernel program are rows 0 and 1 of the edge list; and the small tactic the
  buffer-by-buffer modules share.
-/
import proofs.«410631_j824633721181_1_alg».proof.Proof.KKeep
import proofs.«410631_j824633721181_1_alg».proof.Proof.Net
import Idealize.ShloMosaic.Lib.StableHlo.Run
import Idealize.ShloMosaic.PureOps.Ideal

noncomputable section

namespace Cert.KernelIdeal.KV

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

variable (m : (ℓ : Loc nD τ sig) → Buf (Elt Ideal) ℓ) (ρ : Dev nD → PrngReg) (c : Dev nD)

/-- The source row of the edge list. -/
theorem W1_v1 : W1 m ρ c (Proc.devRef .tc main_v1) = Cert.Net.rowOf (m ((c : Thread nD τ).loc main_arg1)) := by
  show StableHlo.after hostOps0 (W0 m ρ c) (Proc.devRef .tc main_v1) = _
  host_read hostOps0
  try rfl

/-- The destination row of the edge list. -/
theorem W1_v3 : W1 m ρ c (Proc.devRef .tc main_v3) = Cert.Net.colOf (m ((c : Thread nD τ).loc main_arg1)) := by
  show StableHlo.after hostOps0 (W0 m ρ c) (Proc.devRef .tc main_v3) = _
  host_read hostOps0
  try rfl

end Cert.KernelIdeal.KV

end
-- ==== Proof.LinearRows.lean ====
/-
  Row-wise affine maps `x ↦ x · W + b`, read at an index, at the ideal values.

  Two facts, each over the plain dimension numbers (rows × contraction by contraction × columns) and a
  one-row bias:

  * a matrix product accumulated into the zero matrix, read at `(a, b)`, is the textbook sum
    `∑ c, A (a, c) * B (c, b)` — the accumulator contributes `0 + _`, which holds at the infinities too;
  * a one-row matrix `[1, n]` laid down `m` rows, read at `(r, t)`, is the row's entry `(0, t)`.

  A block of rows of such a map and the whole map are then the same extended real index by index: the
  sum over the contracted coordinate mentions only row `a` of `A`.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.LinearRows

open Idealize.ShloMosaic Idealize.ShloMosaic.ValueIdx

/-- A plain product `[m, k] · [k, n]` accumulated into the zero matrix, at `(a, b)`: the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (StackMember.dotGeneral_plain_apply prec A B a b)

/-- A one-row matrix laid down `m` rows by the vector unit's broadcast, at `(r, t)`: the row at `(0, t)`. -/
theorem broadcastTo_oneRow_apply {α : Type} {m n : Nat}
    (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  match a with
  | ⟨0, _⟩ => rfl
  | ⟨1, _⟩ =>
    show t.val = if n = 1 then 0 else t.val
    split
    · have := t.isLt; omega
    · rfl

end Cert.LinearRows

end
-- ==== Proof.RegLin0.lean ====
/-
  The encoder layer `x · W + b` (30000 rows, 16 → 128) as the kernel computes it, ten blocks of 3000 rows.

  Grid point `t` holds rows `3000 t … 3000 t + 2999` of `x`, the whole of `W` and the one-row bias, and writes
  rows `3000 t …` of the result. Entry `(p, q)` of its block is `∑ k, x (3000 t + p, k) * W (k, q) + b (0, q)`:
  the product is accumulated into the zero matrix (`0 + _`), and the bias row is laid down the block's rows.
  The whole-array form is the same sum at row `r = 3000 t + p`, because a row of a matrix product depends
  only on that row of the left factor. The blocks tile the rows (row `r` lies in block `r / 3000`), so the
  array the region leaves is the whole-array form.
-/
import proofs.«410631_j824633721181_1_alg».proof.Proof.Gen.KernelIdeal.Frame
import proofs.«410631_j824633721181_1_alg».proof.Proof.Forms
import proofs.«410631_j824633721181_1_alg».proof.Proof.LinearRows
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Reg0

open Idealize.ShloMosaic Idealize.ShloMosaic.ValueIdx Idealize.SL.Sem Idealize.ShloMosaic.TcCoe
open Idealize.ShloMosaic.Pipeline (Dat Cfg Window)
open Cert.KernelIdeal Cert.KernelIdeal.Gen Cert.LinearRows

/-! ## One entry of a block, and one entry of the whole array -/

/-- Entry `(p, q)` of what the body stores: row `p` of the block of `x` against column `q` of `W`, plus the
    bias entry `(0, q)`. The block's dimension numbers are the plain ones (rows × 16 by 16 × columns). -/
theorem block_entry (x0 : Vec Ideal S3000x16 .f32) (x1 : Vec Ideal S16x128 .f32) (x2 : Vec Ideal S1x128 .f32)
    (p : Fin 3000) (q : Fin 128) :
    k0_pay1 (F := Ideal) x0 x1 x2 (ix2 p q) = (∑ k : Fin 16, x0 (ix2 p k) * x1 (ix2 k q)) + x2 (ix2 (0 : Fin 1) q) := by
  unfold k0_pay1
  -- a cast of a shape to itself is the identity
  simp only [shapeCast_self]
  refine (addf_apply _ _ _).trans ?_
  refine congrArg₂ (· + ·) ?_ ?_
  · exact matmul_plain_zero_apply none x0 x1 p q
  · exact broadcastTo_oneRow_apply broadcasts_S1x128_S3000x128 x2 p q

/-- Entry `(r, q)` of the whole-array form: the same sum over all 30000 rows. -/
theorem form_entry (X : FVec Ideal Cert.ReferenceIdeal.S30000x16 .f32) (W : FVec Ideal Cert.ReferenceIdeal.S16x128 .f32)
    (b : FVec Ideal Cert.ReferenceIdeal.S1x128 .f32) (r : Fin 30000) (q : Fin 128) :
    Cert.Forms.lin0 (F := Ideal) X W b (ix2 r q) = (∑ k : Fin 16, X (ix2 r k) * W (ix2 k q)) + b (ix2 (0 : Fin 1) q) := by
  unfold Cert.Forms.lin0
  refine (addf_apply _ _ _).trans ?_
  refine congrArg₂ (· + ·) ?_ ?_
  · exact StackMember.dotGeneral_plain_apply none X W r q
  · exact broadcastInDim_oneRow_apply _ b r q

/-- Where row `p` of the block is row `R` of `x`, and the block's `W` and bias are the arrays', entry `(p, q)` of the
    block is entry `(R, Q)` of the whole-array form. -/
theorem rows_meet (X : FVec Ideal Cert.ReferenceIdeal.S30000x16 .f32) (W : FVec Ideal Cert.ReferenceIdeal.S16x128 .f32)
    (b : FVec Ideal Cert.ReferenceIdeal.S1x128 .f32)
    (x0 : Vec Ideal S3000x16 .f32) (x1 : Vec Ideal S16x128 .f32) (x2 : Vec Ideal S1x128 .f32)
    (p : Fin 3000) (q : Fin 128) (R : Fin 30000) (Q : Fin 128)
    (h0 : ∀ k : Fin 16, x0 (ix2 p k) = X (ix2 R k)) (h1 : ∀ k : Fin 16, x1 (ix2 k q) = W (ix2 k Q))
    (h2 : x2 (ix2 (0 : Fin 1) q) = b (ix2 (0 : Fin 1) Q)) :
    k0_pay1 (F := Ideal) x0 x1 x2 (ix2 p q) = Cert.Forms.lin0 (F := Ideal) X W b (ix2 R Q) := by
  refine (block_entry x0 x1 x2 p q).trans (Eq.trans ?_ (form_entry X W b R Q).symm)
  refine congrArg₂ (· + ·) (Finset.sum_congr rfl fun k _ => ?_) h2
  rw [h0 k, h1 k]

/-! ## The blocks -/

theorem zero_offsets : (![0, 0] : Fin 2 → Nat) = fun _ => 0 := funext fun a => by fin_cases a <;> rfl

/-- The index maps over the grid: the block of `x` moves with the output's block down the rows, `W` and the bias
    stay at block `(0, 0)`, and the output's block at point `t` is `(t, 0)`. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array form of the arrays as the region finds them. -/
theorem flushed_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal)
          (Cert.Forms.lin0 (F := Ideal) (V c main_arg0) (V c main_arg2) (V c main_v4)) := by
  show (cfg0.win 3).cut (grid0.coords t) ((dat0 V c).after 3 t) = _
  rw [after0_3]
  unfold out0_3
  rw [View.canon_unit_zero zero_offsets]
  simp only [View.ld_unit_zero (S := S3000x16) zero_offsets, View.ld_unit_zero (S := S16x128) zero_offsets,
    View.ld_unit_zero (S := S1x128) zero_offsets]
  obtain ⟨e00, e01, e10, e11, e20, e21, e30, e31⟩ := block_indices t
  show (k0_pay1 (F := Ideal) (iblk0 V c 0 t) (iblk0 V c 1 t) (iblk0 V c 2 t) : S3000x128.Idx → Ideal .f32)
      = fun j : S3000x128.Idx =>
          Cert.Forms.lin0 (F := Ideal) (V c main_arg0) (V c main_arg2) (V c main_v4) (((cfg0.win 3).blk t).view.emb j)
  funext j
  obtain ⟨p, q, rfl⟩ : ∃ (p : Fin 3000) (q : Fin 128), j = ix2 p q := ⟨j 0, j 1, eq_ix2 j⟩
  -- the array index of the block's entry (p, q), by its two coordinates
  have hi := eq_ix2 (n0 := 30000) (n1 := 128) (((cfg0.win 3).blk t).view.emb (ix2 p q))
  refine (rows_meet (V c main_arg0) (V c main_arg2) (V c main_v4) (iblk0 V c 0 t) (iblk0 V c 1 t) (iblk0 V c 2 t) p q
      ((((cfg0.win 3).blk t).view.emb (ix2 p q)) 0) ((((cfg0.win 3).blk t).view.emb (ix2 p q)) 1) ?_ ?_ ?_).trans
    (congrArg (Cert.Forms.lin0 (F := Ideal) (V c main_arg0) (V c main_arg2) (V c main_v4)) hi.symm)
  -- a block's coordinate is its index times its extent plus the coordinate inside the block
  · intro k
    show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 3000 + 1 * p.val = win0_3.index t (0 : Fin 2) * 3000 + 1 * p.val; omega
    | ⟨1, _⟩ => show win0_0.index t (1 : Fin 2) * 16 + 1 * k.val = k.val; omega
  · intro k
    show V c main_arg2 (((cfg0.win 1).blk t).view.emb (ix2 k q)) = V c main_arg2 (ix2 k _)
    refine congrArg (V c main_arg2) (funext fun a => Fin.ext ?_)
    match a with
    | ⟨0, _⟩ => show win0_1.index t (0 : Fin 2) * 16 + 1 * k.val = k.val; omega
    | ⟨1, _⟩ => show win0_1.index t (1 : Fin 2) * 128 + 1 * q.val = win0_3.index t (1 : Fin 2) * 128 + 1 * q.val; omega
  · show V c main_v4 (((cfg0.win 2).blk t).view.emb (ix2 (0 : Fin 1) q)) = V c main_v4 (ix2 (0 : Fin 1) _)
    refine congrArg (V c main_v4) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = win0_3.index t (1 : Fin 2) * 128 + 1 * q.val; omega

/-! ## The blocks tile the rows -/

/-- An index of the result is in point `t`'s block iff each coordinate is in the block's range on its axis. -/
theorem mem_block (t : Fin cfg0.N) (i : S30000x128.Idx) :
    i ∈ ((cfg0.win 3).blk t).view.set ↔ ∀ a : Fin 2, win0_3.index t a * S3000x128.size a ≤ (i a).val
      ∧ (i a).val < win0_3.index t a * S3000x128.size a + S3000x128.size a := by
  show i ∈ ((View.whole main_v5).slice (win0_3.rect t)).set ↔ _
  rw [View.set_slice_whole, Rect.mem_set_unit]
  exact Iff.rfl

/-- Row `r` lies in the block of point `r / 3000`, and every point writes its block back. -/
theorem rows_covered (i : S30000x128.Idx) :
    ∃ t : Fin cfg0.N, (cfg0.win 3).flush t = true ∧ i ∈ ((cfg0.win 3).blk t).view.set := by
  have hi0 : (i 0).val < 30000 := (i 0).isLt
  have hi1 : (i 1).val < 128 := (i 1).isLt
  have hN : grid0.N = 10 := N_0
  have hlt : (i 0).val / 3000 < grid0.N := by rw [hN]; omega
  obtain ⟨-, -, -, -, -, -, e30, e31⟩ := block_indices ⟨(i 0).val / 3000, hlt⟩
  have e30' : win0_3.index ⟨(i 0).val / 3000, hlt⟩ (0 : Fin 2) = (i 0).val / 3000 := e30
  refine ⟨⟨(i 0).val / 3000, hlt⟩, flush0_3 _, ?_⟩
  rw [mem_block]
  intro a
  match a with
  | ⟨0, _⟩ =>
    show win0_3.index ⟨(i 0).val / 3000, hlt⟩ (0 : Fin 2) * 3000 ≤ (i 0).val
      ∧ (i 0).val < win0_3.index ⟨(i 0).val / 3000, hlt⟩ (0 : Fin 2) * 3000 + 3000
    omega
  | ⟨1, _⟩ =>
    show win0_3.index ⟨(i 0).val / 3000, hlt⟩ (1 : Fin 2) * 128 ≤ (i 1).val
      ∧ (i 1).val < win0_3.index ⟨(i 0).val / 3000, hlt⟩ (1 : Fin 2) * 128 + 128
    omega

/-! ## The array the region leaves -/

/-- After the region the result array is `x · W + b` of the arrays as the region found them, whatever they were. -/
theorem arr_out (V : (c : Dev nD) → (b : Ref sig .tc) → Buf (Elt Ideal) ((c : Thread nD τ).loc b)) (c : Dev nD) :
    (Cert.KernelIdeal.Gen.dat0 (F := Ideal) V c).arrAt 3 Cert.KernelIdeal.cfg0.N
      = Cert.Forms.lin0 (F := Ideal) (V c main_arg0) (V c main_arg2) (V c main_v4) :=
  (dat0 (F := Ideal) V c).arrAt_eq_of_cover 3
    (Cert.Forms.lin0 (F := Ideal) (V c main_arg0) (V c main_arg2) (V c main_v4))
    (fun t _ => flushed_eq V c t) rows_covered

end Cert.KernelIdeal.Reg0

end
-- ==== Proof.KHead.lean ====
/-
  The kernel program's buffers up to the encoder: the encoder's bias row is the bias vector in the shape of a
  one-row matrix, and the encoder region leaves `x · W + b` in its output array.
-/
import proofs.«410631_j824633721181_1_alg».proof.Proof.KRows
import proofs.«410631_j824633721181_1_alg».proof.Proof.RegLin0
import Idealize.ShloMosaic.Lib.StableHlo.Run
import Idealize.ShloMosaic.PureOps.Ideal

noncomputable section

namespace Cert.KernelIdeal.KH

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

/-- The bias row, from any contents of the buffers before the first stretch. -/
theorem rd_v4 (Wv : Valuation τ sig (Elt Ideal)) :
    StableHlo.after hostOps0 Wv (Proc.devRef .tc main_v4) = Cert.Net.rowCast (F := Ideal) (Wv (Proc.devRef .tc main_arg3)) := by
  host_read hostOps0
  try rfl

variable (m : (ℓ : Loc nD τ sig) → Buf (Elt Ideal) ℓ) (ρ : Dev nD → PrngReg) (c : Dev nD)

/-- The encoder's bias as a one-row matrix. -/
theorem W1_v4 : W1 m ρ c (Proc.devRef .tc main_v4) = Cert.Net.rowCast (F := Ideal) (m ((c : Thread nD τ).loc main_arg3)) :=
  rd_v4 (W0 m ρ c)

/-- The node states after the encoder region. -/
theorem W2_v5 : W2 m ρ c (Proc.devRef .tc main_v5)
    = Cert.Forms.lin0 (F := Ideal) (m ((c : Thread nD τ).loc main_arg0)) (m ((c : Thread nD τ).loc main_arg2)) (Cert.Net.rowCast (m ((c : Thread nD τ).loc main_arg3))) := by
  refine ((W2_arr m ρ c 3).trans (Cert.KernelIdeal.Reg0.arr_out (V1 m ρ) c)).trans ?_
  show Cert.Forms.lin0 (F := Ideal) (W1 m ρ c (Proc.devRef .tc main_arg0)) (W1 m ρ c (Proc.devRef .tc main_arg2)) (W1 m ρ c (Proc.devRef .tc main_v4)) = _
  rw [arg_W1 m ρ c main_arg0 (by decide), arg_W1 m ρ c main_arg2 (by decide), W1_v4]

end Cert.KernelIdeal.KH

end
-- ==== Proof.MlpPoint.lean ====
/-
  The two-layer perceptron `relu (x · W₁ + b₁) · W₂ + b₂` read at one entry, for any number of rows `m`, with
  256 input features, 128 hidden units and 128 outputs.

  Two spellings of it are read here: the one a kernel body computes on a block of rows (two products accumulated
  into zero splats, the one-row biases broadcast down the rows, a maximum with a zero splat) and the one the host
  computes on a whole array (two `dot_general`s, the biases broadcast in dimensions, a maximum with a broadcast
  zero constant). At the ideal values both read, at row `r` and column `q`,

      (∑ k, max ((∑ j, X (r, j) · W₁ (j, k)) + b₁ (0, k)) 0 · W₂ (k, q)) + b₂ (0, q),

  an extended real that depends on row `r` of `X` only: so a block of rows of the whole-array form is the
  body's form of that block of rows (`mlpAt_rows`).
-/
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.Lib.IdealHost
import Idealize.ShloMosaic.PureOps.Ideal.Laws

noncomputable section

namespace Cert.Mlp

open Idealize.ShloMosaic Idealize.ShloMosaic.ValueIdx Idealize.ShloMosaic.StackMember

variable {m : Nat}

/-- Entry `(r, q)` of the perceptron of `X`: the hidden activations of row `r` against column `q` of the second
    weights, plus the second bias. The zero of the maximum is kept as the word both programs print. -/
def mlpAt (X : FVec Ideal ⟨2, ![m, 256]⟩ .f32) (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) (r : Fin m) (q : Fin 128) : EReal :=
  (∑ k : Fin 128, max ((∑ j : Fin 256, X (ix2 r j) * W1 (ix2 j k)) + b1 (ix2 (0 : Fin 1) k)) (Ideal.ofBits .f32 0x00000000#32)
      * W2 (ix2 k q)) + b2 (ix2 (0 : Fin 1) q)

/-- The entry depends on row `r` of the operand only: a block whose row `p` is row `r` of the array has, in row `p`,
    the array's entries of row `r`. -/
theorem mlpAt_rows {m' : Nat} (x : FVec Ideal ⟨2, ![m, 256]⟩ .f32) (X : FVec Ideal ⟨2, ![m', 256]⟩ .f32)
    (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) (p : Fin m) (r : Fin m') (q : Fin 128)
    (h : ∀ j : Fin 256, x (ix2 p j) = X (ix2 r j)) : mlpAt x W1 b1 W2 b2 p q = mlpAt X W1 b1 W2 b2 r q := by
  unfold mlpAt
  simp only [h]

/-- A product accumulated into a zero splat, read at an entry: the sum over the contracted coordinate. -/
theorem matmul_plain_apply {k n : Nat} (prec : Option ContractPrecision) (A : FVec Ideal ⟨2, ![m, k]⟩ .f32)
    (B : FVec Ideal ⟨2, ![k, n]⟩ .f32) (a : Fin m) (b : Fin n) :
    matmul (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (dotGeneral_plain_apply prec A B a b)

/-! ## The body's spelling -/

/-- What a kernel body computes on a block of `m` rows. -/
def body (hb : (⟨2, ![1, 128]⟩ : Shape).Broadcasts ⟨2, ![m, 128]⟩)
    (x : FVec Ideal ⟨2, ![m, 256]⟩ .f32) (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) : FVec Ideal ⟨2, ![m, 128]⟩ .f32 :=
  addf (matmul (DotDims.plain m 128 128) none
      (maximumf (addf (matmul (DotDims.plain m 256 128) none x W1 (constant (F := Ideal) ⟨2, ![m, 128]⟩ .f32 0x00000000#32))
          (broadcastTo ⟨2, ![m, 128]⟩ b1 hb))
        (broadcast ⟨2, ![m, 128]⟩ (Scalar.ofBits (F := Ideal) .f32 0x00000000#32)))
      W2 (constant (F := Ideal) ⟨2, ![m, 128]⟩ .f32 0x00000000#32))
    (broadcastTo ⟨2, ![m, 128]⟩ b2 hb)

/-- The body's hidden activation at `(r, k)`. -/
theorem body_hidden_apply (hb : (⟨2, ![1, 128]⟩ : Shape).Broadcasts ⟨2, ![m, 128]⟩)
    (x : FVec Ideal ⟨2, ![m, 256]⟩ .f32) (W1 : FVec Ideal ⟨2, ![256, 128]⟩ .f32) (b1 : FVec Ideal ⟨2, ![1, 128]⟩ .f32)
    (r : Fin m) (k : Fin 128) :
    maximumf (addf (matmul (DotDims.plain m 256 128) none x W1 (constant (F := Ideal) ⟨2, ![m, 128]⟩ .f32 0x00000000#32))
          (broadcastTo ⟨2, ![m, 128]⟩ b1 hb))
        (broadcast ⟨2, ![m, 128]⟩ (Scalar.ofBits (F := Ideal) .f32 0x00000000#32)) (ix2 r k)
      = max ((∑ j : Fin 256, x (ix2 r j) * W1 (ix2 j k)) + b1 (ix2 (0 : Fin 1) k)) (Ideal.ofBits .f32 0x00000000#32) := by
  rw [maximumf_apply, addf_apply, matmul_plain_apply, broadcastTo_1b_ab_apply]
  rfl

/-- The body's result at `(r, q)`. -/
theorem body_apply (hb : (⟨2, ![1, 128]⟩ : Shape).Broadcasts ⟨2, ![m, 128]⟩)
    (x : FVec Ideal ⟨2, ![m, 256]⟩ .f32) (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) (r : Fin m) (q : Fin 128) :
    body hb x W1 b1 W2 b2 (ix2 r q) = mlpAt x W1 b1 W2 b2 r q := by
  unfold body mlpAt
  rw [addf_apply, matmul_plain_apply, broadcastTo_1b_ab_apply]
  refine congrArg (· + b2 (ix2 (0 : Fin 1) q)) (Finset.sum_congr rfl fun k _ => ?_)
  rw [body_hidden_apply]

/-! ## The host's spelling -/

/-- What the host computes on a whole array of `m` rows. -/
def host (hbc : (⟨2, ![1, 128]⟩ : Shape).BroadcastsInDim ⟨2, ![m, 128]⟩ ![0, 1])
    (hz : (⟨0, ![]⟩ : Shape).BroadcastsInDim ⟨2, ![m, 128]⟩ ![])
    (X : FVec Ideal ⟨2, ![m, 256]⟩ .f32) (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) : FVec Ideal ⟨2, ![m, 128]⟩ .f32 :=
  addf (Host.dotGeneral (F := Ideal) (DotDims.plain m 128 128) none
      (maximumf (addf (Host.dotGeneral (F := Ideal) (DotDims.plain m 256 128) none X W1)
          (broadcastInDim ⟨2, ![m, 128]⟩ ![0, 1] hbc b1))
        (broadcastInDim ⟨2, ![m, 128]⟩ ![] hz (constant (F := Ideal) ⟨0, ![]⟩ .f32 0x00000000#32)))
      W2)
    (broadcastInDim ⟨2, ![m, 128]⟩ ![0, 1] hbc b2)

/-- The host's hidden activation at `(r, k)`. -/
theorem host_hidden_apply (hbc : (⟨2, ![1, 128]⟩ : Shape).BroadcastsInDim ⟨2, ![m, 128]⟩ ![0, 1])
    (hz : (⟨0, ![]⟩ : Shape).BroadcastsInDim ⟨2, ![m, 128]⟩ ![])
    (X : FVec Ideal ⟨2, ![m, 256]⟩ .f32) (W1 : FVec Ideal ⟨2, ![256, 128]⟩ .f32) (b1 : FVec Ideal ⟨2, ![1, 128]⟩ .f32)
    (r : Fin m) (k : Fin 128) :
    maximumf (addf (Host.dotGeneral (F := Ideal) (DotDims.plain m 256 128) none X W1)
          (broadcastInDim ⟨2, ![m, 128]⟩ ![0, 1] hbc b1))
        (broadcastInDim ⟨2, ![m, 128]⟩ ![] hz (constant (F := Ideal) ⟨0, ![]⟩ .f32 0x00000000#32)) (ix2 r k)
      = max ((∑ j : Fin 256, X (ix2 r j) * W1 (ix2 j k)) + b1 (ix2 (0 : Fin 1) k)) (Ideal.ofBits .f32 0x00000000#32) := by
  rw [maximumf_apply, addf_apply, dotGeneral_plain_apply, broadcastInDim_oneRow_apply, broadcastInDim_scalar_apply]
  rfl

/-- The host's result at `(r, q)`. -/
theorem host_apply (hbc : (⟨2, ![1, 128]⟩ : Shape).BroadcastsInDim ⟨2, ![m, 128]⟩ ![0, 1])
    (hz : (⟨0, ![]⟩ : Shape).BroadcastsInDim ⟨2, ![m, 128]⟩ ![])
    (X : FVec Ideal ⟨2, ![m, 256]⟩ .f32) (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) (r : Fin m) (q : Fin 128) :
    host hbc hz X W1 b1 W2 b2 (ix2 r q) = mlpAt X W1 b1 W2 b2 r q := by
  unfold host mlpAt
  rw [addf_apply, dotGeneral_plain_apply, broadcastInDim_oneRow_apply]
  refine congrArg (· + b2 (ix2 (0 : Fin 1) q)) (Finset.sum_congr rfl fun k _ => ?_)
  rw [host_hidden_apply]

/-- A block of rows of the host's form is the body's form of the block: row `p` of the block `x` being row `r` of
    the array `X`, the body's entry `(p, q)` is the host's entry `(r, q)`. -/
theorem body_eq_host_at {m' : Nat} (hb : (⟨2, ![1, 128]⟩ : Shape).Broadcasts ⟨2, ![m, 128]⟩)
    (hbc : (⟨2, ![1, 128]⟩ : Shape).BroadcastsInDim ⟨2, ![m', 128]⟩ ![0, 1])
    (hz : (⟨0, ![]⟩ : Shape).BroadcastsInDim ⟨2, ![m', 128]⟩ ![])
    (x : FVec Ideal ⟨2, ![m, 256]⟩ .f32) (X : FVec Ideal ⟨2, ![m', 256]⟩ .f32)
    (W1 : FVec Ideal ⟨2, ![256, 128]⟩ .f32) (b1 : FVec Ideal ⟨2, ![1, 128]⟩ .f32)
    (W2 : FVec Ideal ⟨2, ![128, 128]⟩ .f32) (b2 : FVec Ideal ⟨2, ![1, 128]⟩ .f32) (p : Fin m) (r : Fin m') (q : Fin 128)
    (h : ∀ j : Fin 256, x (ix2 p j) = X (ix2 r j)) :
    body hb x W1 b1 W2 b2 (ix2 p q) = host hbc hz X W1 b1 W2 b2 (ix2 r q) :=
  (body_apply hb x W1 b1 W2 b2 p q).trans ((mlpAt_rows x X W1 b1 W2 b2 p r q h).trans (host_apply hbc hz X W1 b1 W2 b2 r q).symm)

end Cert.Mlp

end
-- ==== Proof.MlpEdge.lean ====
/-
  The perceptron on the EDGE rows (480000 rows, blocks of 4800): each of the three edge kernels' stored value is the
  body's spelling on its block of rows, the whole-array form `Cert.Forms.mlpE` is the host's spelling, and a block whose
  row `p` is row `r` of the array has, at `(p, q)`, the array form's entry `(r, q)`.
-/
import proofs.«410631_j824633721181_1_alg».proof.Proof.Gen.KernelIdeal.Skeleton
import proofs.«410631_j824633721181_1_alg».proof.Proof.Forms
import proofs.«410631_j824633721181_1_alg».proof.Proof.MlpPoint

noncomputable section

namespace Cert.Mlp

open Idealize.ShloMosaic Idealize.ShloMosaic.ValueIdx
open Cert.KernelIdeal Cert.KernelIdeal.Gen

/-- The first edge kernel's stored value is the body's spelling: its shape casts are to the same shapes. -/
theorem pay1_eq_body (x0 : Vec Ideal S4800x256 .f32) (x1 : Vec Ideal S256x128 .f32) (x2 : Vec Ideal S1x128 .f32)
    (x3 : Vec Ideal S128x128 .f32) (x4 : Vec Ideal S1x128 .f32) :
    k1_pay1 x0 x1 x2 x3 x4 = body (m := 4800) Facts₀.broadcasts_S1x128_S4800x128 x0 x1 x2 x3 x4 := by
  unfold k1_pay1 body
  simp only [shapeCast_self]
  rfl

/-- The second and third edge kernels store the same term. -/
theorem pay3_eq_pay1 : @k3_pay1 Ideal _ = @k1_pay1 Ideal _ := rfl
theorem pay5_eq_pay1 : @k5_pay1 Ideal _ = @k1_pay1 Ideal _ := rfl

/-- The whole-array form is the host's spelling: its dimension numbers are the plain product's. -/
theorem mlpE_eq_host (X : FVec Ideal Cert.ReferenceIdeal.S480000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) :
    Cert.Forms.mlpE (F := Ideal) X W1 b1 W2 b2
      = host (m := 480000) Cert.ReferenceIdeal.Facts₀.bcast_S1x128_S480000x128_0_1 Cert.ReferenceIdeal.Facts₀.bcast_S_S480000x128 X W1 b1 W2 b2 := rfl

/-- Entry `(p, q)` of the first edge kernel's stored value, on a block whose row `p` is row `r` of the array `X`
    and whose other operands are the whole weights and biases, is entry `(r, q)` of the whole-array form. -/
theorem pay1_point (X : FVec Ideal Cert.ReferenceIdeal.S480000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S4800x256 .f32) (p : Fin 4800) (r : Fin 480000) (q : Fin 128)
    (h : ∀ j : Fin 256, x0 (ix2 p j) = X (ix2 r j)) :
    k1_pay1 x0 W1 b1 W2 b2 (ix2 p q) = Cert.Forms.mlpE (F := Ideal) X W1 b1 W2 b2 (ix2 r q) := by
  rw [pay1_eq_body, mlpE_eq_host]
  exact body_eq_host_at _ _ _ x0 X W1 b1 W2 b2 p r q h

theorem pay3_point (X : FVec Ideal Cert.ReferenceIdeal.S480000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S4800x256 .f32) (p : Fin 4800) (r : Fin 480000) (q : Fin 128)
    (h : ∀ j : Fin 256, x0 (ix2 p j) = X (ix2 r j)) :
    k3_pay1 x0 W1 b1 W2 b2 (ix2 p q) = Cert.Forms.mlpE (F := Ideal) X W1 b1 W2 b2 (ix2 r q) :=
  pay1_point X W1 b1 W2 b2 x0 p r q h

theorem pay5_point (X : FVec Ideal Cert.ReferenceIdeal.S480000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S4800x256 .f32) (p : Fin 4800) (r : Fin 480000) (q : Fin 128)
    (h : ∀ j : Fin 256, x0 (ix2 p j) = X (ix2 r j)) :
    k5_pay1 x0 W1 b1 W2 b2 (ix2 p q) = Cert.Forms.mlpE (F := Ideal) X W1 b1 W2 b2 (ix2 r q) :=
  pay1_point X W1 b1 W2 b2 x0 p r q h

end Cert.Mlp

end
-- ==== Proof.RegMlp1.lean ====
/-
  The first edge perceptron (rows of the concatenated edge features): the array its launch leaves, as one function of
  the arrays the launch finds.

  The 480000 output rows are cut into 100 blocks of 4800 rows; grid point `t` reads rows `4800 t … 4800 t + 4799` of the
  operand and the whole weights and biases, and writes back rows `4800 t … 4800 t + 4799` of the result. What it writes
  at `(p, q)` of its block is entry `(4800 t + p, q)` of the whole-array perceptron, because that entry depends on
  row `4800 t + p` of the operand only; the block that covers row `r` is block `r / 4800`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpEdge
import Idealize.ShloMosaic.Lib.Pipeline.Value

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 100 points: the operand's and the result's block at point `t` is block `(t, 0)`,
    the weights' and biases' block is `(0, 0)`. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array's row under row `p` of point `t`'s block. -/
def rowOf (t : Fin cfg1.N) (p : Fin 4800) : Fin 480000 :=
  ⟨t.val * 4800 + p.val, by have := t.isLt; have := p.isLt; have e : cfg1.N = 100 := N_1; omega⟩

/-- Row `p` of the operand's block at point `t` is row `4800 t + p` of the operand. -/
theorem operand_block (c : Dev nD) (t : Fin cfg1.N) (p : Fin 4800) (j : Fin 256) :
    (iblk1 V c 0 t : Vec Ideal S4800x256 .f32) (ix2 p j) = (V c main_v8 : Vec Ideal S480000x256 .f32) (ix2 (rowOf t p) j) := by
  obtain ⟨e0, e1, -⟩ := index_maps t
  show V c main_v8 (((cfg1.win 0).blk t).view.emb (ix2 p j)) = V c main_v8 (ix2 (rowOf t p) j)
  refine congrArg (V c main_v8) (funext fun a => Fin.ext ?_)
  match a with
  | ⟨0, _⟩ => show win1_0.index t (0 : Fin 2) * 4800 + 1 * p.val = t.val * 4800 + p.val; omega
  | ⟨1, _⟩ => show win1_0.index t (1 : Fin 2) * 256 + 1 * j.val = j.val; omega

/-- The first weights' block at any point is the whole array. -/
theorem hidden_weights_block (c : Dev nD) (t : Fin cfg1.N) : (iblk1 V c 1 t : Vec Ideal S256x128 .f32) = V c main_v10 := by
  obtain ⟨-, -, e0, e1, -⟩ := index_maps t
  funext y
  show V c main_v10 (((cfg1.win 1).blk t).view.emb y) = V c main_v10 y
  refine congrArg (V c main_v10) (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The first bias's block at any point is the whole row. -/
theorem hidden_bias_block (c : Dev nD) (t : Fin cfg1.N) : (iblk1 V c 2 t : Vec Ideal S1x128 .f32) = V c main_v13 := by
  obtain ⟨-, -, -, -, e0, e1, -⟩ := index_maps t
  funext y
  show V c main_v13 (((cfg1.win 2).blk t).view.emb y) = V c main_v13 y
  refine congrArg (V c main_v13) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weights' block at any point is the whole array. -/
theorem out_weights_block (c : Dev nD) (t : Fin cfg1.N) : (iblk1 V c 3 t : Vec Ideal S128x128 .f32) = V c main_v15 := by
  obtain ⟨-, -, -, -, -, -, e0, e1, -⟩ := index_maps t
  funext y
  show V c main_v15 (((cfg1.win 3).blk t).view.emb y) = V c main_v15 y
  refine congrArg (V c main_v15) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias's block at any point is the whole row. -/
theorem out_bias_block (c : Dev nD) (t : Fin cfg1.N) : (iblk1 V c 4 t : Vec Ideal S1x128 .f32) = V c main_v18 := by
  obtain ⟨-, -, -, -, -, -, -, -, e0, e1, -⟩ := index_maps t
  funext y
  show V c main_v18 (((cfg1.win 4).blk t).view.emb y) = V c main_v18 y
  refine congrArg (V c main_v18) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The whole-array perceptron of the arrays the launch finds. -/
abbrev result (c : Dev nD) : Vec Ideal S480000x128 .f32 :=
  Cert.Forms.mlpE (F := Ideal) (V c main_v8) (V c main_v10) (V c main_v13) (V c main_v15) (V c main_v18)

/-- What point `t` writes back is block `t` of the whole-array perceptron. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero offsets_zero]
  simp only [View.ld_unit_zero (S := S4800x256) offsets_zero, View.ld_unit_zero (S := S256x128) offsets_zero,
    View.ld_unit_zero (S := S1x128) offsets_zero, View.ld_unit_zero (S := S128x128) offsets_zero]
  funext j
  obtain ⟨p, q, rfl⟩ : ∃ (p : Fin 4800) (q : Fin 128), j = ix2 p q := ⟨j 0, j 1, eq_ix2 j⟩
  obtain ⟨-, -, -, -, -, -, -, -, -, -, e0, e1⟩ := index_maps t
  have e : ((cfg1.win 5).blk t).view.emb (ix2 p q) = ix2 (rowOf t p) q := by
    funext a; apply Fin.ext
    match a with
    | ⟨0, _⟩ => show win1_5.index t (0 : Fin 2) * 4800 + 1 * p.val = t.val * 4800 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = result V c (((cfg1.win 5).blk t).view.emb (ix2 p q))
  rw [e, hidden_weights_block V c t, hidden_bias_block V c t, out_weights_block V c t, out_bias_block V c t]
  exact Cert.Mlp.pay1_point _ _ _ _ _ _ p (rowOf t p) q (operand_block V c t p)

/-- An index of the result array is in point `t`'s block exactly when each coordinate is in the block's range. -/
theorem mem_block (t : Fin cfg1.N) (i : S480000x128.Idx) :
    i ∈ ((cfg1.win 5).blk t).view.set ↔ ∀ a : Fin 2, win1_5.index t a * S4800x128.size a ≤ (i a).val
      ∧ (i a).val < win1_5.index t a * S4800x128.size a + S4800x128.size a := by
  show i ∈ ((View.whole main_v19).slice (win1_5.rect t)).set ↔ _
  rw [View.set_slice_whole, Rect.mem_set_unit]
  exact Iff.rfl

/-- Every row of the result is in some point's block: row `r` in block `r / 4800`. -/
theorem covered (i : S480000x128.Idx) :
    ∃ t : Fin cfg1.N, (cfg1.win 5).flush t = true ∧ i ∈ ((cfg1.win 5).blk t).view.set := by
  have hi0 : (i 0).val < 480000 := (i 0).isLt
  have hi1 : (i 1).val < 128 := (i 1).isLt
  have hN : cfg1.N = 100 := N_1
  obtain ⟨t, ht⟩ : ∃ t : Fin cfg1.N, t.val = (i 0).val / 4800 := ⟨⟨(i 0).val / 4800, by omega⟩, rfl⟩
  obtain ⟨-, -, -, -, -, -, -, -, -, -, e0, e1⟩ := index_maps t
  refine ⟨t, flush1_5 t, ?_⟩
  rw [mem_block]
  intro a
  match a with
  | ⟨0, _⟩ =>
    show win1_5.index t (0 : Fin 2) * 4800 ≤ (i 0).val ∧ (i 0).val < win1_5.index t (0 : Fin 2) * 4800 + 4800
    omega
  | ⟨1, _⟩ =>
    show win1_5.index t (1 : Fin 2) * 128 ≤ (i 1).val ∧ (i 1).val < win1_5.index t (1 : Fin 2) * 128 + 128
    omega

/-- The array the launch leaves is the whole-array perceptron of the arrays it finds. -/
theorem arr_out (c : Dev nD) :
    (Cert.KernelIdeal.Gen.dat1 (F := Ideal) V c).arrAt 5 Cert.KernelIdeal.cfg1.N
      = Cert.Forms.mlpE (F := Ideal) (V c main_v8) (V c main_v10) (V c main_v13) (V c main_v15) (V c main_v18) :=
  (dat1 V c).arrAt_eq_of_cover 5 (result V c) (fun t _ => flushed_eq V c t) covered

end Cert.KernelIdeal.Reg1

end
-- ==== Proof.MlpNode.lean ====
/-
  The perceptron on the NODE rows (30000 rows, blocks of 3000): each of the three node kernels' stored value is the
  body's spelling on its block of rows, the whole-array form `Cert.Forms.mlpN` is the host's spelling, and a block whose
  row `p` is row `r` of the array has, at `(p, q)`, the array form's entry `(r, q)`.
-/
import proofs.«410631_j824633721181_1_alg».proof.Proof.Gen.KernelIdeal.Skeleton
import proofs.«410631_j824633721181_1_alg».proof.Proof.Forms
import proofs.«410631_j824633721181_1_alg».proof.Proof.MlpPoint

noncomputable section

namespace Cert.Mlp

open Idealize.ShloMosaic Idealize.ShloMosaic.ValueIdx
open Cert.KernelIdeal Cert.KernelIdeal.Gen

/-- The first node kernel's stored value is the body's spelling: its shape casts are to the same shapes. -/
theorem pay2_eq_body (x0 : Vec Ideal S3000x256 .f32) (x1 : Vec Ideal S256x128 .f32) (x2 : Vec Ideal S1x128 .f32)
    (x3 : Vec Ideal S128x128 .f32) (x4 : Vec Ideal S1x128 .f32) :
    k2_pay1 x0 x1 x2 x3 x4 = body (m := 3000) Facts₀.broadcasts_S1x128_S3000x128 x0 x1 x2 x3 x4 := by
  unfold k2_pay1 body
  simp only [shapeCast_self]
  rfl

/-- The second and third node kernels store the same term. -/
theorem pay4_eq_pay2 : @k4_pay1 Ideal _ = @k2_pay1 Ideal _ := rfl
theorem pay6_eq_pay2 : @k6_pay1 Ideal _ = @k2_pay1 Ideal _ := rfl

/-- The whole-array form is the host's spelling: its dimension numbers are the plain product's. -/
theorem mlpN_eq_host (X : FVec Ideal Cert.ReferenceIdeal.S30000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) :
    Cert.Forms.mlpN (F := Ideal) X W1 b1 W2 b2
      = host (m := 30000) Cert.ReferenceIdeal.Facts₀.bcast_S1x128_S30000x128_0_1 Cert.ReferenceIdeal.Facts₀.bcast_S_S30000x128 X W1 b1 W2 b2 := rfl

/-- Entry `(p, q)` of the first node kernel's stored value, on a block whose row `p` is row `r` of the array `X`
    and whose other operands are the whole weights and biases, is entry `(r, q)` of the whole-array form. -/
theorem pay2_point (X : FVec Ideal Cert.ReferenceIdeal.S30000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S3000x256 .f32) (p : Fin 3000) (r : Fin 30000) (q : Fin 128)
    (h : ∀ j : Fin 256, x0 (ix2 p j) = X (ix2 r j)) :
    k2_pay1 x0 W1 b1 W2 b2 (ix2 p q) = Cert.Forms.mlpN (F := Ideal) X W1 b1 W2 b2 (ix2 r q) := by
  rw [pay2_eq_body, mlpN_eq_host]
  exact body_eq_host_at _ _ _ x0 X W1 b1 W2 b2 p r q h

theorem pay4_point (X : FVec Ideal Cert.ReferenceIdeal.S30000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S3000x256 .f32) (p : Fin 3000) (r : Fin 30000) (q : Fin 128)
    (h : ∀ j : Fin 256, x0 (ix2 p j) = X (ix2 r j)) :
    k4_pay1 x0 W1 b1 W2 b2 (ix2 p q) = Cert.Forms.mlpN (F := Ideal) X W1 b1 W2 b2 (ix2 r q) :=
  pay2_point X W1 b1 W2 b2 x0 p r q h

theorem pay6_point (X : FVec Ideal Cert.ReferenceIdeal.S30000x256 .f32) (W1 : FVec Ideal Cert.ReferenceIdeal.S256x128 .f32)
    (b1 : FVec Ideal Cert.ReferenceIdeal.S1x128 .f32) (W2 : FVec Ideal Cert.ReferenceIdeal.S128x128 .f32)
    (b2 : FVec Ideal Cert.ReferenceIdeal.S1x128 .f32) (x0 : Vec Ideal S3000x256 .f32) (p : Fin 3000) (r : Fin 30000) (q : Fin 128)
    (h : ∀ j : Fin 256, x0 (ix2 p j) = X (ix2 r j)) :
    k6_pay1 x0 W1 b1 W2 b2 (ix2 p q) = Cert.Forms.mlpN (F := Ideal) X W1 b1 W2 b2 (ix2 r q) :=
  pay2_point X W1 b1 W2 b2 x0 p r q h

end Cert.Mlp

end
-- ==== Proof.RegMlp2.lean ====
/-
  The first node perceptron (rows of the concatenated node features): the array its launch leaves, as one function of
  the arrays the launch finds.

  The 30000 output rows are cut into 10 blocks of 3000 rows; grid point `t` reads rows `3000 t … 3000 t + 2999` of the
  operand and the whole weights and biases, and writes back rows `3000 t … 3000 t + 2999` of the result. What it writes
  at `(p, q)` of its block is entry `(3000 t + p, q)` of the whole-array perceptron, because that entry depends on
  row `3000 t + p` of the operand only; the block that covers row `r` is block `r / 3000`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpNode
import Idealize.ShloMosaic.Lib.Pipeline.Value

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 10 points: the operand's and the result's block at point `t` is block `(t, 0)`,
    the weights' and biases' block is `(0, 0)`. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The array's row under row `p` of point `t`'s block. -/
def rowOf (t : Fin cfg2.N) (p : Fin 3000) : Fin 30000 :=
  ⟨t.val * 3000 + p.val, by have := t.isLt; have := p.isLt; have e : cfg2.N = 10 := N_2; omega⟩

/-- Row `p` of the operand's block at point `t` is row `3000 t + p` of the operand. -/
theorem operand_block (c : Dev nD) (t : Fin cfg2.N) (p : Fin 3000) (j : Fin 256) :
    (iblk2 V c 0 t : Vec Ideal S3000x256 .f32) (ix2 p j) = (V c main_v23 : Vec Ideal S30000x256 .f32) (ix2 (rowOf t p) j) := by
  obtain ⟨e0, e1, -⟩ := index_maps t
  show V c main_v23 (((cfg2.win 0).blk t).view.emb (ix2 p j)) = V c main_v23 (ix2 (rowOf t p) j)
  refine congrArg (V c main_v23) (funext fun a => Fin.ext ?_)
  match a with
  | ⟨0, _⟩ => show win2_0.index t (0 : Fin 2) * 3000 + 1 * p.val = t.val * 3000 + p.val; omega
  | ⟨1, _⟩ => show win2_0.index t (1 : Fin 2) * 256 + 1 * j.val = j.val; omega

/-- The first weights' block at any point is the whole array. -/
theorem hidden_weights_block (c : Dev nD) (t : Fin cfg2.N) : (iblk2 V c 1 t : Vec Ideal S256x128 .f32) = V c main_v25 := by
  obtain ⟨-, -, e0, e1, -⟩ := index_maps t
  funext y
  show V c main_v25 (((cfg2.win 1).blk t).view.emb y) = V c main_v25 y
  refine congrArg (V c main_v25) (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- The first bias's block at any point is the whole row. -/
theorem hidden_bias_block (c : Dev nD) (t : Fin cfg2.N) : (iblk2 V c 2 t : Vec Ideal S1x128 .f32) = V c main_v28 := by
  obtain ⟨-, -, -, -, e0, e1, -⟩ := index_maps t
  funext y
  show V c main_v28 (((cfg2.win 2).blk t).view.emb y) = V c main_v28 y
  refine congrArg (V c main_v28) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The second weights' block at any point is the whole array. -/
theorem out_weights_block (c : Dev nD) (t : Fin cfg2.N) : (iblk2 V c 3 t : Vec Ideal S128x128 .f32) = V c main_v30 := by
  obtain ⟨-, -, -, -, -, -, e0, e1, -⟩ := index_maps t
  funext y
  show V c main_v30 (((cfg2.win 3).blk t).view.emb y) = V c main_v30 y
  refine congrArg (V c main_v30) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias's block at any point is the whole row. -/
theorem out_bias_block (c : Dev nD) (t : Fin cfg2.N) : (iblk2 V c 4 t : Vec Ideal S1x128 .f32) = V c main_v33 := by
  obtain ⟨-, -, -, -, -, -, -, -, e0, e1, -⟩ := index_maps t
  funext y
  show V c main_v33 (((cfg2.win 4).blk t).view.emb y) = V c main_v33 y
  refine congrArg (V c main_v33) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The whole-array perceptron of the arrays the launch finds. -/
abbrev result (c : Dev nD) : Vec Ideal S30000x128 .f32 :=
  Cert.Forms.mlpN (F := Ideal) (V c main_v23) (V c main_v25) (V c main_v28) (V c main_v30) (V c main_v33)

/-- What point `t` writes back is block `t` of the whole-array perceptron. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero offsets_zero]
  simp only [View.ld_unit_zero (S := S3000x256) offsets_zero, View.ld_unit_zero (S := S256x128) offsets_zero,
    View.ld_unit_zero (S := S1x128) offsets_zero, View.ld_unit_zero (S := S128x128) offsets_zero]
  funext j
  obtain ⟨p, q, rfl⟩ : ∃ (p : Fin 3000) (q : Fin 128), j = ix2 p q := ⟨j 0, j 1, eq_ix2 j⟩
  obtain ⟨-, -, -, -, -, -, -, -, -, -, e0, e1⟩ := index_maps t
  have e : ((cfg2.win 5).blk t).view.emb (ix2 p q) = ix2 (rowOf t p) q := by
    funext a; apply Fin.ext
    match a with
    | ⟨0, _⟩ => show win2_5.index t (0 : Fin 2) * 3000 + 1 * p.val = t.val * 3000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = result V c (((cfg2.win 5).blk t).view.emb (ix2 p q))
  rw [e, hidden_weights_block V c t, hidden_bias_block V c t, out_weights_block V c t, out_bias_block V c t]
  exact Cert.Mlp.pay2_point _ _ _ _ _ _ p (rowOf t p) q (operand_block V c t p)

/-- An index of the result array is in point `t`'s block exactly when each coordinate is in the block's range. -/
theorem mem_block (t : Fin cfg2.N) (i : S30000x128.Idx) :
    i ∈ ((cfg2.win 5).blk t).view.set ↔ ∀ a : Fin 2, win2_5.index t a * S3000x128.size a ≤ (i a).val
      ∧ (i a).val < win2_5.index t a * S3000x128.size a + S3000x128.size a := by
  show i ∈ ((View.whole main_v34).slice (win2_5.rect t)).set ↔ _
  rw [View.set_slice_whole, Rect.mem_set_unit]
  exact Iff.rfl

/-- Every row of the result is in some point's block: row `r` in block `r / 3000`. -/
theorem covered (i : S30000x128.Idx) :
    ∃ t : Fin cfg2.N, (cfg2.win 5).flush t = true ∧ i ∈ ((cfg2.win 5).blk t).view.set := by
  have hi0 : (i 0).val < 30000 := (i 0).isLt
  have hi1 : (i 1).val < 128 := (i 1).isLt
  have hN : cfg2.N = 10 := N_2
  obtain ⟨t, ht⟩ : ∃ t : Fin cfg2.N, t.val = (i 0).val / 3000 := ⟨⟨(i 0).val / 3000, by omega⟩, rfl⟩
  obtain ⟨-, -, -, -, -, -, -, -, -, -, e0, e1⟩ := index_maps t
  refine ⟨t, flush2_5 t, ?_⟩
  rw [mem_block]
  intro a
  match a with
  | ⟨0, _⟩ =>
    show win2_5.index t (0 : Fin 2) * 3000 ≤ (i 0).val ∧ (i 0).val < win2_5.index t (0 : Fin 2) * 3000 + 3000
    omega
  | ⟨1, _⟩ =>
    show win2_5.index t (1 : Fin 2) * 128 ≤ (i 1).val ∧ (i 1).val < win2_5.index t (1 : Fin 2) * 128 + 128
    omega

/-- The array the launch leaves is the whole-array perceptron of the arrays it finds. -/
theorem arr_out (c : Dev nD) :
    (Cert.KernelIdeal.Gen.dat2 (F := Ideal) V c).arrAt 5 Cert.KernelIdeal.cfg2.N
      = Cert.Forms.mlpN (F := Ideal) (V c main_v23) (V c main_v25) (V c main_v28) (V c main_v30) (V c main_v33) :=
  (dat2 V c).arrAt_eq_of_cover 5 (result V c) (fun t _ => flushed_eq V c t) covered

end Cert.KernelIdeal.Reg2

end
-- ==== Proof.KL0.lean ====
/-
  One message-passing layer of the kernel program, buffer by buffer: the rows gathered at the edges' two ends,
  their concatenation, this layer's weight slices, the edge region's messages, their sum into the destination
  nodes beside the node states, the node region's update, and the states plus the update; together the layer's
  function of the states the layer found.
-/
import proofs.«410631_j824633721181_1_alg».proof.Proof.KRows
import proofs.«410631_j824633721181_1_alg».proof.Proof.RegMlp1
import proofs.«410631_j824633721181_1_alg».proof.Proof.RegMlp2
import Idealize.ShloMosaic.Lib.StableHlo.Run
import Idealize.ShloMosaic.PureOps.Ideal

noncomputable section

namespace Cert.KernelIdeal.KL0

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

/-! ## What each stretch of host operations computes, from any contents `Wv` of the buffers before it -/

section Reads

variable (Wv : Valuation τ sig (Elt Ideal))

/-- The rows of the node states at the edges' source ends. -/
theorem rd_v6 : StableHlo.after hostOps1 Wv (Proc.devRef .tc main_v6) = Cert.Forms.rowsAtFill (F := Ideal) (Wv (Proc.devRef .tc main_v5)) (Wv (Proc.devRef .tc main_v1)) := by
  host_read hostOps1
  try rfl

/-- The rows of the node states at the edges' destination ends. -/
theorem rd_v7 : StableHlo.after hostOps1_1 Wv (Proc.devRef .tc main_v7) = Cert.Forms.rowsAtFill (F := Ideal) (Wv (Proc.devRef .tc main_v5)) (Wv (Proc.devRef .tc main_v3)) := by
  host_read hostOps1_1
  try rfl

/-- The two ends' rows side by side. -/
theorem rd_v8 : StableHlo.after hostOps1_2 Wv (Proc.devRef .tc main_v8) = concatenate Cert.ReferenceIdeal.S480000x256 1 [⟨Cert.ReferenceIdeal.S480000x128, (Wv (Proc.devRef .tc main_v6))⟩, ⟨Cert.ReferenceIdeal.S480000x128, (Wv (Proc.devRef .tc main_v7))⟩]
        Cert.ReferenceIdeal.Facts₀.concatenates_S480000x128_S480000x128_S480000x256_d1 := by
  host_read hostOps1_2
  try rfl

/-- This layer's slices of the edge perceptron's stacked weights. -/
theorem rd_v10 : StableHlo.after hostOps1_2 Wv (Proc.devRef .tc main_v10) = Cert.Net.w256_0 (F := Ideal) (Wv (Proc.devRef .tc main_arg6)) := by
  host_read hostOps1_2
  try rfl
theorem rd_v13 : StableHlo.after hostOps1_2 Wv (Proc.devRef .tc main_v13) = Cert.Net.rowCast (F := Ideal) (Cert.Net.b128_0 (Wv (Proc.devRef .tc main_arg7))) := by
  host_read hostOps1_2
  try rfl
theorem rd_v15 : StableHlo.after hostOps1_2 Wv (Proc.devRef .tc main_v15) = Cert.Net.w128_0 (F := Ideal) (Wv (Proc.devRef .tc main_arg8)) := by
  host_read hostOps1_2
  try rfl
theorem rd_v18 : StableHlo.after hostOps1_2 Wv (Proc.devRef .tc main_v18) = Cert.Net.rowCast (F := Ideal) (Cert.Net.b128_0 (Wv (Proc.devRef .tc main_arg9))) := by
  host_read hostOps1_2
  try rfl

/-- The node states beside the messages summed into their destinations. -/
theorem rd_v23 : StableHlo.after hostOps2 Wv (Proc.devRef .tc main_v23) = concatenate Cert.ReferenceIdeal.S30000x256 1
        [⟨Cert.ReferenceIdeal.S30000x128, (Wv (Proc.devRef .tc main_v5))⟩, ⟨Cert.ReferenceIdeal.S30000x128, Cert.Net.aggOf (F := Ideal) (Wv (Proc.devRef .tc main_v3)) (Wv (Proc.devRef .tc main_v19))⟩]
        Cert.ReferenceIdeal.Facts₀.concatenates_S30000x128_S30000x128_S30000x256_d1 := by
  host_read hostOps2
  try rfl

/-- This layer's slices of the node perceptron's stacked weights. -/
theorem rd_v25 : StableHlo.after hostOps2 Wv (Proc.devRef .tc main_v25) = Cert.Net.w256_0 (F := Ideal) (Wv (Proc.devRef .tc main_arg10)) := by
  host_read hostOps2
  try rfl
theorem rd_v28 : StableHlo.after hostOps2 Wv (Proc.devRef .tc main_v28) = Cert.Net.rowCast (F := Ideal) (Cert.Net.b128_0 (Wv (Proc.devRef .tc main_arg11))) := by
  host_read hostOps2
  try rfl
theorem rd_v30 : StableHlo.after hostOps2 Wv (Proc.devRef .tc main_v30) = Cert.Net.w128_0 (F := Ideal) (Wv (Proc.devRef .tc main_arg12)) := by
  host_read hostOps2
  try rfl
theorem rd_v33 : StableHlo.after hostOps2 Wv (Proc.devRef .tc main_v33) = Cert.Net.rowCast (F := Ideal) (Cert.Net.b128_0 (Wv (Proc.devRef .tc main_arg13))) := by
  host_read hostOps2
  try rfl

/-- The states plus the update. -/
theorem rd_v35 : StableHlo.after hostOps3 Wv (Proc.devRef .tc main_v35) = addf (F := Ideal) (φ := .f32) (s := Cert.ReferenceIdeal.S30000x128) (Wv (Proc.devRef .tc main_v5)) (Wv (Proc.devRef .tc main_v34)) := by
  host_read hostOps3
  try rfl

end Reads

/-! ## The layer's buffers at the program's boundaries -/

variable (m : (ℓ : Loc nD τ sig) → Buf (Elt Ideal) ℓ) (ρ : Dev nD → PrngReg) (c : Dev nD)

/-- The rows at the source ends, of the states the layer found. -/
theorem W3_v6 : W3 m ρ c (Proc.devRef .tc main_v6)
    = Cert.Forms.rowsAtFill (F := Ideal) (W2 m ρ c (Proc.devRef .tc main_v5)) (Cert.Net.rowOf (m ((c : Thread nD τ).loc main_arg1))) := by
  refine (rd_v6 (W2 m ρ c)).trans ?_
  rw [show W2 m ρ c (Proc.devRef .tc main_v1) = Cert.Net.rowOf (m ((c : Thread nD τ).loc main_arg1)) from
    (back_W2 m ρ c main_v1 (by decide)).trans (Cert.KernelIdeal.KV.W1_v1 m ρ c)]

/-- The rows at the destination ends. -/
theorem W4_v7 : W4 m ρ c (Proc.devRef .tc main_v7)
    = Cert.Forms.rowsAtFill (F := Ideal) (W2 m ρ c (Proc.devRef .tc main_v5)) (Cert.Net.colOf (m ((c : Thread nD τ).loc main_arg1))) := by
  refine (rd_v7 (W3 m ρ c)).trans ?_
  rw [main_v5_W3 m ρ c, show W3 m ρ c (Proc.devRef .tc main_v3) = Cert.Net.colOf (m ((c : Thread nD τ).loc main_arg1)) from
    (back_W3 m ρ c main_v3 (by decide)).trans (Cert.KernelIdeal.KV.W1_v3 m ρ c)]

/-- The edge perceptron's input. -/
theorem W5_v8 : W5 m ρ c (Proc.devRef .tc main_v8)
    = concatenate Cert.ReferenceIdeal.S480000x256 1
        [⟨Cert.ReferenceIdeal.S480000x128, Cert.Forms.rowsAtFill (F := Ideal) (W2 m ρ c (Proc.devRef .tc main_v5)) (Cert.Net.rowOf (m ((c : Thread nD τ).loc main_arg1)))⟩,
         ⟨Cert.ReferenceIdeal.S480000x128, Cert.Forms.rowsAtFill (F := Ideal) (W2 m ρ c (Proc.devRef .tc main_v5)) (Cert.Net.colOf (m ((c : Thread nD τ).loc main_arg1)))⟩]
        Cert.ReferenceIdeal.Facts₀.concatenates_S480000x128_S480000x128_S480000x256_d1 := by
  refine (rd_v8 (W4 m ρ c)).trans ?_
  rw [main_v6_W4 m ρ c, W3_v6, W4_v7]

/-- The edge perceptron's weights. -/
theorem W5_v10 : W5 m ρ c (Proc.devRef .tc main_v10) = Cert.Net.w256_0 (F := Ideal) (m ((c : Thread nD τ).loc main_arg6)) := by
  refine (rd_v10 (W4 m ρ c)).trans ?_
  rw [show W4 m ρ c (Proc.devRef .tc main_arg6) = (m ((c : Thread nD τ).loc main_arg6)) from ((back_W4 m ρ c main_arg6 (by decide)).trans (arg_W1 m ρ c main_arg6 (by decide)))]
theorem W5_v13 : W5 m ρ c (Proc.devRef .tc main_v13) = Cert.Net.rowCast (F := Ideal) (Cert.Net.b128_0 (m ((c : Thread nD τ).loc main_arg7))) := by
  refine (rd_v13 (W4 m ρ c)).trans ?_
  rw [show W4 m ρ c (Proc.devRef .tc main_arg7) = (m ((c : Thread nD τ).loc main_arg7)) from ((back_W4 m ρ c main_arg7 (by decide)).trans (arg_W1 m ρ c main_arg7 (by decide)))]
theorem W5_v15 : W5 m ρ c (Proc.devRef .tc main_v15) = Cert.Net.w128_0 (F := Ideal) (m ((c : Thread nD τ).loc main_arg8)) := by
  refine (rd_v15 (W4 m ρ c)).trans ?_
  rw [show W4 m ρ c (Proc.devRef .tc main_arg8) = (m ((c : Thread nD τ).loc main_arg8)) from ((back_W4 m ρ c main_arg8 (by decide)).trans (arg_W1 m ρ c main_arg8 (by decide)))]
theorem W5_v18 : W5 m ρ c (Proc.devRef .tc main_v18) = Cert.Net.rowCast (F := Ideal) (Cert.Net.b128_0 (m ((c : Thread nD τ).loc main_arg9))) := by
  refine (rd_v18 (W4 m ρ c)).trans ?_
  rw [show W4 m ρ c (Proc.devRef .tc main_arg9) = (m ((c : Thread nD τ).loc main_arg9)) from ((back_W4 m ρ c main_arg9 (by decide)).trans (arg_W1 m ρ c main_arg9 (by decide)))]

/-- The messages: the edge region's output array. -/
theorem W6_v19 : W6 m ρ c (Proc.devRef .tc main_v19)
    = Cert.Forms.mlpE (F := Ideal) (W5 m ρ c (Proc.devRef .tc main_v8)) (W5 m ρ c (Proc.devRef .tc main_v10)) (W5 m ρ c (Proc.devRef .tc main_v13)) (W5 m ρ c (Proc.devRef .tc main_v15)) (W5 m ρ c (Proc.devRef .tc main_v18)) :=
  (W6_arr m ρ c 5).trans (Cert.KernelIdeal.Reg1.arr_out (V5 m ρ) c)

/-- The node perceptron's input. -/
theorem W7_v23 : W7 m ρ c (Proc.devRef .tc main_v23)
    = concatenate Cert.ReferenceIdeal.S30000x256 1
        [⟨Cert.ReferenceIdeal.S30000x128, (W2 m ρ c (Proc.devRef .tc main_v5))⟩,
         ⟨Cert.ReferenceIdeal.S30000x128, Cert.Net.aggOf (F := Ideal) (Cert.Net.colOf (m ((c : Thread nD τ).loc main_arg1))) (W6 m ρ c (Proc.devRef .tc main_v19))⟩]
        Cert.ReferenceIdeal.Facts₀.concatenates_S30000x128_S30000x128_S30000x256_d1 := by
  refine (rd_v23 (W6 m ρ c)).trans ?_
  rw [main_v5_W6 m ρ c, show W6 m ρ c (Proc.devRef .tc main_v3) = Cert.Net.colOf (m ((c : Thread nD τ).loc main_arg1)) from
    (back_W6 m ρ c main_v3 (by decide)).trans (Cert.KernelIdeal.KV.W1_v3 m ρ c)]

/-- The node perceptron's weights. -/
theorem W7_v25 : W7 m ρ c (Proc.devRef .tc main_v25) = Cert.Net.w256_0 (F := Ideal) (m ((c : Thread nD τ).loc main_arg10)) := by
  refine (rd_v25 (W6 m ρ c)).trans ?_
  rw [show W6 m ρ c (Proc.devRef .tc main_arg10) = (m ((c : Thread nD τ).loc main_arg10)) from ((back_W6 m ρ c main_arg10 (by decide)).trans (arg_W1 m ρ c main_arg10 (by decide)))]
theorem W7_v28 : W7 m ρ c (Proc.devRef .tc main_v28) = Cert.Net.rowCast (F := Ideal) (Cert.Net.b128_0 (m ((c : Thread nD τ).loc main_arg11))) := by
  refine (rd_v28 (W6 m ρ c)).trans ?_
  rw [show W6 m ρ c (Proc.devRef .tc main_arg11) = (m ((c : Thread nD τ).loc main_arg11)) from ((back_W6 m ρ c main_arg11 (by decide)).trans (arg_W1 m ρ c main_arg11 (by decide)))]
theorem W7_v30 : W7 m ρ c (Proc.devRef .tc main_v30) = Cert.Net.w128_0 (F := Ideal) (m ((c : Thread nD τ).loc main_arg12)) := by
  refine (rd_v30 (W6 m ρ c)).trans ?_
  rw [show W6 m ρ c (Proc.devRef .tc main_arg12) = (m ((c : Thread nD τ).loc main_arg12)) from ((back_W6 m ρ c main_arg12 (by decide)).trans (arg_W1 m ρ c main_arg12 (by decide)))]
theorem W7_v33 : W7 m ρ c (Proc.devRef .tc main_v33) = Cert.Net.rowCast (F := Ideal) (Cert.Net.b128_0 (m ((c : Thread nD τ).loc main_arg13))) := by
  refine (rd_v33 (W6 m ρ c)).trans ?_
  rw [show W6 m ρ c (Proc.devRef .tc main_arg13) = (m ((c : Thread nD τ).loc main_arg13)) from ((back_W6 m ρ c main_arg13 (by decide)).trans (arg_W1 m ρ c main_arg13 (by decide)))]

/-- The update: the node region's output array. -/
theorem W8_v34 : W8 m ρ c (Proc.devRef .tc main_v34)
    = Cert.Forms.mlpN (F := Ideal) (W7 m ρ c (Proc.devRef .tc main_v23)) (W7 m ρ c (Proc.devRef .tc main_v25)) (W7 m ρ c (Proc.devRef .tc main_v28)) (W7 m ρ c (Proc.devRef .tc main_v30)) (W7 m ρ c (Proc.devRef .tc main_v33)) :=
  (W8_arr m ρ c 5).trans (Cert.KernelIdeal.Reg2.arr_out (V7 m ρ) c)

/-- The next node states: the states plus the update. -/
theorem W9_v35 : W9 m ρ c (Proc.devRef .tc main_v35)
    = addf (F := Ideal) (φ := .f32) (s := Cert.ReferenceIdeal.S30000x128) (W2 m ρ c (Proc.devRef .tc main_v5)) (W8 m ρ c (Proc.devRef .tc main_v34)) := by
  refine (rd_v35 (W8 m ρ c)).trans ?_
  rw [main_v5_W8 m ρ c]

/-- THE LAYER: the next node states are the layer's function of the states it found, the two index rows and this
    layer's weights. -/
theorem layer_eq : W9 m ρ c (Proc.devRef .tc main_v35)
    = Cert.Net.layer (F := Ideal) (fun h => Cert.Forms.rowsAtFill h (Cert.Net.rowOf (m ((c : Thread nD τ).loc main_arg1)))) (fun h => Cert.Forms.rowsAtFill h (Cert.Net.colOf (m ((c : Thread nD τ).loc main_arg1))))
        (Cert.Net.colOf (m ((c : Thread nD τ).loc main_arg1))) (W2 m ρ c (Proc.devRef .tc main_v5))
        (Cert.Net.w256_0 (m ((c : Thread nD τ).loc main_arg6))) (Cert.Net.rowCast (Cert.Net.b128_0 (m ((c : Thread nD τ).loc main_arg7)))) (Cert.Net.w128_0 (m ((c : Thread nD τ).loc main_arg8))) (Cert.Net.rowCast (Cert.Net.b128_0 (m ((c : Thread nD τ).loc main_arg9))))
        (Cert.Net.w256_0 (m ((c : Thread nD τ).loc main_arg10))) (Cert.Net.rowCast (Cert.Net.b128_0 (m ((c : Thread nD τ).loc main_arg11)))) (Cert.Net.w128_0 (m ((c : Thread nD τ).loc main_arg12))) (Cert.Net.rowCast (Cert.Net.b128_0 (m ((c : Thread nD τ).loc main_arg13)))) := by
  rw [W9_v35, W8_v34, W7_v23, W7_v25, W7_v28, W7_v30, W7_v33, W6_v19, W5_v8, W5_v10, W5_v13, W5_v15, W5_v18]
  rfl

end Cert.KernelIdeal.KL0

end
-- ==== Proof.RegMlp3.lean ====
/-
  The second edge perceptron (rows of the concatenated edge features): the array its launch leaves, as one function of
  the arrays the launch finds.

  The 480000 output rows are cut into 100 blocks of 4800 rows; grid point `t` reads rows `4800 t … 4800 t + 4799` of the
  operand and the whole weights and biases, and writes back rows `4800 t … 4800 t + 4799` of the result. What it writes
  at `(p, q)` of its block is entry `(4800 t + p, q)` of the whole-array perceptron, because that entry depends on
  row `4800 t + p` of the operand only; the block that covers row `r` is block `r / 4800`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpEdge
import Idealize.ShloMosaic.Lib.Pipeline.Value

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 100 points: the operand's and the result's block at point `t` is block `(t, 0)`,
    the weights' and biases' block is `(0, 0)`. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The array's row under row `p` of point `t`'s block. -/
def rowOf (t : Fin cfg3.N) (p : Fin 4800) : Fin 480000 :=
  ⟨t.val * 4800 + p.val, by have := t.isLt; have := p.isLt; have e : cfg3.N = 100 := N_3; omega⟩

/-- Row `p` of the operand's block at point `t` is row `4800 t + p` of the operand. -/
theorem operand_block (c : Dev nD) (t : Fin cfg3.N) (p : Fin 4800) (j : Fin 256) :
    (iblk3 V c 0 t : Vec Ideal S4800x256 .f32) (ix2 p j) = (V c main_v38 : Vec Ideal S480000x256 .f32) (ix2 (rowOf t p) j) := by
  obtain ⟨e0, e1, -⟩ := index_maps t
  show V c main_v38 (((cfg3.win 0).blk t).view.emb (ix2 p j)) = V c main_v38 (ix2 (rowOf t p) j)
  refine congrArg (V c main_v38) (funext fun a => Fin.ext ?_)
  match a with
  | ⟨0, _⟩ => show win3_0.index t (0 : Fin 2) * 4800 + 1 * p.val = t.val * 4800 + p.val; omega
  | ⟨1, _⟩ => show win3_0.index t (1 : Fin 2) * 256 + 1 * j.val = j.val; omega

/-- The first weights' block at any point is the whole array. -/
theorem hidden_weights_block (c : Dev nD) (t : Fin cfg3.N) : (iblk3 V c 1 t : Vec Ideal S256x128 .f32) = V c main_v40 := by
  obtain ⟨-, -, e0, e1, -⟩ := index_maps t
  funext y
  show V c main_v40 (((cfg3.win 1).blk t).view.emb y) = V c main_v40 y
  refine congrArg (V c main_v40) (funext fun a => Fin.ext ?_)
  match a with
  | ⟨0, _⟩ => show win3_1.index t (0 : Fin 2) * 256 + 1 * (y 0).val = (y 0).val; omega
  | ⟨1, _⟩ => show win3_1.index t (1 : Fin 2) * 128 + 1 * (y 1).val = (y 1).val; omega

/-- The first bias's block at any point is the whole row. -/
theorem hidden_bias_block (c : Dev nD) (t : Fin cfg3.N) : (iblk3 V c 2 t : Vec Ideal S1x128 .f32) = V c main_v43 := by
  obtain ⟨-, -, -, -, e0, e1, -⟩ := index_maps t
  funext y
  show V c main_v43 (((cfg3.win 2).blk t).view.emb y) = V c main_v43 y
  refine congrArg (V c main_v43) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The second weights' block at any point is the whole array. -/
theorem out_weights_block (c : Dev nD) (t : Fin cfg3.N) : (iblk3 V c 3 t : Vec Ideal S128x128 .f32) = V c main_v45 := by
  obtain ⟨-, -, -, -, -, -, e0, e1, -⟩ := index_maps t
  funext y
  show V c main_v45 (((cfg3.win 3).blk t).view.emb y) = V c main_v45 y
  refine congrArg (V c main_v45) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The second bias's block at any point is the whole row. -/
theorem out_bias_block (c : Dev nD) (t : Fin cfg3.N) : (iblk3 V c 4 t : Vec Ideal S1x128 .f32) = V c main_v48 := by
  obtain ⟨-, -, -, -, -, -, -, -, e0, e1, -⟩ := index_maps t
  funext y
  show V c main_v48 (((cfg3.win 4).blk t).view.emb y) = V c main_v48 y
  refine congrArg (V c main_v48) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The whole-array perceptron of the arrays the launch finds. -/
abbrev result (c : Dev nD) : Vec Ideal S480000x128 .f32 :=
  Cert.Forms.mlpE (F := Ideal) (V c main_v38) (V c main_v40) (V c main_v43) (V c main_v45) (V c main_v48)

/-- What point `t` writes back is block `t` of the whole-array perceptron. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero offsets_zero]
  simp only [View.ld_unit_zero (S := S4800x256) offsets_zero, View.ld_unit_zero (S := S256x128) offsets_zero,
    View.ld_unit_zero (S := S1x128) offsets_zero, View.ld_unit_zero (S := S128x128) offsets_zero]
  funext j
  obtain ⟨p, q, rfl⟩ : ∃ (p : Fin 4800) (q : Fin 128), j = ix2 p q := ⟨j 0, j 1, eq_ix2 j⟩
  obtain ⟨-, -, -, -, -, -, -, -, -, -, e0, e1⟩ := index_maps t
  have e : ((cfg3.win 5).blk t).view.emb (ix2 p q) = ix2 (rowOf t p) q := by
    funext a; apply Fin.ext
    match a with
    | ⟨0, _⟩ => show win3_5.index t (0 : Fin 2) * 4800 + 1 * p.val = t.val * 4800 + p.val; omega
    | ⟨1, _⟩ => show win3_5.index t (1 : Fin 2) * 128 + 1 * q.val = q.val; omega
  show k3_pay1 (iblk3 V c 0 t) (iblk3 V c 1 t) (iblk3 V c 2 t) (iblk3 V c 3 t) (iblk3 V c 4 t) (ix2 p q)
    = result V c (((cfg3.win 5).blk t).view.emb (ix2 p q))
  rw [e, hidden_weights_block V c t, hidden_bias_block V c t, out_weights_block V c t, out_bias_block V c t]
  exact Cert.Mlp.pay3_point _ _ _ _ _ _ p (rowOf t p) q (operand_block V c t p)

/-- An index of the result array is in point `t`'s block exactly when each coordinate is in the block's range. -/
theorem mem_block (t : Fin cfg3.N) (i : S480000x128.Idx) :
    i ∈ ((cfg3.win 5).blk t).view.set ↔ ∀ a : Fin 2, win3_5.index t a * S4800x128.size a ≤ (i a).val
      ∧ (i a).val < win3_5.index t a * S4800x128.size a + S4800x128.size a := by
  show i ∈ ((View.whole main_v49).slice (win3_5.rect t)).set ↔ _
  rw [View.set_slice_whole, Rect.mem_set_unit]
  exact Iff.rfl

/-- Every row of the result is in some point's block: row `r` in block `r / 4800`. -/
theorem covered (i : S480000x128.Idx) :
    ∃ t : Fin cfg3.N, (cfg3.win 5).flush t = true ∧ i ∈ ((cfg3.win 5).blk t).view.set := by
  have hi0 : (i 0).val < 480000 := (i 0).isLt
  have hi1 : (i 1).val < 128 := (i 1).isLt
  have hN : cfg3.N = 100 := N_3
  obtain ⟨t, ht⟩ : ∃ t : Fin cfg3.N, t.val = (i 0).val / 4800 := ⟨⟨(i 0).val / 4800, by omega⟩, rfl⟩
  obtain ⟨-, -, -, -, -, -, -, -, -, -, e0, e1⟩ := index_maps t
  refine ⟨t, flush3_5 t, ?_⟩
  rw [mem_block]
  intro a
  match a with
  | ⟨0, _⟩ =>
    show win3_5.index t (0 : Fin 2) * 4800 ≤ (i 0).val ∧ (i 0).val < win3_5.index t (0 : Fin 2) * 4800 + 4800
    omega
  | ⟨1, _⟩ =>
    show win3_5.index t (1 : Fin 2) * 128 ≤ (i 1).val ∧ (i 1).val < win3_5.index t (1 : Fin 2) * 128 + 128
    omega

/-- The array the launch leaves is the whole-array perceptron of the arrays it finds. -/
theorem arr_out (c : Dev nD) :
    (Cert.KernelIdeal.Gen.dat3 (F := Ideal) V c).arrAt 5 Cert.KernelIdeal.cfg3.N
      = Cert.Forms.mlpE (F := Ideal) (V c main_v38) (V c main_v40) (V c main_v43) (V c main_v45) (V c main_v48) :=
  (dat3 V c).arrAt_eq_of_cover 5 (result V c) (fun t _ => flushed_eq V c t) covered

end Cert.KernelIdeal.Reg3

end
-- ==== Proof.RegMlp4.lean ====
/-
  The second node perceptron (rows of the concatenated node features): the array its launch leaves, as one function of
  the arrays the launch finds.

  The 30000 output rows are cut into 10 blocks of 3000 rows; grid point `t` reads rows `3000 t … 3000 t + 2999` of the
  operand and the whole weights and biases, and writes back rows `3000 t … 3000 t + 2999` of the result. What it writes
  at `(p, q)` of its block is entry `(3000 t + p, q)` of the whole-array perceptron, because that entry depends on
  row `3000 t + p` of the operand only; the block that covers row `r` is block `r / 3000`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpNode
import Idealize.ShloMosaic.Lib.Pipeline.Value

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 10 points: the operand's and the result's block at point `t` is block `(t, 0)`,
    the weights' and biases' block is `(0, 0)`. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The array's row under row `p` of point `t`'s block. -/
def rowOf (t : Fin cfg4.N) (p : Fin 3000) : Fin 30000 :=
  ⟨t.val * 3000 + p.val, by have := t.isLt; have := p.isLt; have e : cfg4.N = 10 := N_4; omega⟩

/-- Row `p` of the operand's block at point `t` is row `3000 t + p` of the operand. -/
theorem operand_block (c : Dev nD) (t : Fin cfg4.N) (p : Fin 3000) (j : Fin 256) :
    (iblk4 V c 0 t : Vec Ideal S3000x256 .f32) (ix2 p j) = (V c main_v53 : Vec Ideal S30000x256 .f32) (ix2 (rowOf t p) j) := by
  obtain ⟨e0, e1, -⟩ := index_maps t
  show V c main_v53 (((cfg4.win 0).blk t).view.emb (ix2 p j)) = V c main_v53 (ix2 (rowOf t p) j)
  refine congrArg (V c main_v53) (funext fun a => Fin.ext ?_)
  match a with
  | ⟨0, _⟩ => show win4_0.index t (0 : Fin 2) * 3000 + 1 * p.val = t.val * 3000 + p.val; omega
  | ⟨1, _⟩ => show win4_0.index t (1 : Fin 2) * 256 + 1 * j.val = j.val; omega

/-- The first weights' block at any point is the whole array. -/
theorem hidden_weights_block (c : Dev nD) (t : Fin cfg4.N) : (iblk4 V c 1 t : Vec Ideal S256x128 .f32) = V c main_v55 := by
  obtain ⟨-, -, e0, e1, -⟩ := index_maps t
  funext y
  show V c main_v55 (((cfg4.win 1).blk t).view.emb y) = V c main_v55 y
  refine congrArg (V c main_v55) (funext fun a => Fin.ext ?_)
  match a with
  | ⟨0, _⟩ => show win4_1.index t (0 : Fin 2) * 256 + 1 * (y 0).val = (y 0).val; omega
  | ⟨1, _⟩ => show win4_1.index t (1 : Fin 2) * 128 + 1 * (y 1).val = (y 1).val; omega

/-- The first bias's block at any point is the whole row. -/
theorem hidden_bias_block (c : Dev nD) (t : Fin cfg4.N) : (iblk4 V c 2 t : Vec Ideal S1x128 .f32) = V c main_v58 := by
  obtain ⟨-, -, -, -, e0, e1, -⟩ := index_maps t
  funext y
  show V c main_v58 (((cfg4.win 2).blk t).view.emb y) = V c main_v58 y
  refine congrArg (V c main_v58) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The second weights' block at any point is the whole array. -/
theorem out_weights_block (c : Dev nD) (t : Fin cfg4.N) : (iblk4 V c 3 t : Vec Ideal S128x128 .f32) = V c main_v60 := by
  obtain ⟨-, -, -, -, -, -, e0, e1, -⟩ := index_maps t
  funext y
  show V c main_v60 (((cfg4.win 3).blk t).view.emb y) = V c main_v60 y
  refine congrArg (V c main_v60) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The second bias's block at any point is the whole row. -/
theorem out_bias_block (c : Dev nD) (t : Fin cfg4.N) : (iblk4 V c 4 t : Vec Ideal S1x128 .f32) = V c main_v63 := by
  obtain ⟨-, -, -, -, -, -, -, -, e0, e1, -⟩ := index_maps t
  funext y
  show V c main_v63 (((cfg4.win 4).blk t).view.emb y) = V c main_v63 y
  refine congrArg (V c main_v63) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The whole-array perceptron of the arrays the launch finds. -/
abbrev result (c : Dev nD) : Vec Ideal S30000x128 .f32 :=
  Cert.Forms.mlpN (F := Ideal) (V c main_v53) (V c main_v55) (V c main_v58) (V c main_v60) (V c main_v63)

/-- What point `t` writes back is block `t` of the whole-array perceptron. -/
theorem flushed_eq (c : Dev nD) (t : Fin cfg4.N) :
    (dat4 V c).flushed 5 t = ((cfg4.win 5).blk t).view.read (Elt Ideal) (result V c) := by
  show (cfg4.win 5).cut (grid4.coords t) ((dat4 V c).after 5 t) = _
  rw [after4_5]
  unfold out4_5
  rw [View.canon_unit_zero offsets_zero]
  simp only [View.ld_unit_zero (S := S3000x256) offsets_zero, View.ld_unit_zero (S := S256x128) offsets_zero,
    View.ld_unit_zero (S := S1x128) offsets_zero, View.ld_unit_zero (S := S128x128) offsets_zero]
  funext j
  obtain ⟨p, q, rfl⟩ : ∃ (p : Fin 3000) (q : Fin 128), j = ix2 p q := ⟨j 0, j 1, eq_ix2 j⟩
  obtain ⟨-, -, -, -, -, -, -, -, -, -, e0, e1⟩ := index_maps t
  have e : ((cfg4.win 5).blk t).view.emb (ix2 p q) = ix2 (rowOf t p) q := by
    funext a; apply Fin.ext
    match a with
    | ⟨0, _⟩ => show win4_5.index t (0 : Fin 2) * 3000 + 1 * p.val = t.val * 3000 + p.val; omega
    | ⟨1, _⟩ => show win4_5.index t (1 : Fin 2) * 128 + 1 * q.val = q.val; omega
  show k4_pay1 (iblk4 V c 0 t) (iblk4 V c 1 t) (iblk4 V c 2 t) (iblk4 V c 3 t) (iblk4 V c 4 t) (ix2 p q)
    = result V c (((cfg4.win 5).blk t).view.emb (ix2 p q))
  rw [e, hidden_weights_block V c t, hidden_bias_block V c t, out_weights_block V c t, out_bias_block V c t]
  exact Cert.Mlp.pay4_point _ _ _ _ _ _ p (rowOf t p) q (operand_block V c t p)

/-- An index of the result array is in point `t`'s block exactly when each coordinate is in the block's range. -/
theorem mem_block (t : Fin cfg4.N) (i : S30000x128.Idx) :
    i ∈ ((cfg4.win 5).blk t).view.set ↔ ∀ a : Fin 2, win4_5.index t a * S3000x128.size a ≤ (i a).val
      ∧ (i a).val < win4_5.index t a * S3000x128.size a + S3000x128.size a := by
  show i ∈ ((View.whole main_v64).slice (win4_5.rect t)).set ↔ _
  rw [View.set_slice_whole, Rect.mem_set_unit]
  exact Iff.rfl

/-- Every row of the result is in some point's block: row `r` in block `r / 3000`. -/
theorem covered (i : S30000x128.Idx) :
    ∃ t : Fin cfg4.N, (cfg4.win 5).flush t = true ∧ i ∈ ((cfg4.win 5).blk t).view.set := by
  have hi0 : (i 0).val < 30000 := (i 0).isLt
  have hi1 : (i 1).val < 128 := (i 1).isLt
  have hN : cfg4.N = 10 := N_4
  obtain ⟨t, ht⟩ : ∃ t : Fin cfg4.N, t.val = (i 0).val / 3000 := ⟨⟨(i 0).val / 3000, by omega⟩, rfl⟩
  obtain ⟨-, -, -, -, -, -, -, -, -, -, e0, e1⟩ := index_maps t
  refine ⟨t, flush4_5 t, ?_⟩
  rw [mem_block]
  intro a
  match a with
  | ⟨0, _⟩ =>
    show win4_5.index t (0 : Fin 2) * 3000 ≤ (i 0).val ∧ (i 0).val < win4_5.index t (0 : Fin 2) * 3000 + 3000
    omega
  | ⟨1, _⟩ =>
    show win4_5.index t (1 : Fin 2) * 128 ≤ (i 1).val ∧ (i 1).val < win4_5.index t (1 : Fin 2) * 128 + 128
    omega

/-- The array the launch leaves is the whole-array perceptron of the arrays it finds. -/
theorem arr_out (c : Dev nD) :
    (Cert.KernelIdeal.Gen.dat4 (F := Ideal) V c).arrAt 5 Cert.KernelIdeal.cfg4.N
      = Cert.Forms.mlpN (F := Ideal) (V c main_v53) (V c main_v55) (V c main_v58) (V c main_v60) (V c main_v63) :=
  (dat4 V c).arrAt_eq_of_cover 5 (result V c) (fun t _ => flushed_eq V c t) covered

end Cert.KernelIdeal.Reg4

end
-- ==== Proof.KL1.lean ====
/-
  One message-passing layer of the kernel program, buffer by buffer: the rows gathered at the edges' two ends,
  their concatenation, this layer's weight slices, the edge region's messages, their sum into the destination
  nodes beside the node states, the node region's update, and the states plus the update; together the layer's
  function of the states the layer found.
-/
import proofs.«410631_j824633721181_1_alg».proof.Proof.KRows
import proofs.«410631_j824633721181_1_alg».proof.Proof.RegMlp3
import proofs.«410631_j824633721181_1_alg».proof.Proof.RegMlp4
import Idealize.ShloMosaic.Lib.StableHlo.Run
import Idealize.ShloMosaic.PureOps.Ideal

noncomputable section

namespace Cert.KernelIdeal.KL1

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

/-! ## What each stretch of host operations computes, from any contents `Wv` of the buffers before it -/

section Reads

variable (Wv : Valuation τ sig (Elt Ideal))

/-- The rows of the node states at the edges' source ends. -/
theorem rd_v6 : StableHlo.after hostOps3_1 Wv (Proc.devRef .tc main_v36) = Cert.Forms.rowsAtFill (F := Ideal) (Wv (Proc.devRef .tc main_v35)) (Wv (Proc.devRef .tc main_v1)) := by
  host_read hostOps3_1
  try rfl

/-- The rows of the node states at the edges' destination ends. -/
theorem rd_v7 : StableHlo.after hostOps3_2 Wv (Proc.devRef .tc main_v37) = Cert.Forms.rowsAtFill (F := Ideal) (Wv (Proc.devRef .tc main_v35)) (Wv (Proc.devRef .tc main_v3)) := by
  host_read hostOps3_2
  try rfl

/-- The two ends' rows side by side. -/
theorem rd_v8 : StableHlo.after hostOps3_3 Wv (Proc.devRef .tc main_v38) = concatenate Cert.ReferenceIdeal.S480000x256 1 [⟨Cert.ReferenceIdeal.S480000x128, (Wv (Proc.devRef .tc main_v36))⟩, ⟨Cert.ReferenceIdeal.S480000x128, (Wv (Proc.devRef .tc main_v37))⟩]
        Cert.ReferenceIdeal.Facts₀.concatenates_S480000x128_S480000x128_S480000x256_d1 := by
  host_read hostOps3_3
  try rfl

/-- This layer's slices of the edge perceptron's stacked weights. -/
theorem rd_v10 : StableHlo.after hostOps3_3 Wv (Proc.devRef .tc main_v40) = Cert.Net.w256_1 (F := Ideal) (Wv (Proc.devRef .tc main_arg6)) := by
  host_read hostOps3_3
  try rfl
theorem rd_v13 : StableHlo.after hostOps3_3 Wv (Proc.devRef .tc main_v43) = Cert.Net.rowCast (F := Ideal) (Cert.Net.b128_1 (Wv (Proc.devRef .tc main_arg7))) := by
  host_read hostOps3_3
  try rfl
theorem rd_v15 : StableHlo.after hostOps3_3 Wv (Proc.devRef .tc main_v45) = Cert.Net.w128_1 (F := Ideal) (Wv (Proc.devRef .tc main_arg8)) := by
  host_read hostOps3_3
  try rfl
theorem rd_v18 : StableHlo.after hostOps3_3 Wv (Proc.devRef .tc main_v48) = Cert.Net.rowCast (F := Ideal) (Cert.Net.b128_1 (Wv (Proc.devRef .tc main_arg9))) := by
  host_read hostOps3_3
  try rfl

/-- The node states beside the messages summed into their destinations. -/
theorem rd_v23 : StableHlo.after hostOps4 Wv (Proc.devRef .tc main_v53) = concatenate Cert.ReferenceIdeal.S30000x256 1
        [⟨Cert.ReferenceIdeal.S30000x128, (Wv (Proc.devRef .tc main_v35))⟩, ⟨Cert.ReferenceIdeal.S30000x128, Cert.Net.aggOf (F := Ideal) (Wv (Proc.devRef .tc main_v3)) (Wv (Proc.devRef .tc main_v49))⟩]
        Cert.ReferenceIdeal.Facts₀.concatenates_S30000x128_S30000x128_S30000x256_d1 := by
  host_read hostOps4
  try rfl

/-- This layer's slices of the node perceptron's stacked weights. -/
theorem rd_v25 : StableHlo.after hostOps4 Wv (Proc.devRef .tc main_v55) = Cert.Net.w256_1 (F := Ideal) (Wv (Proc.devRef .tc main_arg10)) := by
  host_read hostOps4
  try rfl
theorem rd_v28 : StableHlo.after hostOps4 Wv (Proc.devRef .tc main_v58) = Cert.Net.rowCast (F := Ideal) (Cert.Net.b128_1 (Wv (Proc.devRef .tc main_arg11))) := by
  host_read hostOps4
  try rfl
theorem rd_v30 : StableHlo.after hostOps4 Wv (Proc.devRef .tc main_v60) = Cert.Net.w128_1 (F := Ideal) (Wv (Proc.devRef .tc main_arg12)) := by
  host_read hostOps4
  try rfl
theorem rd_v33 : StableHlo.after hostOps4 Wv (Proc.devRef .tc main_v63) = Cert.Net.rowCast (F := Ideal) (Cert.Net.b128_1 (Wv (Proc.devRef .tc main_arg13))) := by
  host_read hostOps4
  try rfl

/-- The states plus the update. -/
theorem rd_v35 : StableHlo.after hostOps5 Wv (Proc.devRef .tc main_v65) = addf (F := Ideal) (φ := .f32) (s := Cert.ReferenceIdeal.S30000x128) (Wv (Proc.devRef .tc main_v35)) (Wv (Proc.devRef .tc main_v64)) := by
  host_read hostOps5
  try rfl

end Reads

/-! ## The layer's buffers at the program's boundaries -/

variable (m : (ℓ : Loc nD τ sig) → Buf (Elt Ideal) ℓ) (ρ : Dev nD → PrngReg) (c : Dev nD)

/-- The rows at the source ends, of the states the layer found. -/
theorem W10_v6 : W10 m ρ c (Proc.devRef .tc main_v36)
    = Cert.Forms.rowsAtFill (F := Ideal) (W9 m ρ c (Proc.devRef .tc main_v35)) (Cert.Net.rowOf (m ((c : Thread nD τ).loc main_arg1))) := by
  refine (rd_v6 (W9 m ρ c)).trans ?_
  rw [show W9 m ρ c (Proc.devRef .tc main_v1) = Cert.Net.rowOf (m ((c : Thread nD τ).loc main_arg1)) from
    (back_W9 m ρ c main_v1 (by decide)).trans (Cert.KernelIdeal.KV.W1_v1 m ρ c)]

/-- The rows at the destination ends. -/
theorem W11_v7 : W11 m ρ c (Proc.devRef .tc main_v37)
    = Cert.Forms.rowsAtFill (F := Ideal) (W9 m ρ c (Proc.devRef .tc main_v35)) (Cert.Net.colOf (m ((c : Thread nD τ).loc main_arg1))) := by
  refine (rd_v7 (W10 m ρ c)).trans ?_
  rw [main_v35_W10 m ρ c, show W10 m ρ c (Proc.devRef .tc main_v3) = Cert.Net.colOf (m ((c : Thread nD τ).loc main_arg1)) from
    (back_W10 m ρ c main_v3 (by decide)).trans (Cert.KernelIdeal.KV.W1_v3 m ρ c)]

/-- The edge perceptron's input. -/
theorem W12_v8 : W12 m ρ c (Proc.devRef .tc main_v38)
    = concatenate Cert.ReferenceIdeal.S480000x256 1
        [⟨Cert.ReferenceIdeal.S480000x128, Cert.Forms.rowsAtFill (F := Ideal) (W9 m ρ c (Proc.devRef .tc main_v35)) (Cert.Net.rowOf (m ((c : Thread nD τ).loc main_arg1)))⟩,
         ⟨Cert.ReferenceIdeal.S480000x128, Cert.Forms.rowsAtFill (F := Ideal) (W9 m ρ c (Proc.devRef .tc main_v35)) (Cert.Net.colOf (m ((c : Thread nD τ).loc main_arg1)))⟩]
        Cert.ReferenceIdeal.Facts₀.concatenates_S480000x128_S480000x128_S480000x256_d1 := by
  refine (rd_v8 (W11 m ρ c)).trans ?_
  rw [main_v36_W11 m ρ c, W10_v6, W11_v7]

/-- The edge perceptron's weights. -/
theorem W12_v10 : W12 m ρ c (Proc.devRef .tc main_v40) = Cert.Net.w256_1 (F := Ideal) (m ((c : Thread nD τ).loc main_arg6)) := by
  refine (rd_v10 (W11 m ρ c)).trans ?_
  rw [show W11 m ρ c (Proc.devRef .tc main_arg6) = (m ((c : Thread nD τ).loc main_arg6)) from ((back_W11 m ρ c main_arg6 (by decide)).trans (arg_W1 m ρ c main_arg6 (by decide)))]
theorem W12_v13 : W12 m ρ c (Proc.devRef .tc main_v43) = Cert.Net.rowCast (F := Ideal) (Cert.Net.b128_1 (m ((c : Thread nD τ).loc main_arg7))) := by
  refine (rd_v13 (W11 m ρ c)).trans ?_
  rw [show W11 m ρ c (Proc.devRef .tc main_arg7) = (m ((c : Thread nD τ).loc main_arg7)) from ((back_W11 m ρ c main_arg7 (by decide)).trans (arg_W1 m ρ c main_arg7 (by decide)))]
theorem W12_v15 : W12 m ρ c (Proc.devRef .tc main_v45) = Cert.Net.w128_1 (F := Ideal) (m ((c : Thread nD τ).loc main_arg8)) := by
  refine (rd_v15 (W11 m ρ c)).trans ?_
  rw [show W11 m ρ c (Proc.devRef .tc main_arg8) = (m ((c : Thread nD τ).loc main_arg8)) from ((back_W11 m ρ c main_arg8 (by decide)).trans (arg_W1 m ρ c main_arg8 (by decide)))]
theorem W12_v18 : W12 m ρ c (Proc.devRef .tc main_v48) = Cert.Net.rowCast (F := Ideal) (Cert.Net.b128_1 (m ((c : Thread nD τ).loc main_arg9))) := by
  refine (rd_v18 (W11 m ρ c)).trans ?_
  rw [show W11 m ρ c (Proc.devRef .tc main_arg9) = (m ((c : Thread nD τ).loc main_arg9)) from ((back_W11 m ρ c main_arg9 (by decide)).trans (arg_W1 m ρ c main_arg9 (by decide)))]

/-- The messages: the edge region's output array. -/
theorem W13_v19 : W13 m ρ c (Proc.devRef .tc main_v49)
    = Cert.Forms.mlpE (F := Ideal) (W12 m ρ c (Proc.devRef .tc main_v38)) (W12 m ρ c (Proc.devRef .tc main_v40)) (W12 m ρ c (Proc.devRef .tc main_v43)) (W12 m ρ c (Proc.devRef .tc main_v45)) (W12 m ρ c (Proc.devRef .tc main_v48)) :=
  (W13_arr m ρ c 5).trans (Cert.KernelIdeal.Reg3.arr_out (V12 m ρ) c)

/-- The node perceptron's input. -/
theorem W14_v23 : W14 m ρ c (Proc.devRef .tc main_v53)
    = concatenate Cert.ReferenceIdeal.S30000x256 1
        [⟨Cert.ReferenceIdeal.S30000x128, (W9 m ρ c (Proc.devRef .tc main_v35))⟩,
         ⟨Cert.ReferenceIdeal.S30000x128, Cert.Net.aggOf (F := Ideal) (Cert.Net.colOf (m ((c : Thread nD τ).loc main_arg1))) (W13 m ρ c (Proc.devRef .tc main_v49))⟩]
        Cert.ReferenceIdeal.Facts₀.concatenates_S30000x128_S30000x128_S30000x256_d1 := by
  refine (rd_v23 (W13 m ρ c)).trans ?_
  rw [main_v35_W13 m ρ c, show W13 m ρ c (Proc.devRef .tc main_v3) = Cert.Net.colOf (m ((c : Thread nD τ).loc main_arg1)) from
    (back_W13 m ρ c main_v3 (by decide)).trans (Cert.KernelIdeal.KV.W1_v3 m ρ c)]

/-- The node perceptron's weights. -/
theorem W14_v25 : W14 m ρ c (Proc.devRef .tc main_v55) = Cert.Net.w256_1 (F := Ideal) (m ((c : Thread nD τ).loc main_arg10)) := by
  refine (rd_v25 (W13 m ρ c)).trans ?_
  rw [show W13 m ρ c (Proc.devRef .tc main_arg10) = (m ((c : Thread nD τ).loc main_arg10)) from ((back_W13 m ρ c main_arg10 (by decide)).trans (arg_W1 m ρ c main_arg10 (by decide)))]
theorem W14_v28 : W14 m ρ c (Proc.devRef .tc main_v58) = Cert.Net.rowCast (F := Ideal) (Cert.Net.b128_1 (m ((c : Thread nD τ).loc main_arg11))) := by
  refine (rd_v28 (W13 m ρ c)).trans ?_
  rw [show W13 m ρ c (Proc.devRef .tc main_arg11) = (m ((c : Thread nD τ).loc main_arg11)) from ((back_W13 m ρ c main_arg11 (by decide)).trans (arg_W1 m ρ c main_arg11 (by decide)))]
theorem W14_v30 : W14 m ρ c (Proc.devRef .tc main_v60) = Cert.Net.w128_1 (F := Ideal) (m ((c : Thread nD τ).loc main_arg12)) := by
  refine (rd_v30 (W13 m ρ c)).trans ?_
  rw [show W13 m ρ c (Proc.devRef .tc main_arg12) = (m ((c : Thread nD τ).loc main_arg12)) from ((back_W13 m ρ c main_arg12 (by decide)).trans (arg_W1 m ρ c main_arg12 (by decide)))]
theorem W14_v33 : W14 m ρ c (Proc.devRef .tc main_v63) = Cert.Net.rowCast (F := Ideal) (Cert.Net.b128_1 (m ((c : Thread nD τ).loc main_arg13))) := by
  refine (rd_v33 (W13 m ρ c)).trans ?_
  rw [show W13 m ρ c (Proc.devRef .tc main_arg13) = (m ((c : Thread nD τ).loc main_arg13)) from ((back_W13 m ρ c main_arg13 (by decide)).trans (arg_W1 m ρ c main_arg13 (by decide)))]

/-- The update: the node region's output array. -/
theorem W15_v34 : W15 m ρ c (Proc.devRef .tc main_v64)
    = Cert.Forms.mlpN (F := Ideal) (W14 m ρ c (Proc.devRef .tc main_v53)) (W14 m ρ c (Proc.devRef .tc main_v55)) (W14 m ρ c (Proc.devRef .tc main_v58)) (W14 m ρ c (Proc.devRef .tc main_v60)) (W14 m ρ c (Proc.devRef .tc main_v63)) :=
  (W15_arr m ρ c 5).trans (Cert.KernelIdeal.Reg4.arr_out (V14 m ρ) c)

/-- The next node states: the states plus the update. -/
theorem W16_v35 : W16 m ρ c (Proc.devRef .tc main_v65)
    = addf (F := Ideal) (φ := .f32) (s := Cert.ReferenceIdeal.S30000x128) (W9 m ρ c (Proc.devRef .tc main_v35)) (W15 m ρ c (Proc.devRef .tc main_v64)) := by
  refine (rd_v35 (W15 m ρ c)).trans ?_
  rw [main_v35_W15 m ρ c]

/-- THE LAYER: the next node states are the layer's function of the states it found, the two index rows and this
    layer's weights. -/
theorem layer_eq : W16 m ρ c (Proc.devRef .tc main_v65)
    = Cert.Net.layer (F := Ideal) (fun h => Cert.Forms.rowsAtFill h (Cert.Net.rowOf (m ((c : Thread nD τ).loc main_arg1)))) (fun h => Cert.Forms.rowsAtFill h (Cert.Net.colOf (m ((c : Thread nD τ).loc main_arg1))))
        (Cert.Net.colOf (m ((c : Thread nD τ).loc main_arg1))) (W9 m ρ c (Proc.devRef .tc main_v35))
        (Cert.Net.w256_1 (m ((c : Thread nD τ).loc main_arg6))) (Cert.Net.rowCast (Cert.Net.b128_1 (m ((c : Thread nD τ).loc main_arg7)))) (Cert.Net.w128_1 (m ((c : Thread nD τ).loc main_arg8))) (Cert.Net.rowCast (Cert.Net.b128_1 (m ((c : Thread nD τ).loc main_arg9))))
        (Cert.Net.w256_1 (m ((c : Thread nD τ).loc main_arg10))) (Cert.Net.rowCast (Cert.Net.b128_1 (m ((c : Thread nD τ).loc main_arg11)))) (Cert.Net.w128_1 (m ((c : Thread nD τ).loc main_arg12))) (Cert.Net.rowCast (Cert.Net.b128_1 (m ((c : Thread nD τ).loc main_arg13)))) := by
  rw [W16_v35, W15_v34, W14_v23, W14_v25, W14_v28, W14_v30, W14_v33, W13_v19, W12_v8, W12_v10, W12_v13, W12_v15, W12_v18]
  rfl

end Cert.KernelIdeal.KL1

end
-- ==== Proof.RegMlp5.lean ====
/-
  The third edge perceptron (rows of the concatenated edge features): the array its launch leaves, as one function of
  the arrays the launch finds.

  The 480000 output rows are cut into 100 blocks of 4800 rows; grid point `t` reads rows `4800 t … 4800 t + 4799` of the
  operand and the whole weights and biases, and writes back rows `4800 t … 4800 t + 4799` of the result. What it writes
  at `(p, q)` of its block is entry `(4800 t + p, q)` of the whole-array perceptron, because that entry depends on
  row `4800 t + p` of the operand only; the block that covers row `r` is block `r / 4800`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpEdge
import Idealize.ShloMosaic.Lib.Pipeline.Value

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 100 points: the operand's and the result's block at point `t` is block `(t, 0)`,
    the weights' and biases' block is `(0, 0)`. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The array's row under row `p` of point `t`'s block. -/
def rowOf (t : Fin cfg5.N) (p : Fin 4800) : Fin 480000 :=
  ⟨t.val * 4800 + p.val, by have := t.isLt; have := p.isLt; have e : cfg5.N = 100 := N_5; omega⟩

/-- Row `p` of the operand's block at point `t` is row `4800 t + p` of the operand. -/
theorem operand_block (c : Dev nD) (t : Fin cfg5.N) (p : Fin 4800) (j : Fin 256) :
    (iblk5 V c 0 t : Vec Ideal S4800x256 .f32) (ix2 p j) = (V c main_v68 : Vec Ideal S480000x256 .f32) (ix2 (rowOf t p) j) := by
  obtain ⟨e0, e1, -⟩ := index_maps t
  show V c main_v68 (((cfg5.win 0).blk t).view.emb (ix2 p j)) = V c main_v68 (ix2 (rowOf t p) j)
  refine congrArg (V c main_v68) (funext fun a => Fin.ext ?_)
  match a with
  | ⟨0, _⟩ => show win5_0.index t (0 : Fin 2) * 4800 + 1 * p.val = t.val * 4800 + p.val; omega
  | ⟨1, _⟩ => show win5_0.index t (1 : Fin 2) * 256 + 1 * j.val = j.val; omega

/-- The first weights' block at any point is the whole array. -/
theorem hidden_weights_block (c : Dev nD) (t : Fin cfg5.N) : (iblk5 V c 1 t : Vec Ideal S256x128 .f32) = V c main_v70 := by
  obtain ⟨-, -, e0, e1, -⟩ := index_maps t
  funext y
  show V c main_v70 (((cfg5.win 1).blk t).view.emb y) = V c main_v70 y
  refine congrArg (V c main_v70) (funext fun a => Fin.ext ?_)
  match a with
  | ⟨0, _⟩ => show win5_1.index t (0 : Fin 2) * 256 + 1 * (y 0).val = (y 0).val; omega
  | ⟨1, _⟩ => show win5_1.index t (1 : Fin 2) * 128 + 1 * (y 1).val = (y 1).val; omega

/-- The first bias's block at any point is the whole row. -/
theorem hidden_bias_block (c : Dev nD) (t : Fin cfg5.N) : (iblk5 V c 2 t : Vec Ideal S1x128 .f32) = V c main_v73 := by
  obtain ⟨-, -, -, -, e0, e1, -⟩ := index_maps t
  funext y
  show V c main_v73 (((cfg5.win 2).blk t).view.emb y) = V c main_v73 y
  refine congrArg (V c main_v73) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The second weights' block at any point is the whole array. -/
theorem out_weights_block (c : Dev nD) (t : Fin cfg5.N) : (iblk5 V c 3 t : Vec Ideal S128x128 .f32) = V c main_v75 := by
  obtain ⟨-, -, -, -, -, -, e0, e1, -⟩ := index_maps t
  funext y
  show V c main_v75 (((cfg5.win 3).blk t).view.emb y) = V c main_v75 y
  refine congrArg (V c main_v75) (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- The second bias's block at any point is the whole row. -/
theorem out_bias_block (c : Dev nD) (t : Fin cfg5.N) : (iblk5 V c 4 t : Vec Ideal S1x128 .f32) = V c main_v78 := by
  obtain ⟨-, -, -, -, -, -, -, -, e0, e1, -⟩ := index_maps t
  funext y
  show V c main_v78 (((cfg5.win 4).blk t).view.emb y) = V c main_v78 y
  refine congrArg (V c main_v78) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- The whole-array perceptron of the arrays the launch finds. -/
abbrev result (c : Dev nD) : Vec Ideal S480000x128 .f32 :=
  Cert.Forms.mlpE (F := Ideal) (V c main_v68) (V c main_v70) (V c main_v73) (V c main_v75) (V c main_v78)

/-- What point `t` writes back is block `t` of the whole-array perceptron. -/
theorem flushed_eq (c : Dev nD) (t : Fin cfg5.N) :
    (dat5 V c).flushed 5 t = ((cfg5.win 5).blk t).view.read (Elt Ideal) (result V c) := by
  show (cfg5.win 5).cut (grid5.coords t) ((dat5 V c).after 5 t) = _
  rw [after5_5]
  unfold out5_5
  rw [View.canon_unit_zero offsets_zero]
  simp only [View.ld_unit_zero (S := S4800x256) offsets_zero, View.ld_unit_zero (S := S256x128) offsets_zero,
    View.ld_unit_zero (S := S1x128) offsets_zero, View.ld_unit_zero (S := S128x128) offsets_zero]
  funext j
  obtain ⟨p, q, rfl⟩ : ∃ (p : Fin 4800) (q : Fin 128), j = ix2 p q := ⟨j 0, j 1, eq_ix2 j⟩
  obtain ⟨-, -, -, -, -, -, -, -, -, -, e0, e1⟩ := index_maps t
  have e : ((cfg5.win 5).blk t).view.emb (ix2 p q) = ix2 (rowOf t p) q := by
    funext a; apply Fin.ext
    match a with
    | ⟨0, _⟩ => show win5_5.index t (0 : Fin 2) * 4800 + 1 * p.val = t.val * 4800 + p.val; omega
    | ⟨1, _⟩ => show win5_5.index t (1 : Fin 2) * 128 + 1 * q.val = q.val; omega
  show k5_pay1 (iblk5 V c 0 t) (iblk5 V c 1 t) (iblk5 V c 2 t) (iblk5 V c 3 t) (iblk5 V c 4 t) (ix2 p q)
    = result V c (((cfg5.win 5).blk t).view.emb (ix2 p q))
  rw [e, hidden_weights_block V c t, hidden_bias_block V c t, out_weights_block V c t, out_bias_block V c t]
  exact Cert.Mlp.pay5_point _ _ _ _ _ _ p (rowOf t p) q (operand_block V c t p)

/-- An index of the result array is in point `t`'s block exactly when each coordinate is in the block's range. -/
theorem mem_block (t : Fin cfg5.N) (i : S480000x128.Idx) :
    i ∈ ((cfg5.win 5).blk t).view.set ↔ ∀ a : Fin 2, win5_5.index t a * S4800x128.size a ≤ (i a).val
      ∧ (i a).val < win5_5.index t a * S4800x128.size a + S4800x128.size a := by
  show i ∈ ((View.whole main_v79).slice (win5_5.rect t)).set ↔ _
  rw [View.set_slice_whole, Rect.mem_set_unit]
  exact Iff.rfl

/-- Every row of the result is in some point's block: row `r` in block `r / 4800`. -/
theorem covered (i : S480000x128.Idx) :
    ∃ t : Fin cfg5.N, (cfg5.win 5).flush t = true ∧ i ∈ ((cfg5.win 5).blk t).view.set := by
  have hi0 : (i 0).val < 480000 := (i 0).isLt
  have hi1 : (i 1).val < 128 := (i 1).isLt
  have hN : cfg5.N = 100 := N_5
  obtain ⟨t, ht⟩ : ∃ t : Fin cfg5.N, t.val = (i 0).val / 4800 := ⟨⟨(i 0).val / 4800, by omega⟩, rfl⟩
  obtain ⟨-, -, -, -, -, -, -, -, -, -, e0, e1⟩ := index_maps t
  refine ⟨t, flush5_5 t, ?_⟩
  rw [mem_block]
  intro a
  match a with
  | ⟨0, _⟩ =>
    show win5_5.index t (0 : Fin 2) * 4800 ≤ (i 0).val ∧ (i 0).val < win5_5.index t (0 : Fin 2) * 4800 + 4800
    omega
  | ⟨1, _⟩ =>
    show win5_5.index t (1 : Fin 2) * 128 ≤ (i 1).val ∧ (i 1).val < win5_5.index t (1 : Fin 2) * 128 + 128
    omega

/-- The array the launch leaves is the whole-array perceptron of the arrays it finds. -/
theorem arr_out (c : Dev nD) :
    (Cert.KernelIdeal.Gen.dat5 (F := Ideal) V c).arrAt 5 Cert.KernelIdeal.cfg5.N
      = Cert.Forms.mlpE (F := Ideal) (V c main_v68) (V c main_v70) (V c main_v73) (V c main_v75) (V c main_v78) :=
  (dat5 V c).arrAt_eq_of_cover 5 (result V c) (fun t _ => flushed_eq V c t) covered

end Cert.KernelIdeal.Reg5

end
-- ==== Proof.RegMlp6.lean ====
/-
  The third node perceptron (rows of the concatenated node features): the array its launch leaves, as one function of
  the arrays the launch finds.

  The 30000 output rows are cut into 10 blocks of 3000 rows; grid point `t` reads rows `3000 t … 3000 t + 2999` of the
  operand and the whole weights and biases, and writes back rows `3000 t … 3000 t + 2999` of the result. What it writes
  at `(p, q)` of its block is entry `(3000 t + p, q)` of the whole-array perceptron, because that entry depends on
  row `3000 t + p` of the operand only; the block that covers row `r` is block `r / 3000`; so the blocks together
  leave the whole-array perceptron of the launch's operands.
-/
import proofs.«410631_j824633721181_1_alg».proof.Proof.Gen.KernelIdeal.Frame
import proofs.«410631_j824633721181_1_alg».proof.Proof.Forms
import proofs.«410631_j824633721181_1_alg».proof.Proof.MlpNode
import Idealize.ShloMosaic.Lib.Pipeline.Value

noncomputable section

namespace Cert.KernelIdeal.Reg6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body loads and stores whole blocks: its offsets are zero on both axes. -/
theorem offsets_zero : (![0, 0] : Fin 2 → Nat) = fun _ => 0 := funext fun a => by fin_cases a <;> rfl

/-- The index maps, decided over the 10 points: the operand's and the result's block at point `t` is block `(t, 0)`,
    the weights' and biases' block is `(0, 0)`. -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The array's row under row `p` of point `t`'s block. -/
def rowOf (t : Fin cfg6.N) (p : Fin 3000) : Fin 30000 :=
  ⟨t.val * 3000 + p.val, by have := t.isLt; have := p.isLt; have e : cfg6.N = 10 := N_6; omega⟩

/-- Row `p` of the operand's block at point `t` is row `3000 t + p` of the operand. -/
theorem operand_block (c : Dev nD) (t : Fin cfg6.N) (p : Fin 3000) (j : Fin 256) :
    (iblk6 V c 0 t : Vec Ideal S3000x256 .f32) (ix2 p j) = (V c main_v83 : Vec Ideal S30000x256 .f32) (ix2 (rowOf t p) j) := by
  obtain ⟨e0, e1, -⟩ := index_maps t
  show V c main_v83 (((cfg6.win 0).blk t).view.emb (ix2 p j)) = V c main_v83 (ix2 (rowOf t p) j)
  refine congrArg (V c main_v83) (funext fun a => Fin.ext ?_)
  match a with
  | ⟨0, _⟩ => show win6_0.index t (0 : Fin 2) * 3000 + 1 * p.val = t.val * 3000 + p.val; omega
  | ⟨1, _⟩ => show win6_0.index t (1 : Fin 2) * 256 + 1 * j.val = j.val; omega

/-- The first weights' block at any point is the whole array. -/
theorem hidden_weights_block (c : Dev nD) (t : Fin cfg6.N) : (iblk6 V c 1 t : Vec Ideal S256x128 .f32) = V c main_v85 := by
  obtain ⟨-, -, e0, e1, -⟩ := index_maps t
  funext y
  show V c main_v85 (((cfg6.win 1).blk t).view.emb y) = V c main_v85 y
  refine congrArg (V c main_v85) (funext fun a => Fin.ext ?_)
  match a with
  | ⟨0, _⟩ => show win6_1.index t (0 : Fin 2) * 256 + 1 * (y 0).val = (y 0).val; omega
  | ⟨1, _⟩ => show win6_1.index t (1 : Fin 2) * 128 + 1 * (y 1).val = (y 1).val; omega

/-- The first bias's block at any point is the whole row. -/
theorem hidden_bias_block (c : Dev nD) (t : Fin cfg6.N) : (iblk6 V c 2 t : Vec Ideal S1x128 .f32) = V c main_v88 := by
  obtain ⟨-, -, -, -, e0, e1, -⟩ := index_maps t
  funext y
  show V c main_v88 (((cfg6.win 2).blk t).view.emb y) = V c main_v88 y
  refine congrArg (V c main_v88) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The second weights' block at any point is the whole array. -/
theorem out_weights_block (c : Dev nD) (t : Fin cfg6.N) : (iblk6 V c 3 t : Vec Ideal S128x128 .f32) = V c main_v90 := by
  obtain ⟨-, -, -, -, -, -, e0, e1, -⟩ := index_maps t
  funext y
  show V c main_v90 (((cfg6.win 3).blk t).view.emb y) = V c main_v90 y
  refine congrArg (V c main_v90) (funext fun a => Fin.ext ?_)
  match a with
  | ⟨0, _⟩ => show win6_3.index t (0 : Fin 2) * 128 + 1 * (y 0).val = (y 0).val; omega
  | ⟨1, _⟩ => show win6_3.index t (1 : Fin 2) * 128 + 1 * (y 1).val = (y 1).val; omega

/-- The second bias's block at any point is the whole row. -/
theorem out_bias_block (c : Dev nD) (t : Fin cfg6.N) : (iblk6 V c 4 t : Vec Ideal S1x128 .f32) = V c main_v93 := by
  obtain ⟨-, -, -, -, -, -, -, -, e0, e1, -⟩ := index_maps t
  funext y
  show V c main_v93 (((cfg6.win 4).blk t).view.emb y) = V c main_v93 y
  refine congrArg (V c main_v93) (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- The whole-array perceptron of the arrays the launch finds. -/
abbrev result (c : Dev nD) : Vec Ideal S30000x128 .f32 :=
  Cert.Forms.mlpN (F := Ideal) (V c main_v83) (V c main_v85) (V c main_v88) (V c main_v90) (V c main_v93)

/-- What point `t` writes back is block `t` of the whole-array perceptron. -/
theorem flushed_eq (c : Dev nD) (t : Fin cfg6.N) :
    (dat6 V c).flushed 5 t = ((cfg6.win 5).blk t).view.read (Elt Ideal) (result V c) := by
  show (cfg6.win 5).cut (grid6.coords t) ((dat6 V c).after 5 t) = _
  rw [after6_5]
  unfold out6_5
  rw [View.canon_unit_zero offsets_zero]
  simp only [View.ld_unit_zero (S := S3000x256) offsets_zero, View.ld_unit_zero (S := S256x128) offsets_zero,
    View.ld_unit_zero (S := S1x128) offsets_zero, View.ld_unit_zero (S := S128x128) offsets_zero]
  funext j
  obtain ⟨p, q, rfl⟩ : ∃ (p : Fin 3000) (q : Fin 128), j = ix2 p q := ⟨j 0, j 1, eq_ix2 j⟩
  obtain ⟨-, -, -, -, -, -, -, -, -, -, e0, e1⟩ := index_maps t
  have e : ((cfg6.win 5).blk t).view.emb (ix2 p q) = ix2 (rowOf t p) q := by
    funext a; apply Fin.ext
    match a with
    | ⟨0, _⟩ => show win6_5.index t (0 : Fin 2) * 3000 + 1 * p.val = t.val * 3000 + p.val; omega
    | ⟨1, _⟩ => show win6_5.index t (1 : Fin 2) * 128 + 1 * q.val = q.val; omega
  show k6_pay1 (iblk6 V c 0 t) (iblk6 V c 1 t) (iblk6 V c 2 t) (iblk6 V c 3 t) (iblk6 V c 4 t) (ix2 p q)
    = result V c (((cfg6.win 5).blk t).view.emb (ix2 p q))
  rw [e, hidden_weights_block V c t, hidden_bias_block V c t, out_weights_block V c t, out_bias_block V c t]
  exact Cert.Mlp.pay6_point _ _ _ _ _ _ p (rowOf t p) q (operand_block V c t p)

/-- An index of the result array is in point `t`'s block exactly when each coordinate is in the block's range. -/
theorem mem_block (t : Fin cfg6.N) (i : S30000x128.Idx) :
    i ∈ ((cfg6.win 5).blk t).view.set ↔ ∀ a : Fin 2, win6_5.index t a * S3000x128.size a ≤ (i a).val
      ∧ (i a).val < win6_5.index t a * S3000x128.size a + S3000x128.size a := by
  show i ∈ ((View.whole main_v94).slice (win6_5.rect t)).set ↔ _
  rw [View.set_slice_whole, Rect.mem_set_unit]
  exact Iff.rfl

/-- Every row of the result is in some point's block: row `r` in block `r / 3000`. -/
theorem covered (i : S30000x128.Idx) :
    ∃ t : Fin cfg6.N, (cfg6.win 5).flush t = true ∧ i ∈ ((cfg6.win 5).blk t).view.set := by
  have hi0 : (i 0).val < 30000 := (i 0).isLt
  have hi1 : (i 1).val < 128 := (i 1).isLt
  have hN : cfg6.N = 10 := N_6
  obtain ⟨t, ht⟩ : ∃ t : Fin cfg6.N, t.val = (i 0).val / 3000 := ⟨⟨(i 0).val / 3000, by omega⟩, rfl⟩
  obtain ⟨-, -, -, -, -, -, -, -, -, -, e0, e1⟩ := index_maps t
  refine ⟨t, flush6_5 t, ?_⟩
  rw [mem_block]
  intro a
  match a with
  | ⟨0, _⟩ =>
    show win6_5.index t (0 : Fin 2) * 3000 ≤ (i 0).val ∧ (i 0).val < win6_5.index t (0 : Fin 2) * 3000 + 3000
    omega
  | ⟨1, _⟩ =>
    show win6_5.index t (1 : Fin 2) * 128 ≤ (i 1).val ∧ (i 1).val < win6_5.index t (1 : Fin 2) * 128 + 128
    omega

/-- The array the launch leaves is the whole-array perceptron of the arrays it finds. -/
theorem arr_out (c : Dev nD) :
    (Cert.KernelIdeal.Gen.dat6 (F := Ideal) V c).arrAt 5 Cert.KernelIdeal.cfg6.N
      = Cert.Forms.mlpN (F := Ideal) (V c main_v83) (V c main_v85) (V c main_v88) (V c main_v90) (V c main_v93) :=
  (dat6 V c).arrAt_eq_of_cover 5 (result V c) (fun t _ => flushed_eq V c t) covered

end Cert.KernelIdeal.Reg6

end
-- ==== Proof.KL2.lean ====
/-
  One message-passing layer of the kernel program, buffer by buffer: the rows gathered at the edges' two ends,
  their concatenation, this layer's weight slices, the edge region's messages, their sum into the destination
  nodes beside the node states, the node region's update, and the states plus the update; together the layer's
  function of the states the layer found.
-/
import proofs.«410631_j824633721181_1_alg».proof.Proof.KRows
import proofs.«410631_j824633721181_1_alg».proof.Proof.RegMlp5
import proofs.«410631_j824633721181_1_alg».proof.Proof.RegMlp6
import Idealize.ShloMosaic.Lib.StableHlo.Run
import Idealize.ShloMosaic.PureOps.Ideal

noncomputable section

namespace Cert.KernelIdeal.KL2

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

/-! ## What each stretch of host operations computes, from any contents `Wv` of the buffers before it -/

section Reads

variable (Wv : Valuation τ sig (Elt Ideal))

/-- The rows of the node states at the edges' source ends. -/
theorem rd_v6 : StableHlo.after hostOps5_1 Wv (Proc.devRef .tc main_v66) = Cert.Forms.rowsAtFill (F := Ideal) (Wv (Proc.devRef .tc main_v65)) (Wv (Proc.devRef .tc main_v1)) := by
  host_read hostOps5_1
  try rfl

/-- The rows of the node states at the edges' destination ends. -/
theorem rd_v7 : StableHlo.after hostOps5_2 Wv (Proc.devRef .tc main_v67) = Cert.Forms.rowsAtFill (F := Ideal) (Wv (Proc.devRef .tc main_v65)) (Wv (Proc.devRef .tc main_v3)) := by
  host_read hostOps5_2
  try rfl

/-- The two ends' rows side by side. -/
theorem rd_v8 : StableHlo.after hostOps5_3 Wv (Proc.devRef .tc main_v68) = concatenate Cert.ReferenceIdeal.S480000x256 1 [⟨Cert.ReferenceIdeal.S480000x128, (Wv (Proc.devRef .tc main_v66))⟩, ⟨Cert.ReferenceIdeal.S480000x128, (Wv (Proc.devRef .tc main_v67))⟩]
        Cert.ReferenceIdeal.Facts₀.concatenates_S480000x128_S480000x128_S480000x256_d1 := by
  host_read hostOps5_3
  try rfl

/-- This layer's slices of the edge perceptron's stacked weights. -/
theorem rd_v10 : StableHlo.after hostOps5_3 Wv (Proc.devRef .tc main_v70) = Cert.Net.w256_2 (F := Ideal) (Wv (Proc.devRef .tc main_arg6)) := by
  host_read hostOps5_3
  try rfl
theorem rd_v13 : StableHlo.after hostOps5_3 Wv (Proc.devRef .tc main_v73) = Cert.Net.rowCast (F := Ideal) (Cert.Net.b128_2 (Wv (Proc.devRef .tc main_arg7))) := by
  host_read hostOps5_3
  try rfl
theorem rd_v15 : StableHlo.after hostOps5_3 Wv (Proc.devRef .tc main_v75) = Cert.Net.w128_2 (F := Ideal) (Wv (Proc.devRef .tc main_arg8)) := by
  host_read hostOps5_3
  try rfl
theorem rd_v18 : StableHlo.after hostOps5_3 Wv (Proc.devRef .tc main_v78) = Cert.Net.rowCast (F := Ideal) (Cert.Net.b128_2 (Wv (Proc.devRef .tc main_arg9))) := by
  host_read hostOps5_3
  try rfl

/-- The node states beside the messages summed into their destinations. -/
theorem rd_v23 : StableHlo.after hostOps6 Wv (Proc.devRef .tc main_v83) = concatenate Cert.ReferenceIdeal.S30000x256 1
        [⟨Cert.ReferenceIdeal.S30000x128, (Wv (Proc.devRef .tc main_v65))⟩, ⟨Cert.ReferenceIdeal.S30000x128, Cert.Net.aggOf (F := Ideal) (Wv (Proc.devRef .tc main_v3)) (Wv (Proc.devRef .tc main_v79))⟩]
        Cert.ReferenceIdeal.Facts₀.concatenates_S30000x128_S30000x128_S30000x256_d1 := by
  host_read hostOps6
  try rfl

/-- This layer's slices of the node perceptron's stacked weights. -/
theorem rd_v25 : StableHlo.after hostOps6 Wv (Proc.devRef .tc main_v85) = Cert.Net.w256_2 (F := Ideal) (Wv (Proc.devRef .tc main_arg10)) := by
  host_read hostOps6
  try rfl
theorem rd_v28 : StableHlo.after hostOps6 Wv (Proc.devRef .tc main_v88) = Cert.Net.rowCast (F := Ideal) (Cert.Net.b128_2 (Wv (Proc.devRef .tc main_arg11))) := by
  host_read hostOps6
  try rfl
theorem rd_v30 : StableHlo.after hostOps6 Wv (Proc.devRef .tc main_v90) = Cert.Net.w128_2 (F := Ideal) (Wv (Proc.devRef .tc main_arg12)) := by
  host_read hostOps6
  try rfl
theorem rd_v33 : StableHlo.after hostOps6 Wv (Proc.devRef .tc main_v93) = Cert.Net.rowCast (F := Ideal) (Cert.Net.b128_2 (Wv (Proc.devRef .tc main_arg13))) := by
  host_read hostOps6
  try rfl

/-- The states plus the update. -/
theorem rd_v35 : StableHlo.after hostOps7 Wv (Proc.devRef .tc main_v95) = addf (F := Ideal) (φ := .f32) (s := Cert.ReferenceIdeal.S30000x128) (Wv (Proc.devRef .tc main_v65)) (Wv (Proc.devRef .tc main_v94)) := by
  host_read hostOps7
  try rfl

end Reads

/-! ## The layer's buffers at the program's boundaries -/

variable (m : (ℓ : Loc nD τ sig) → Buf (Elt Ideal) ℓ) (ρ : Dev nD → PrngReg) (c : Dev nD)

/-- The rows at the source ends, of the states the layer found. -/
theorem W17_v6 : W17 m ρ c (Proc.devRef .tc main_v66)
    = Cert.Forms.rowsAtFill (F := Ideal) (W16 m ρ c (Proc.devRef .tc main_v65)) (Cert.Net.rowOf (m ((c : Thread nD τ).loc main_arg1))) := by
  refine (rd_v6 (W16 m ρ c)).trans ?_
  rw [show W16 m ρ c (Proc.devRef .tc main_v1) = Cert.Net.rowOf (m ((c : Thread nD τ).loc main_arg1)) from
    (back_W16 m ρ c main_v1 (by decide)).trans (Cert.KernelIdeal.KV.W1_v1 m ρ c)]

/-- The rows at the destination ends. -/
theorem W18_v7 : W18 m ρ c (Proc.devRef .tc main_v67)
    = Cert.Forms.rowsAtFill (F := Ideal) (W16 m ρ c (Proc.devRef .tc main_v65)) (Cert.Net.colOf (m ((c : Thread nD τ).loc main_arg1))) := by
  refine (rd_v7 (W17 m ρ c)).trans ?_
  rw [main_v65_W17 m ρ c, show W17 m ρ c (Proc.devRef .tc main_v3) = Cert.Net.colOf (m ((c : Thread nD τ).loc main_arg1)) from
    (back_W17 m ρ c main_v3 (by decide)).trans (Cert.KernelIdeal.KV.W1_v3 m ρ c)]

/-- The edge perceptron's input. -/
theorem W19_v8 : W19 m ρ c (Proc.devRef .tc main_v68)
    = concatenate Cert.ReferenceIdeal.S480000x256 1
        [⟨Cert.ReferenceIdeal.S480000x128, Cert.Forms.rowsAtFill (F := Ideal) (W16 m ρ c (Proc.devRef .tc main_v65)) (Cert.Net.rowOf (m ((c : Thread nD τ).loc main_arg1)))⟩,
         ⟨Cert.ReferenceIdeal.S480000x128, Cert.Forms.rowsAtFill (F := Ideal) (W16 m ρ c (Proc.devRef .tc main_v65)) (Cert.Net.colOf (m ((c : Thread nD τ).loc main_arg1)))⟩]
        Cert.ReferenceIdeal.Facts₀.concatenates_S480000x128_S480000x128_S480000x256_d1 := by
  refine (rd_v8 (W18 m ρ c)).trans ?_
  rw [main_v66_W18 m ρ c, W17_v6, W18_v7]

/-- The edge perceptron's weights. -/
theorem W19_v10 : W19 m ρ c (Proc.devRef .tc main_v70) = Cert.Net.w256_2 (F := Ideal) (m ((c : Thread nD τ).loc main_arg6)) := by
  refine (rd_v10 (W18 m ρ c)).trans ?_
  rw [show W18 m ρ c (Proc.devRef .tc main_arg6) = (m ((c : Thread nD τ).loc main_arg6)) from ((back_W18 m ρ c main_arg6 (by decide)).trans (arg_W1 m ρ c main_arg6 (by decide)))]
theorem W19_v13 : W19 m ρ c (Proc.devRef .tc main_v73) = Cert.Net.rowCast (F := Ideal) (Cert.Net.b128_2 (m ((c : Thread nD τ).loc main_arg7))) := by
  refine (rd_v13 (W18 m ρ c)).trans ?_
  rw [show W18 m ρ c (Proc.devRef .tc main_arg7) = (m ((c : Thread nD τ).loc main_arg7)) from ((back_W18 m ρ c main_arg7 (by decide)).trans (arg_W1 m ρ c main_arg7 (by decide)))]
theorem W19_v15 : W19 m ρ c (Proc.devRef .tc main_v75) = Cert.Net.w128_2 (F := Ideal) (m ((c : Thread nD τ).loc main_arg8)) := by
  refine (rd_v15 (W18 m ρ c)).trans ?_
  rw [show W18 m ρ c (Proc.devRef .tc main_arg8) = (m ((c : Thread nD τ).loc main_arg8)) from ((back_W18 m ρ c main_arg8 (by decide)).trans (arg_W1 m ρ c main_arg8 (by decide)))]
theorem W19_v18 : W19 m ρ c (Proc.devRef .tc main_v78) = Cert.Net.rowCast (F := Ideal) (Cert.Net.b128_2 (m ((c : Thread nD τ).loc main_arg9))) := by
  refine (rd_v18 (W18 m ρ c)).trans ?_
  rw [show W18 m ρ c (Proc.devRef .tc main_arg9) = (m ((c : Thread nD τ).loc main_arg9)) from ((back_W18 m ρ c main_arg9 (by decide)).trans (arg_W1 m ρ c main_arg9 (by decide)))]

/-- The messages: the edge region's output array. -/
theorem W20_v19 : W20 m ρ c (Proc.devRef .tc main_v79)
    = Cert.Forms.mlpE (F := Ideal) (W19 m ρ c (Proc.devRef .tc main_v68)) (W19 m ρ c (Proc.devRef .tc main_v70)) (W19 m ρ c (Proc.devRef .tc main_v73)) (W19 m ρ c (Proc.devRef .tc main_v75)) (W19 m ρ c (Proc.devRef .tc main_v78)) :=
  (W20_arr m ρ c 5).trans (Cert.KernelIdeal.Reg5.arr_out (V19 m ρ) c)

/-- The node perceptron's input. -/
theorem W21_v23 : W21 m ρ c (Proc.devRef .tc main_v83)
    = concatenate Cert.ReferenceIdeal.S30000x256 1
        [⟨Cert.ReferenceIdeal.S30000x128, (W16 m ρ c (Proc.devRef .tc main_v65))⟩,
         ⟨Cert.ReferenceIdeal.S30000x128, Cert.Net.aggOf (F := Ideal) (Cert.Net.colOf (m ((c : Thread nD τ).loc main_arg1))) (W20 m ρ c (Proc.devRef .tc main_v79))⟩]
        Cert.ReferenceIdeal.Facts₀.concatenates_S30000x128_S30000x128_S30000x256_d1 := by
  refine (rd_v23 (W20 m ρ c)).trans ?_
  rw [main_v65_W20 m ρ c, show W20 m ρ c (Proc.devRef .tc main_v3) = Cert.Net.colOf (m ((c : Thread nD τ).loc main_arg1)) from
    (back_W20 m ρ c main_v3 (by decide)).trans (Cert.KernelIdeal.KV.W1_v3 m ρ c)]

/-- The node perceptron's weights. -/
theorem W21_v25 : W21 m ρ c (Proc.devRef .tc main_v85) = Cert.Net.w256_2 (F := Ideal) (m ((c : Thread nD τ).loc main_arg10)) := by
  refine (rd_v25 (W20 m ρ c)).trans ?_
  rw [show W20 m ρ c (Proc.devRef .tc main_arg10) = (m ((c : Thread nD τ).loc main_arg10)) from ((back_W20 m ρ c main_arg10 (by decide)).trans (arg_W1 m ρ c main_arg10 (by decide)))]
theorem W21_v28 : W21 m ρ c (Proc.devRef .tc main_v88) = Cert.Net.rowCast (F := Ideal) (Cert.Net.b128_2 (m ((c : Thread nD τ).loc main_arg11))) := by
  refine (rd_v28 (W20 m ρ c)).trans ?_
  rw [show W20 m ρ c (Proc.devRef .tc main_arg11) = (m ((c : Thread nD τ).loc main_arg11)) from ((back_W20 m ρ c main_arg11 (by decide)).trans (arg_W1 m ρ c main_arg11 (by decide)))]
theorem W21_v30 : W21 m ρ c (Proc.devRef .tc main_v90) = Cert.Net.w128_2 (F := Ideal) (m ((c : Thread nD τ).loc main_arg12)) := by
  refine (rd_v30 (W20 m ρ c)).trans ?_
  rw [show W20 m ρ c (Proc.devRef .tc main_arg12) = (m ((c : Thread nD τ).loc main_arg12)) from ((back_W20 m ρ c main_arg12 (by decide)).trans (arg_W1 m ρ c main_arg12 (by decide)))]
theorem W21_v33 : W21 m ρ c (Proc.devRef .tc main_v93) = Cert.Net.rowCast (F := Ideal) (Cert.Net.b128_2 (m ((c : Thread nD τ).loc main_arg13))) := by
  refine (rd_v33 (W20 m ρ c)).trans ?_
  rw [show W20 m ρ c (Proc.devRef .tc main_arg13) = (m ((c : Thread nD τ).loc main_arg13)) from ((back_W20 m ρ c main_arg13 (by decide)).trans (arg_W1 m ρ c main_arg13 (by decide)))]

/-- The update: the node region's output array. -/
theorem W22_v34 : W22 m ρ c (Proc.devRef .tc main_v94)
    = Cert.Forms.mlpN (F := Ideal) (W21 m ρ c (Proc.devRef .tc main_v83)) (W21 m ρ c (Proc.devRef .tc main_v85)) (W21 m ρ c (Proc.devRef .tc main_v88)) (W21 m ρ c (Proc.devRef .tc main_v90)) (W21 m ρ c (Proc.devRef .tc main_v93)) :=
  (W22_arr m ρ c 5).trans (Cert.KernelIdeal.Reg6.arr_out (V21 m ρ) c)

/-- The next node states: the states plus the update. -/
theorem W23_v35 : W23 m ρ c (Proc.devRef .tc main_v95)
    = addf (F := Ideal) (φ := .f32) (s := Cert.ReferenceIdeal.S30000x128) (W16 m ρ c (Proc.devRef .tc main_v65)) (W22 m ρ c (Proc.devRef .tc main_v94)) := by
  refine (rd_v35 (W22 m ρ c)).trans ?_
  rw [main_v65_W22 m ρ c]

/-- THE LAYER: the next node states are the layer's function of the states it found, the two index rows and this
    layer's weights. -/
theorem layer_eq : W23 m ρ c (Proc.devRef .tc main_v95)
    = Cert.Net.layer (F := Ideal) (fun h => Cert.Forms.rowsAtFill h (Cert.Net.rowOf (m ((c : Thread nD τ).loc main_arg1)))) (fun h => Cert.Forms.rowsAtFill h (Cert.Net.colOf (m ((c : Thread nD τ).loc main_arg1))))
        (Cert.Net.colOf (m ((c : Thread nD τ).loc main_arg1))) (W16 m ρ c (Proc.devRef .tc main_v65))
        (Cert.Net.w256_2 (m ((c : Thread nD τ).loc main_arg6))) (Cert.Net.rowCast (Cert.Net.b128_2 (m ((c : Thread nD τ).loc main_arg7)))) (Cert.Net.w128_2 (m ((c : Thread nD τ).loc main_arg8))) (Cert.Net.rowCast (Cert.Net.b128_2 (m ((c : Thread nD τ).loc main_arg9))))
        (Cert.Net.w256_2 (m ((c : Thread nD τ).loc main_arg10))) (Cert.Net.rowCast (Cert.Net.b128_2 (m ((c : Thread nD τ).loc main_arg11)))) (Cert.Net.w128_2 (m ((c : Thread nD τ).loc main_arg12))) (Cert.Net.rowCast (Cert.Net.b128_2 (m ((c : Thread nD τ).loc main_arg13)))) := by
  rw [W23_v35, W22_v34, W21_v23, W21_v25, W21_v28, W21_v30, W21_v33, W20_v19, W19_v8, W19_v10, W19_v13, W19_v15, W19_v18]
  rfl

end Cert.KernelIdeal.KL2

end
-- ==== Proof.RegLin7.lean ====
/-
  The decoder layer `x · W + b` (30000 rows, 128 → 3) as the kernel computes it, ten blocks of 3000 rows.

  Grid point `t` holds rows `3000 t … 3000 t + 2999` of `x`, the whole of `W` and the one-row bias, and writes
  rows `3000 t …` of the result. Entry `(p, q)` of its block is `∑ k, x (3000 t + p, k) * W (k, q) + b (0, q)`:
  the product is accumulated into the zero matrix (`0 + _`), and the bias row is laid down the block's rows.
  The whole-array form is the same sum at row `r = 3000 t + p`, because a row of a matrix product depends
  only on that row of the left factor. The blocks tile the rows (row `r` lies in block `r / 3000`), so the
  array the region leaves is the whole-array form.
-/
import proofs.«410631_j824633721181_1_alg».proof.Proof.Gen.KernelIdeal.Frame
import proofs.«410631_j824633721181_1_alg».proof.Proof.Forms
import proofs.«410631_j824633721181_1_alg».proof.Proof.LinearRows
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Reg7

open Idealize.ShloMosaic Idealize.ShloMosaic.ValueIdx Idealize.SL.Sem Idealize.ShloMosaic.TcCoe
open Idealize.ShloMosaic.Pipeline (Dat Cfg Window)
open Cert.KernelIdeal Cert.KernelIdeal.Gen Cert.LinearRows

/-! ## One entry of a block, and one entry of the whole array -/

/-- Entry `(p, q)` of what the body stores: row `p` of the block of `x` against column `q` of `W`, plus the
    bias entry `(0, q)`. The block's dimension numbers are the plain ones (rows × 128 by 128 × columns). -/
theorem block_entry (x0 : Vec Ideal S3000x128 .f32) (x1 : Vec Ideal S128x3 .f32) (x2 : Vec Ideal S1x3 .f32)
    (p : Fin 3000) (q : Fin 3) :
    k7_pay1 (F := Ideal) x0 x1 x2 (ix2 p q) = (∑ k : Fin 128, x0 (ix2 p k) * x1 (ix2 k q)) + x2 (ix2 (0 : Fin 1) q) := by
  unfold k7_pay1
  -- a cast of a shape to itself is the identity
  simp only [shapeCast_self]
  refine (addf_apply _ _ _).trans ?_
  refine congrArg₂ (· + ·) ?_ ?_
  · exact matmul_plain_zero_apply none x0 x1 p q
  · exact broadcastTo_oneRow_apply broadcasts_S1x3_S3000x3 x2 p q

/-- Entry `(r, q)` of the whole-array form: the same sum over all 30000 rows. -/
theorem form_entry (X : FVec Ideal Cert.ReferenceIdeal.S30000x128 .f32) (W : FVec Ideal Cert.ReferenceIdeal.S128x3 .f32)
    (b : FVec Ideal Cert.ReferenceIdeal.S1x3 .f32) (r : Fin 30000) (q : Fin 3) :
    Cert.Forms.lin7 (F := Ideal) X W b (ix2 r q) = (∑ k : Fin 128, X (ix2 r k) * W (ix2 k q)) + b (ix2 (0 : Fin 1) q) := by
  unfold Cert.Forms.lin7
  refine (addf_apply _ _ _).trans ?_
  refine congrArg₂ (· + ·) ?_ ?_
  · exact StackMember.dotGeneral_plain_apply none X W r q
  · exact broadcastInDim_oneRow_apply _ b r q

/-- Where row `p` of the block is row `R` of `x`, and the block's `W` and bias are the arrays', entry `(p, q)` of the
    block is entry `(R, Q)` of the whole-array form. -/
theorem rows_meet (X : FVec Ideal Cert.ReferenceIdeal.S30000x128 .f32) (W : FVec Ideal Cert.ReferenceIdeal.S128x3 .f32)
    (b : FVec Ideal Cert.ReferenceIdeal.S1x3 .f32)
    (x0 : Vec Ideal S3000x128 .f32) (x1 : Vec Ideal S128x3 .f32) (x2 : Vec Ideal S1x3 .f32)
    (p : Fin 3000) (q : Fin 3) (R : Fin 30000) (Q : Fin 3)
    (h0 : ∀ k : Fin 128, x0 (ix2 p k) = X (ix2 R k)) (h1 : ∀ k : Fin 128, x1 (ix2 k q) = W (ix2 k Q))
    (h2 : x2 (ix2 (0 : Fin 1) q) = b (ix2 (0 : Fin 1) Q)) :
    k7_pay1 (F := Ideal) x0 x1 x2 (ix2 p q) = Cert.Forms.lin7 (F := Ideal) X W b (ix2 R Q) := by
  refine (block_entry x0 x1 x2 p q).trans (Eq.trans ?_ (form_entry X W b R Q).symm)
  refine congrArg₂ (· + ·) (Finset.sum_congr rfl fun k _ => ?_) h2
  rw [h0 k, h1 k]

/-! ## The blocks -/

theorem zero_offsets : (![0, 0] : Fin 2 → Nat) = fun _ => 0 := funext fun a => by fin_cases a <;> rfl

/-- The index maps over the grid: the block of `x` moves with the output's block down the rows, `W` and the bias
    stay at block `(0, 0)`, and the output's block at point `t` is `(t, 0)`. -/
theorem block_indices : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the whole-array form of the arrays as the region finds them. -/
theorem flushed_eq (V : (c : Dev nD) → (b : Ref sig .tc) → Buf (Elt Ideal) ((c : Thread nD τ).loc b)) (c : Dev nD)
    (t : Fin cfg7.N) :
    (dat7 (F := Ideal) V c).flushed 3 t
      = ((cfg7.win 3).blk t).view.read (Elt Ideal)
          (Cert.Forms.lin7 (F := Ideal) (V c main_v95) (V c main_arg4) (V c main_v96)) := by
  show (cfg7.win 3).cut (grid7.coords t) ((dat7 V c).after 3 t) = _
  rw [after7_3]
  unfold out7_3
  rw [View.canon_unit_zero zero_offsets]
  simp only [View.ld_unit_zero (S := S3000x128) zero_offsets, View.ld_unit_zero (S := S128x3) zero_offsets,
    View.ld_unit_zero (S := S1x3) zero_offsets]
  obtain ⟨e00, e01, e10, e11, e20, e21, e30, e31⟩ := block_indices t
  show (k7_pay1 (F := Ideal) (iblk7 V c 0 t) (iblk7 V c 1 t) (iblk7 V c 2 t) : S3000x3.Idx → Ideal .f32)
      = fun j : S3000x3.Idx =>
          Cert.Forms.lin7 (F := Ideal) (V c main_v95) (V c main_arg4) (V c main_v96) (((cfg7.win 3).blk t).view.emb j)
  funext j
  obtain ⟨p, q, rfl⟩ : ∃ (p : Fin 3000) (q : Fin 3), j = ix2 p q := ⟨j 0, j 1, eq_ix2 j⟩
  -- the array index of the block's entry (p, q), by its two coordinates
  have hi := eq_ix2 (n0 := 30000) (n1 := 3) (((cfg7.win 3).blk t).view.emb (ix2 p q))
  refine (rows_meet (V c main_v95) (V c main_arg4) (V c main_v96) (iblk7 V c 0 t) (iblk7 V c 1 t) (iblk7 V c 2 t) p q
      ((((cfg7.win 3).blk t).view.emb (ix2 p q)) 0) ((((cfg7.win 3).blk t).view.emb (ix2 p q)) 1) ?_ ?_ ?_).trans
    (congrArg (Cert.Forms.lin7 (F := Ideal) (V c main_v95) (V c main_arg4) (V c main_v96)) hi.symm)
  -- a block's coordinate is its index times its extent plus the coordinate inside the block
  · intro k
    show V c main_v95 (((cfg7.win 0).blk t).view.emb (ix2 p k)) = V c main_v95 (ix2 _ k)
    refine congrArg (V c main_v95) (funext fun a => Fin.ext ?_)
    match a with
    | ⟨0, _⟩ => show win7_0.index t (0 : Fin 2) * 3000 + 1 * p.val = win7_3.index t (0 : Fin 2) * 3000 + 1 * p.val; omega
    | ⟨1, _⟩ => show win7_0.index t (1 : Fin 2) * 128 + 1 * k.val = k.val; omega
  · intro k
    show V c main_arg4 (((cfg7.win 1).blk t).view.emb (ix2 k q)) = V c main_arg4 (ix2 k _)
    refine congrArg (V c main_arg4) (funext fun a => Fin.ext ?_)
    match a with
    | ⟨0, _⟩ => show win7_1.index t (0 : Fin 2) * 128 + 1 * k.val = k.val; omega
    | ⟨1, _⟩ => show win7_1.index t (1 : Fin 2) * 3 + 1 * q.val = win7_3.index t (1 : Fin 2) * 3 + 1 * q.val; omega
  · show V c main_v96 (((cfg7.win 2).blk t).view.emb (ix2 (0 : Fin 1) q)) = V c main_v96 (ix2 (0 : Fin 1) _)
    refine congrArg (V c main_v96) (funext fun a => Fin.ext ?_)
    match a with
    | ⟨0, _⟩ => show win7_2.index t (0 : Fin 2) * 1 + 1 * (0 : Fin 1).val = (0 : Fin 1).val; omega
    | ⟨1, _⟩ => show win7_2.index t (1 : Fin 2) * 3 + 1 * q.val = win7_3.index t (1 : Fin 2) * 3 + 1 * q.val; omega

/-! ## The blocks tile the rows -/

/-- An index of the result is in point `t`'s block iff each coordinate is in the block's range on its axis. -/
theorem mem_block (t : Fin cfg7.N) (i : S30000x3.Idx) :
    i ∈ ((cfg7.win 3).blk t).view.set ↔ ∀ a : Fin 2, win7_3.index t a * S3000x3.size a ≤ (i a).val
      ∧ (i a).val < win7_3.index t a * S3000x3.size a + S3000x3.size a := by
  show i ∈ ((View.whole main_v97).slice (win7_3.rect t)).set ↔ _
  rw [View.set_slice_whole, Rect.mem_set_unit]
  exact Iff.rfl

/-- Row `r` lies in the block of point `r / 3000`, and every point writes its block back. -/
theorem rows_covered (i : S30000x3.Idx) :
    ∃ t : Fin cfg7.N, (cfg7.win 3).flush t = true ∧ i ∈ ((cfg7.win 3).blk t).view.set := by
  have hi0 : (i 0).val < 30000 := (i 0).isLt
  have hi1 : (i 1).val < 3 := (i 1).isLt
  have hN : grid7.N = 10 := N_7
  have hlt : (i 0).val / 3000 < grid7.N := by rw [hN]; omega
  obtain ⟨-, -, -, -, -, -, e30, e31⟩ := block_indices ⟨(i 0).val / 3000, hlt⟩
  have e30' : win7_3.index ⟨(i 0).val / 3000, hlt⟩ (0 : Fin 2) = (i 0).val / 3000 := e30
  refine ⟨⟨(i 0).val / 3000, hlt⟩, flush7_3 _, ?_⟩
  rw [mem_block]
  intro a
  match a with
  | ⟨0, _⟩ =>
    show win7_3.index ⟨(i 0).val / 3000, hlt⟩ (0 : Fin 2) * 3000 ≤ (i 0).val
      ∧ (i 0).val < win7_3.index ⟨(i 0).val / 3000, hlt⟩ (0 : Fin 2) * 3000 + 3000
    omega
  | ⟨1, _⟩ =>
    show win7_3.index ⟨(i 0).val / 3000, hlt⟩ (1 : Fin 2) * 3 ≤ (i 1).val
      ∧ (i 1).val < win7_3.index ⟨(i 0).val / 3000, hlt⟩ (1 : Fin 2) * 3 + 3
    omega

/-! ## The array the region leaves -/

/-- After the region the result array is `x · W + b` of the arrays as the region found them, whatever they were. -/
theorem arr_out (V : (c : Dev nD) → (b : Ref sig .tc) → Buf (Elt Ideal) ((c : Thread nD τ).loc b)) (c : Dev nD) :
    (Cert.KernelIdeal.Gen.dat7 (F := Ideal) V c).arrAt 3 Cert.KernelIdeal.cfg7.N
      = Cert.Forms.lin7 (F := Ideal) (V c main_v95) (V c main_arg4) (V c main_v96) :=
  (dat7 (F := Ideal) V c).arrAt_eq_of_cover 3
    (Cert.Forms.lin7 (F := Ideal) (V c main_v95) (V c main_arg4) (V c main_v96))
    (fun t _ => flushed_eq V c t) rows_covered

end Cert.KernelIdeal.Reg7

end
-- ==== Proof.KTail.lean ====
/-
  The end of the kernel program: the decoder's bias row is the bias vector in the shape of a one-row matrix, and
  the decoder region leaves `h · W + b` of the last layer's node states in the result array.
-/
import proofs.«410631_j824633721181_1_alg».proof.Proof.KRows
import proofs.«410631_j824633721181_1_alg».proof.Proof.RegLin7
import Idealize.ShloMosaic.Lib.StableHlo.Run
import Idealize.ShloMosaic.PureOps.Ideal

noncomputable section

namespace Cert.KernelIdeal.KT

open Idealize.ShloMosaic Idealize.ShloMosaic.TcCoe Idealize.SL.Sem Idealize.ShloMosaic.StableHlo
open Cert.KernelIdeal Cert.KernelIdeal.Gen Cert.KernelIdeal.Keep

/-- Reads one buffer after a stretch of host operations as the operations' term of the buffers before it. -/
macro "host_read" ops:ident : tactic =>
  `(tactic| (delta $ops:ident; after_results_simp; try simp only [TRef.ofBuf, TRef.toBuf, cast_eq]))

/-- The bias row, from any contents of the buffers before the last stretch. -/
theorem rd_v96 (Wv : Valuation τ sig (Elt Ideal)) :
    StableHlo.after hostOps7 Wv (Proc.devRef .tc main_v96) = Cert.Net.rowCast3 (F := Ideal) (Wv (Proc.devRef .tc main_arg5)) := by
  host_read hostOps7
  try rfl

variable (m : (ℓ : Loc nD τ sig) → Buf (Elt Ideal) ℓ) (ρ : Dev nD → PrngReg) (c : Dev nD)

/-- The decoder's bias as a one-row matrix. -/
theorem W23_v96 : W23 m ρ c (Proc.devRef .tc main_v96) = Cert.Net.rowCast3 (F := Ideal) (m ((c : Thread nD τ).loc main_arg5)) := by
  refine (rd_v96 (W22 m ρ c)).trans ?_
  rw [show W22 m ρ c (Proc.devRef .tc main_arg5) = (m ((c : Thread nD τ).loc main_arg5)) from ((back_W22 m ρ c main_arg5 (by decide)).trans (arg_W1 m ρ c main_arg5 (by decide)))]

/-- The result: the decoder region's output array. -/
theorem W24_v97 : W24 m ρ c (Proc.devRef .tc main_v97)
    = Cert.Forms.lin7 (F := Ideal) (W23 m ρ c (Proc.devRef .tc main_v95)) (m ((c : Thread nD τ).loc main_arg4)) (Cert.Net.rowCast3 (m ((c : Thread nD τ).loc main_arg5))) := by
  refine ((W24_arr m ρ c 3).trans (Cert.KernelIdeal.Reg7.arr_out (V23 m ρ) c)).trans ?_
  show Cert.Forms.lin7 (F := Ideal) (W23 m ρ c (Proc.devRef .tc main_v95)) (W23 m ρ c (Proc.devRef .tc main_arg4)) (W23 m ρ c (Proc.devRef .tc main_v96)) = _
  rw [show W23 m ρ c (Proc.devRef .tc main_arg4) = (m ((c : Thread nD τ).loc main_arg4)) from ((back_W23 m ρ c main_arg4 (by decide)).trans (arg_W1 m ρ c main_arg4 (by decide))), W23_v96]

end Cert.KernelIdeal.KT

end
-- ==== Proof.KValue.lean ====
/-
  The kernel program's result array, after its last region, is the network's function of the argument arrays:
  the decoder of the third layer of the second layer of the first layer of the encoder, the rows taken by the
  gather that overwrites out-of-range rows, a bias vector made a one-row matrix by a change of shape.
-/
import proofs.«410631_j824633721181_1_alg».proof.Proof.KHead
import proofs.«410631_j824633721181_1_alg».proof.Proof.KL0
import proofs.«410631_j824633721181_1_alg».proof.Proof.KL1
import proofs.«410631_j824633721181_1_alg».proof.Proof.KL2
import proofs.«410631_j824633721181_1_alg».proof.Proof.KTail
import Idealize.ShloMosaic.Lib.StableHlo.Run
import Idealize.ShloMosaic.PureOps.Ideal

noncomputable section

namespace Cert.KernelIdeal.KVal

open Idealize.ShloMosaic Idealize.ShloMosaic.TcCoe Idealize.SL.Sem Idealize.ShloMosaic.StableHlo
open Cert.KernelIdeal Cert.KernelIdeal.Gen Cert.KernelIdeal.Keep

variable (m : (ℓ : Loc nD τ sig) → Buf (Elt Ideal) ℓ) (ρ : Dev nD → PrngReg) (c : Dev nD)

/-- THE KERNEL PROGRAM'S RESULT. -/
theorem result_eq : W24 m ρ c (Proc.devRef .tc main_v97)
    = Cert.Net.out (F := Ideal) (fun h => Cert.Forms.rowsAtFill h (Cert.Net.rowOf (m ((c : Thread nD τ).loc main_arg1)))) (fun h => Cert.Forms.rowsAtFill h (Cert.Net.colOf (m ((c : Thread nD τ).loc main_arg1))))
        Cert.Net.rowCast Cert.Net.rowCast3
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KernelIdeal.KT.W24_v97, Cert.KernelIdeal.KL2.layer_eq, Cert.KernelIdeal.KL1.layer_eq, Cert.KernelIdeal.KL0.layer_eq, Cert.KernelIdeal.KH.W2_v5]
  rfl

end Cert.KernelIdeal.KVal

end
-- ==== Proof.RefValue.lean ====
/-
  The reference program's run, read stretch by stretch. From any contents `Wv` of the buffers: the encoder's
  operations leave the two index rows and `x · W + b`; each layer's operations leave the layer's function of the
  node states before it, the index rows and that layer's weight slices; the decoder's leave `h · W + b`. No
  stretch writes an argument, nor a later one the index rows. Chained over the whole operation list, the result
  buffer ends at the network's function of the arguments (the rows taken by the plain gather, a bias vector made a
  one-row matrix by a broadcast), the arguments as launched; and every weakly fair execution of the program ends so.
-/
import proofs.«410631_j824633721181_1_alg».proof.Proof.RefRunP
import proofs.«410631_j824633721181_1_alg».proof.Proof.Net
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.ValueP

/-- Reads one buffer after a stretch of host operations as the operations' term of the buffers before it. -/
macro "host_read" ops:ident : tactic =>
  `(tactic| (delta $ops:ident; after_results_simp; try simp only [TRef.ofBuf, TRef.toBuf, cast_eq]))

variable {F : FTy → Type} [FloatOps F]

/-! ## What each stretch computes, from any contents `Wv` of the buffers before it -/

section Reads

variable (Wv : Valuation τ sig (Elt F))

/-- The source row of the edge list. -/
theorem rd_v1 : StableHlo.after opsEnc Wv (Proc.devRef .tc main_v1) = Cert.Net.rowOf (Wv (Proc.devRef .tc main_arg1)) := by
  host_read opsEnc
  try rfl

/-- The destination row of the edge list. -/
theorem rd_v3 : StableHlo.after opsEnc Wv (Proc.devRef .tc main_v3) = Cert.Net.colOf (Wv (Proc.devRef .tc main_arg1)) := by
  host_read opsEnc
  try rfl

/-- The encoder. -/
theorem rd_v7 : StableHlo.after opsEnc Wv (Proc.devRef .tc main_v7)
    = Cert.Net.h0 (F := F) Cert.Net.rowBcast (Wv (Proc.devRef .tc main_arg0)) (Wv (Proc.devRef .tc main_arg2)) (Wv (Proc.devRef .tc main_arg3)) := by
  host_read opsEnc
  try rfl

set_option maxHeartbeats 2000000 in
/-- The first layer. -/
theorem rd_v61 : StableHlo.after opsL0 Wv (Proc.devRef .tc main_v61)
    = Cert.Net.layer (F := F) (fun h => Cert.Forms.rowsAt h (Wv (Proc.devRef .tc main_v1))) (fun h => Cert.Forms.rowsAt h (Wv (Proc.devRef .tc main_v3))) (Wv (Proc.devRef .tc main_v3))
        (Wv (Proc.devRef .tc main_v7))
        (Cert.Net.w256_0 (Wv (Proc.devRef .tc main_arg6))) (Cert.Net.rowBcast (Cert.Net.b128_0 (Wv (Proc.devRef .tc main_arg7)))) (Cert.Net.w128_0 (Wv (Proc.devRef .tc main_arg8))) (Cert.Net.rowBcast (Cert.Net.b128_0 (Wv (Proc.devRef .tc main_arg9))))
        (Cert.Net.w256_0 (Wv (Proc.devRef .tc main_arg10))) (Cert.Net.rowBcast (Cert.Net.b128_0 (Wv (Proc.devRef .tc main_arg11)))) (Cert.Net.w128_0 (Wv (Proc.devRef .tc main_arg12))) (Cert.Net.rowBcast (Cert.Net.b128_0 (Wv (Proc.devRef .tc main_arg13)))) := by
  host_read opsL0
  unfold Cert.Net.layer Cert.Net.aggOf Cert.Forms.mlpN Cert.Forms.mlpE Cert.Forms.reluN Cert.Forms.reluE Cert.Forms.rowsAt Cert.Forms.wrapIdx Cert.Net.w256_0 Cert.Net.w128_0 Cert.Net.b128_0 Cert.Net.rowBcast
  rfl

set_option maxHeartbeats 2000000 in
/-- The second layer. -/
theorem rd_v115 : StableHlo.after opsL1 Wv (Proc.devRef .tc main_v115)
    = Cert.Net.layer (F := F) (fun h => Cert.Forms.rowsAt h (Wv (Proc.devRef .tc main_v1))) (fun h => Cert.Forms.rowsAt h (Wv (Proc.devRef .tc main_v3))) (Wv (Proc.devRef .tc main_v3))
        (Wv (Proc.devRef .tc main_v61))
        (Cert.Net.w256_1 (Wv (Proc.devRef .tc main_arg6))) (Cert.Net.rowBcast (Cert.Net.b128_1 (Wv (Proc.devRef .tc main_arg7)))) (Cert.Net.w128_1 (Wv (Proc.devRef .tc main_arg8))) (Cert.Net.rowBcast (Cert.Net.b128_1 (Wv (Proc.devRef .tc main_arg9))))
        (Cert.Net.w256_1 (Wv (Proc.devRef .tc main_arg10))) (Cert.Net.rowBcast (Cert.Net.b128_1 (Wv (Proc.devRef .tc main_arg11)))) (Cert.Net.w128_1 (Wv (Proc.devRef .tc main_arg12))) (Cert.Net.rowBcast (Cert.Net.b128_1 (Wv (Proc.devRef .tc main_arg13)))) := by
  host_read opsL1
  unfold Cert.Net.layer Cert.Net.aggOf Cert.Forms.mlpN Cert.Forms.mlpE Cert.Forms.reluN Cert.Forms.reluE Cert.Forms.rowsAt Cert.Forms.wrapIdx Cert.Net.w256_1 Cert.Net.w128_1 Cert.Net.b128_1 Cert.Net.rowBcast
  rfl

set_option maxHeartbeats 2000000 in
/-- The third layer. -/
theorem rd_v169 : StableHlo.after opsL2 Wv (Proc.devRef .tc main_v169)
    = Cert.Net.layer (F := F) (fun h => Cert.Forms.rowsAt h (Wv (Proc.devRef .tc main_v1))) (fun h => Cert.Forms.rowsAt h (Wv (Proc.devRef .tc main_v3))) (Wv (Proc.devRef .tc main_v3))
        (Wv (Proc.devRef .tc main_v115))
        (Cert.Net.w256_2 (Wv (Proc.devRef .tc main_arg6))) (Cert.Net.rowBcast (Cert.Net.b128_2 (Wv (Proc.devRef .tc main_arg7)))) (Cert.Net.w128_2 (Wv (Proc.devRef .tc main_arg8))) (Cert.Net.rowBcast (Cert.Net.b128_2 (Wv (Proc.devRef .tc main_arg9))))
        (Cert.Net.w256_2 (Wv (Proc.devRef .tc main_arg10))) (Cert.Net.rowBcast (Cert.Net.b128_2 (Wv (Proc.devRef .tc main_arg11)))) (Cert.Net.w128_2 (Wv (Proc.devRef .tc main_arg12))) (Cert.Net.rowBcast (Cert.Net.b128_2 (Wv (Proc.devRef .tc main_arg13)))) := by
  host_read opsL2
  unfold Cert.Net.layer Cert.Net.aggOf Cert.Forms.mlpN Cert.Forms.mlpE Cert.Forms.reluN Cert.Forms.reluE Cert.Forms.rowsAt Cert.Forms.wrapIdx Cert.Net.w256_2 Cert.Net.w128_2 Cert.Net.b128_2 Cert.Net.rowBcast
  rfl

/-- The decoder. -/
theorem rd_v173 : StableHlo.after opsDec Wv (Proc.devRef .tc main_v173)
    = Cert.Forms.lin7 (F := F) (Wv (Proc.devRef .tc main_v169)) (Wv (Proc.devRef .tc main_arg4)) (Cert.Net.rowBcast3 (Wv (Proc.devRef .tc main_arg5))) := by
  host_read opsDec
  try rfl

end Reads

/-! ## What each stretch leaves alone -/

/-- The arguments. -/
abbrev KA : List (Ref sig .tc) := [main_arg0, main_arg1, main_arg2, main_arg3, main_arg4, main_arg5, main_arg6, main_arg7, main_arg8, main_arg9, main_arg10, main_arg11, main_arg12, main_arg13]
/-- The arguments and the two index rows. -/
abbrev KR : List (Ref sig .tc) := main_v1 :: main_v3 :: KA

theorem KA_notin_Enc : ∀ r ∈ KA, r ∉ opsEnc_W := by decide
theorem KR_notin_L0 : ∀ r ∈ KR, r ∉ opsL0_W := by decide
theorem KR_notin_L1 : ∀ r ∈ KR, r ∉ opsL1_W := by decide
theorem KR_notin_L2 : ∀ r ∈ KR, r ∉ opsL2_W := by decide
theorem KR_notin_Dec : ∀ r ∈ KR, r ∉ opsDec_W := by decide

section Keeps

variable (Wv : Valuation τ sig (Elt F))

theorem keepEnc (r : Ref sig .tc) (hr : r ∈ KA) : StableHlo.after opsEnc Wv (Proc.devRef .tc r) = Wv (Proc.devRef .tc r) :=
  StableHlo.after_of_writes_sub opsEnc Wv opsEnc_writes (KA_notin_Enc r hr)
theorem keepL0 (r : Ref sig .tc) (hr : r ∈ KR) : StableHlo.after opsL0 Wv (Proc.devRef .tc r) = Wv (Proc.devRef .tc r) :=
  StableHlo.after_of_writes_sub opsL0 Wv opsL0_writes (KR_notin_L0 r hr)
theorem keepL1 (r : Ref sig .tc) (hr : r ∈ KR) : StableHlo.after opsL1 Wv (Proc.devRef .tc r) = Wv (Proc.devRef .tc r) :=
  StableHlo.after_of_writes_sub opsL1 Wv opsL1_writes (KR_notin_L1 r hr)
theorem keepL2 (r : Ref sig .tc) (hr : r ∈ KR) : StableHlo.after opsL2 Wv (Proc.devRef .tc r) = Wv (Proc.devRef .tc r) :=
  StableHlo.after_of_writes_sub opsL2 Wv opsL2_writes (KR_notin_L2 r hr)
theorem keepDec (r : Ref sig .tc) (hr : r ∈ KR) : StableHlo.after opsDec Wv (Proc.devRef .tc r) = Wv (Proc.devRef .tc r) :=
  StableHlo.after_of_writes_sub opsDec Wv opsDec_writes (KR_notin_Dec r hr)

end Keeps

/-- The contents after two lists in turn are the contents after their concatenation. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## The boundaries between the stretches -/

section Chain

variable (Wv : Valuation τ sig (Elt F))

/-- The buffers after the encoder's stretch. -/
def E : Valuation τ sig (Elt F) := StableHlo.after opsEnc Wv
/-- After the first layer's. -/
def A : Valuation τ sig (Elt F) := StableHlo.after opsL0 (E Wv)
/-- After the second layer's. -/
def B : Valuation τ sig (Elt F) := StableHlo.after opsL1 (A Wv)
/-- After the third layer's. -/
def C : Valuation τ sig (Elt F) := StableHlo.after opsL2 (B Wv)

theorem E_arg (r : Ref sig .tc) (hr : r ∈ KA) : E Wv (Proc.devRef .tc r) = Wv (Proc.devRef .tc r) := keepEnc Wv r hr
theorem E_v1 : E Wv (Proc.devRef .tc main_v1) = Cert.Net.rowOf (Wv (Proc.devRef .tc main_arg1)) := rd_v1 Wv
theorem E_v3 : E Wv (Proc.devRef .tc main_v3) = Cert.Net.colOf (Wv (Proc.devRef .tc main_arg1)) := rd_v3 Wv
theorem E_v7 : E Wv (Proc.devRef .tc main_v7) = Cert.Net.h0 (F := F) Cert.Net.rowBcast (Wv (Proc.devRef .tc main_arg0)) (Wv (Proc.devRef .tc main_arg2)) (Wv (Proc.devRef .tc main_arg3)) := rd_v7 Wv

theorem A_arg (r : Ref sig .tc) (hr : r ∈ KA) : A Wv (Proc.devRef .tc r) = Wv (Proc.devRef .tc r) :=
  (keepL0 (E Wv) r (List.mem_cons_of_mem _ (List.mem_cons_of_mem _ hr))).trans (E_arg Wv r hr)
theorem A_v1 : A Wv (Proc.devRef .tc main_v1) = Cert.Net.rowOf (Wv (Proc.devRef .tc main_arg1)) := (keepL0 (E Wv) main_v1 (by decide)).trans (E_v1 Wv)
theorem A_v3 : A Wv (Proc.devRef .tc main_v3) = Cert.Net.colOf (Wv (Proc.devRef .tc main_arg1)) := (keepL0 (E Wv) main_v3 (by decide)).trans (E_v3 Wv)

theorem B_arg (r : Ref sig .tc) (hr : r ∈ KA) : B Wv (Proc.devRef .tc r) = Wv (Proc.devRef .tc r) :=
  (keepL1 (A Wv) r (List.mem_cons_of_mem _ (List.mem_cons_of_mem _ hr))).trans (A_arg Wv r hr)
theorem B_v1 : B Wv (Proc.devRef .tc main_v1) = Cert.Net.rowOf (Wv (Proc.devRef .tc main_arg1)) := (keepL1 (A Wv) main_v1 (by decide)).trans (A_v1 Wv)
theorem B_v3 : B Wv (Proc.devRef .tc main_v3) = Cert.Net.colOf (Wv (Proc.devRef .tc main_arg1)) := (keepL1 (A Wv) main_v3 (by decide)).trans (A_v3 Wv)

theorem C_arg (r : Ref sig .tc) (hr : r ∈ KA) : C Wv (Proc.devRef .tc r) = Wv (Proc.devRef .tc r) :=
  (keepL2 (B Wv) r (List.mem_cons_of_mem _ (List.mem_cons_of_mem _ hr))).trans (B_arg Wv r hr)

/-- The node states after the first layer. -/
theorem A_v61 : A Wv (Proc.devRef .tc main_v61)
    = Cert.Net.h1 (F := F) (fun h => Cert.Forms.rowsAt h (Cert.Net.rowOf (Wv (Proc.devRef .tc main_arg1)))) (fun h => Cert.Forms.rowsAt h (Cert.Net.colOf (Wv (Proc.devRef .tc main_arg1)))) Cert.Net.rowBcast (Wv (Proc.devRef .tc main_arg0)) (Wv (Proc.devRef .tc main_arg1)) (Wv (Proc.devRef .tc main_arg2)) (Wv (Proc.devRef .tc main_arg3)) (Wv (Proc.devRef .tc main_arg6)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) (Wv (Proc.devRef .tc main_arg13)) := by
  refine (rd_v61 (E Wv)).trans ?_
  rw [E_v1, E_v3, E_v7, E_arg Wv main_arg6 (by decide), E_arg Wv main_arg7 (by decide), E_arg Wv main_arg8 (by decide), E_arg Wv main_arg9 (by decide),
    E_arg Wv main_arg10 (by decide), E_arg Wv main_arg11 (by decide), E_arg Wv main_arg12 (by decide), E_arg Wv main_arg13 (by decide)]
  rfl

/-- The node states after the second layer. -/
theorem B_v115 : B Wv (Proc.devRef .tc main_v115)
    = Cert.Net.h2 (F := F) (fun h => Cert.Forms.rowsAt h (Cert.Net.rowOf (Wv (Proc.devRef .tc main_arg1)))) (fun h => Cert.Forms.rowsAt h (Cert.Net.colOf (Wv (Proc.devRef .tc main_arg1)))) Cert.Net.rowBcast (Wv (Proc.devRef .tc main_arg0)) (Wv (Proc.devRef .tc main_arg1)) (Wv (Proc.devRef .tc main_arg2)) (Wv (Proc.devRef .tc main_arg3)) (Wv (Proc.devRef .tc main_arg6)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) (Wv (Proc.devRef .tc main_arg13)) := by
  refine (rd_v115 (A Wv)).trans ?_
  rw [A_v1, A_v3, A_v61, A_arg Wv main_arg6 (by decide), A_arg Wv main_arg7 (by decide), A_arg Wv main_arg8 (by decide), A_arg Wv main_arg9 (by decide),
    A_arg Wv main_arg10 (by decide), A_arg Wv main_arg11 (by decide), A_arg Wv main_arg12 (by decide), A_arg Wv main_arg13 (by decide)]
  rfl

/-- The node states after the third layer. -/
theorem C_v169 : C Wv (Proc.devRef .tc main_v169)
    = Cert.Net.h3 (F := F) (fun h => Cert.Forms.rowsAt h (Cert.Net.rowOf (Wv (Proc.devRef .tc main_arg1)))) (fun h => Cert.Forms.rowsAt h (Cert.Net.colOf (Wv (Proc.devRef .tc main_arg1)))) Cert.Net.rowBcast (Wv (Proc.devRef .tc main_arg0)) (Wv (Proc.devRef .tc main_arg1)) (Wv (Proc.devRef .tc main_arg2)) (Wv (Proc.devRef .tc main_arg3)) (Wv (Proc.devRef .tc main_arg6)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) (Wv (Proc.devRef .tc main_arg13)) := by
  refine (rd_v169 (B Wv)).trans ?_
  rw [B_v1, B_v3, B_v115, B_arg Wv main_arg6 (by decide), B_arg Wv main_arg7 (by decide), B_arg Wv main_arg8 (by decide), B_arg Wv main_arg9 (by decide),
    B_arg Wv main_arg10 (by decide), B_arg Wv main_arg11 (by decide), B_arg Wv main_arg12 (by decide), B_arg Wv main_arg13 (by decide)]
  rfl

/-- The whole list is the five stretches in turn. -/
theorem after_ops : StableHlo.after ops Wv = StableHlo.after opsDec (C Wv) := by
  rw [ops_cut]
  rw [after_app, after_app, after_app, after_app]
  rfl

/-- THE RESULT after the whole list: the network's function of the arguments. -/
theorem after_ops_v173 : StableHlo.after ops Wv (Proc.devRef .tc main_v173)
    = Cert.Net.out (F := F) (fun h => Cert.Forms.rowsAt h (Cert.Net.rowOf (Wv (Proc.devRef .tc main_arg1)))) (fun h => Cert.Forms.rowsAt h (Cert.Net.colOf (Wv (Proc.devRef .tc main_arg1)))) Cert.Net.rowBcast Cert.Net.rowBcast3 (Wv (Proc.devRef .tc main_arg0)) (Wv (Proc.devRef .tc main_arg1)) (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) (Wv (Proc.devRef .tc main_arg13)) := by
  rw [after_ops]
  refine (rd_v173 (C Wv)).trans ?_
  rw [C_v169, C_arg Wv main_arg4 (by decide), C_arg Wv main_arg5 (by decide)]
  rfl

/-- An argument after the whole list is as it was. -/
theorem after_ops_arg (r : Ref sig .tc) (hr : r ∈ KA) : StableHlo.after ops Wv (Proc.devRef .tc r) = Wv (Proc.devRef .tc r) := by
  rw [after_ops]
  exact (keepDec (C Wv) r (List.mem_cons_of_mem _ (List.mem_cons_of_mem _ hr))).trans (C_arg Wv r hr)

end Chain

/-! ## The run -/

/-- No operation of the list leaves a result undetermined, window by window. -/
theorem fresh_part0 : (ops_part0 : List (HloOp τ sig (Elt F))).Forall fun op => op.fresh = ∅ := by
  simp only [ops_part0, List.Forall]; repeat' constructor
theorem fresh_part1 : (ops_part1 : List (HloOp τ sig (Elt F))).Forall fun op => op.fresh = ∅ := by
  simp only [ops_part1, List.Forall]; repeat' constructor
theorem fresh_part2 : (ops_part2 : List (HloOp τ sig (Elt F))).Forall fun op => op.fresh = ∅ := by
  simp only [ops_part2, List.Forall]; repeat' constructor
theorem fresh_part3 : (ops_part3 : List (HloOp τ sig (Elt F))).Forall fun op => op.fresh = ∅ := by
  simp only [ops_part3, List.Forall]; repeat' constructor
theorem ops_fresh : ∀ op ∈ (ops : List (HloOp τ sig (Elt F))), op.fresh = ∅ := fun op h => by
  simp only [ops, List.mem_append] at h
  rcases h with h | h | h | h
  exacts [List.forall_iff_forall_mem.mp fresh_part0 op h, List.forall_iff_forall_mem.mp fresh_part1 op h,
    List.forall_iff_forall_mem.mp fresh_part2 op h, List.forall_iff_forall_mem.mp fresh_part3 op h]

/-- The result the reference program ends with, as the network's function of the launch memory's arguments. -/
def res (m : (ℓ : Loc nD τ sig) → Buf (Elt F) ℓ) (c : Dev nD) : Buf (Elt F) ((c.tc : Thread nD τ).loc main_v173) :=
  Cert.Net.out (F := F) (fun h => Cert.Forms.rowsAt h (Cert.Net.rowOf (m ((c.tc : Thread nD τ).loc main_arg1))))
    (fun h => Cert.Forms.rowsAt h (Cert.Net.colOf (m ((c.tc : Thread nD τ).loc main_arg1)))) Cert.Net.rowBcast Cert.Net.rowBcast3
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- On every device, from any memory with zero counters: every weakly fair execution of @main terminates with the
    result at the network's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v173).trans (after_ops_v173 _),
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide))⟩)
    (run_seq scopedRefs_eq scopedSems_eq defs main (fun _ => ops) main_eq (fun _ => ops_sub) m ρ (fun _ => ops_fresh))

end Cert.ReferenceIdeal.RefValue

end
-- ==== Proof.BiasRow.lean ====
/-
  A bias vector read as a one-row matrix: changing its shape from [n] to [1, n] and broadcasting it along a new
  leading axis of extent one give the same matrix, whose entry (0, j) is the vector's entry j.
-/
import proofs.«410631_j824633721181_1_alg».proof.Proof.Net
import Idealize.ShloMosaic.Lib.ValueIdx
import Idealize.ShloMosaic.Lib.ValueLayout
import Idealize.ShloMosaic.Lib.StableHlo.Predicate

noncomputable section

namespace Cert.Net

open Idealize.ShloMosaic Idealize.SL.Sem Idealize.ShloMosaic.ValueIdx
open Cert.ReferenceIdeal

variable {F : FTy → Type} [FloatOps F]

/-- A vector broadcast along a new leading unit axis reads, at (u, q), the vector at q. -/
theorem bcast_lead {α : Type} {n : Nat} (h₁ : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h₁ v (ix2 u q) = v (ix1 q) := by
  have hu : u = 0 := Subsingleton.elim _ _
  subst hu
  have e1 : (ix2 (0 : Fin 1) q : (⟨2, ![1, n]⟩ : Shape).Idx) = StableHlo.Predicate.i1q q := by
    funext a; match a with | ⟨0, _⟩ => rfl | ⟨1, _⟩ => rfl
  have e2 : (ix1 q : (⟨1, ![n]⟩ : Shape).Idx) = Shape.Idx.ofFin q := by
    funext a; match a with | ⟨0, _⟩ => rfl
  rw [e1, e2]
  exact StableHlo.Predicate.bcast_row1 h₁ v q

/-- The 128 biases: the two one-row matrices are one. -/
theorem rowCast_eq (b : FVec F S128 .f32) : rowCast b = rowBcast b := by
  funext j
  obtain ⟨u, q, rfl⟩ : ∃ (u : Fin 1) (q : Fin 128), j = ix2 u q := ⟨j 0, j 1, eq_ix2 j⟩
  unfold rowCast rowBcast
  exact (shapeCast_a_1a_apply (a := 128) b _ u q).trans (bcast_lead (n := 128) _ b u q).symm

/-- The 3 biases of the decoder: the two one-row matrices are one. -/
theorem rowCast3_eq (b : FVec F S3 .f32) : rowCast3 b = rowBcast3 b := by
  funext j
  obtain ⟨u, q, rfl⟩ : ∃ (u : Fin 1) (q : Fin 3), j = ix2 u q := ⟨j 0, j 1, eq_ix2 j⟩
  unfold rowCast3 rowBcast3
  exact (shapeCast_a_1a_apply (a := 3) b _ u q).trans (bcast_lead (n := 3) _ b u q).symm

end Cert.Net

end
-- ==== Proof.IdxRange.lean ====
/-
  The edge table under the precondition. The precondition's last conjunct says that every entry `e` of the
  2 × 480000 table of edge ends satisfies `0 ≤ e` and `e < 30000` as signed 32-bit words; read back, every
  entry is a node number below 30000 as a natural number. Each of the table's two rows, cut out as a
  1 × 480000 slice and read as a vector of 480000 entries, reads one entry of the table at each position,
  so the rows inherit the bound.
-/
import proofs.«410631_j824633721181_1_alg».proof.Defs
import proofs.«410631_j824633721181_1_alg».proof.Proof.Gen.Pre_finite_inputs
import proofs.«410631_j824633721181_1_alg».proof.Proof.Gen.KernelIdeal
import Idealize.ShloMosaic.Lib.Affine
import Idealize.ShloMosaic.Lib.ReduceAll
import Idealize.ShloMosaic.Lib.StableHlo.Predicate
import Idealize.ShloMosaic.Lib.ValueIdx

namespace Cert.IdxRange

open Idealize.ShloMosaic Idealize.SL.Sem

/-- A 32-bit word `x` with `0 ≤ x` and `x < 30000`, both read signed, is below 30000 read unsigned. -/
theorem toNat_lt_of_signed (x : BitVec 32) (h0 : IntOp.cmpi .sge x 0#32 = 1#1) (h1 : IntOp.cmpi .slt x 30000#32 = 1#1) :
    x.toNat < 30000 := by
  rw [IntOp.cmpi_sge] at h0
  rw [IntOp.cmpi_slt] at h1
  have z : (0#32 : BitVec 32).toInt = 0 := by decide
  have t : (30000#32 : BitVec 32).toInt = 30000 := by decide
  rw [z] at h0
  rw [t] at h1
  rw [BitVec.toInt_eq_toNat_cond] at h0 h1
  have hx := x.isLt
  by_cases hc : 2 * x.toNat < 2 ^ 32
  · rw [if_pos hc] at h1
    omega
  · rw [if_neg hc] at h0
    omega

/-- The scalar shape has one index. -/
instance scalarIdx_subsingleton : Subsingleton Cert.Pre_finite_inputs.S_.Idx := ⟨fun _ _ => funext fun d => d.elim0⟩

/-- Under the precondition every entry of the edge table is a node number: below 30000. -/
theorem edge_lt (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x480000.Idx,
      (m ((c.tc : Thread Cert.KernelIdeal.nD Cert.KernelIdeal.τ).loc Cert.KernelIdeal.main_arg1) i).toNat < 30000 := by
  intro i
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the conjunction's last member is the reduction by `and` of the two compares over the whole table
  have h69 := (IntOp.andi_eq_one.1 h).2
  have h68 := Host.reduce_andi_all _ _ _ _ _ h69 i
  obtain ⟨h65, h67⟩ := IntOp.andi_eq_one.1 h68
  exact toNat_lt_of_signed _ h65 h67

/-- The first row of the edge table, read as a vector, holds node numbers when the table does. -/
theorem row_lt (e : IVec Cert.KernelIdeal.S2x480000 32) (he : ∀ i, (e i).toNat < 30000) :
    ∀ i, ((shapeCast Cert.KernelIdeal.S480000
      (extractStridedSlice Cert.KernelIdeal.S1x480000 ![0, 0] e Cert.KernelIdeal.Facts₀.slices_S2x480000_S1x480000_0_0)
      Cert.KernelIdeal.Facts₀.shapeCasts_S1x480000_S480000) i).toNat < 30000 := by
  intro i
  unfold shapeCast extractStridedSlice
  exact he _

/-- The second row of the edge table, read as a vector, holds node numbers when the table does. -/
theorem col_lt (e : IVec Cert.KernelIdeal.S2x480000 32) (he : ∀ i, (e i).toNat < 30000) :
    ∀ i, ((shapeCast Cert.KernelIdeal.S480000
      (extractStridedSlice Cert.KernelIdeal.S1x480000 ![1, 0] e Cert.KernelIdeal.Facts₀.slices_S2x480000_S1x480000_1_0)
      Cert.KernelIdeal.Facts₀.shapeCasts_S1x480000_S480000) i).toNat < 30000 := by
  intro i
  unfold shapeCast extractStridedSlice
  exact he _

end Cert.IdxRange
-- ==== Proof.TakeFill.lean ====
/-
  The fill mode of the row gather never fires at node numbers. With every index `i` a node number, `0 ≤ i < 30000`,
  the wrap of a negative index leaves `i` alone, both range tests `0 ≤ i` and `i ≤ 29999` read 1, their reduction by
  `and` along the unit axis from 1 is 1, and the select on that mask keeps every gathered row: the gather with
  out-of-range rows overwritten by the not-a-number pattern is the plain gather.
-/
import proofs.«410631_j824633721181_1_alg».proof.Proof.Forms
import Idealize.ShloMosaic.Lib.Affine
import Idealize.ShloMosaic.Lib.StableHlo.Predicate
import Idealize.ShloMosaic.Lib.ValueIdx
import Idealize.ShloMosaic.PureOps.Reduce

noncomputable section

namespace Cert.TakeFill

open Idealize.ShloMosaic Idealize.SL.Sem

/-! ## Words: a node number is not negative, so the wrap leaves it alone and both range tests pass -/

/-- A word below 30000 read unsigned reads the same signed. -/
theorem toInt_of_lt {x : BitVec 32} (hx : x.toNat < 30000) : x.toInt = x.toNat :=
  StableHlo.Predicate.toInt_eq_toNat_of_lt (by omega)

/-- The wrap `if x < 0 then x + 30000 else x` of a node number is the node number. -/
theorem wrap_word {x : BitVec 32} (hx : x.toNat < 30000) :
    Scalar.select (IntOp.cmpi .slt x 0#32) (IntOp.addi x 30000#32) x = x := by
  have hn : ¬ IntOp.cmpi .slt x 0#32 = 1#1 := by
    rw [IntOp.cmpi_slt, toInt_of_lt hx, show (0#32 : BitVec 32).toInt = 0 from by decide]
    omega
  rw [ValueIdx.eq_zero_of_ne_one hn, ValueIdx.select_zero]

/-- A node number tests `≥ 0`. -/
theorem sge_word {x : BitVec 32} (hx : x.toNat < 30000) : IntOp.cmpi .sge x 0#32 = 1#1 := by
  rw [IntOp.cmpi_sge, toInt_of_lt hx, show (0#32 : BitVec 32).toInt = 0 from by decide]
  omega

/-- A node number tests `≤ 29999`. -/
theorem sle_word {x : BitVec 32} (hx : x.toNat < 30000) : IntOp.cmpi .sle x 29999#32 = 1#1 := by
  rw [IntOp.cmpi_sle, toInt_of_lt hx, show (29999#32 : BitVec 32).toInt = 29999 from by decide]
  omega

/-! ## A reduction by `and` of ones, from one, is one -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduce by `and`, from an initial value 1, of an array of ones is one at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ fun n _ => hx n

/-! ## The index column, the range mask and the filled gather at node numbers -/

section Indices

variable (idx : IVec Cert.ReferenceIdeal.S480000 32)

/-- At node numbers the wrap selects the index itself, everywhere. -/
theorem select_wrap_eq (hidx : ∀ i, (idx i).toNat < 30000) :
    select (cmpi .slt idx (broadcastInDim Cert.ReferenceIdeal.S480000 ![] Cert.ReferenceIdeal.Facts₀.bcast_S_S480000
        (constantI Cert.ReferenceIdeal.S_ 32 0#32)))
      (addi idx (broadcastInDim Cert.ReferenceIdeal.S480000 ![] Cert.ReferenceIdeal.Facts₀.bcast_S_S480000
        (constantI Cert.ReferenceIdeal.S_ 32 30000#32))) idx = idx :=
  funext fun k => wrap_word (hidx k)

/-- At node numbers the index column is the indices laid down a column. -/
theorem wrapIdx_eq (hidx : ∀ i, (idx i).toNat < 30000) :
    Cert.Forms.wrapIdx idx
      = broadcastInDim Cert.ReferenceIdeal.S480000x1 ![0] Cert.ReferenceIdeal.Facts₀.bcast_S480000_S480000x1_0 idx := by
  unfold Cert.Forms.wrapIdx
  rw [select_wrap_eq idx hidx]

/-- At node numbers every entry of the index column is a node number. -/
theorem wrapIdx_lt (hidx : ∀ i, (idx i).toNat < 30000) (j : Cert.ReferenceIdeal.S480000x1.Idx) :
    (Cert.Forms.wrapIdx idx j).toNat < 30000 := by
  rw [wrapIdx_eq idx hidx]
  unfold broadcastInDim
  exact hidx _

/-- At node numbers every row is in range. -/
theorem inRange_one (hidx : ∀ i, (idx i).toNat < 30000) : ∀ i, Cert.Forms.inRange idx i = 1#1 := by
  intro i
  unfold Cert.Forms.inRange
  refine reduce_andi_one _ _ _ _ (fun j => ?_) (fun _ => rfl) i
  show IntOp.andi (IntOp.cmpi .sge (Cert.Forms.wrapIdx idx j) 0#32) (IntOp.cmpi .sle (Cert.Forms.wrapIdx idx j) 29999#32) = 1#1
  rw [sge_word (wrapIdx_lt idx hidx j), sle_word (wrapIdx_lt idx hidx j)]
  decide

end Indices

/-- At node numbers the fill never fires: the filled gather is the gather. -/
theorem rowsAtFill_eq {F : FTy → Type} [FloatOps F] (h : FVec F Cert.ReferenceIdeal.S30000x128 .f32)
    (idx : IVec Cert.ReferenceIdeal.S480000 32) (hidx : ∀ i, (idx i).toNat < 30000) :
    Cert.Forms.rowsAtFill h idx = Cert.Forms.rowsAt h idx := by
  funext j
  unfold Cert.Forms.rowsAtFill
  have hc : broadcastInDim Cert.ReferenceIdeal.S480000x128 ![0] Cert.KernelIdeal.Facts₀.bcast_S480000_S480000x128_0
      (Cert.Forms.inRange idx) j = 1#1 := inRange_one idx hidx _
  rw [ValueIdx.select_apply, hc, ValueIdx.select_one]

end Cert.TakeFill

end
-- ==== Proof.lean ====
/-
  A message-passing network on a graph (an encoder, three layers of gather → edge perceptron → sum into the
  destination nodes → node perceptron → residual sum, a decoder) written with eight row-tiled matrix kernels, against
  the same network in plain array operations.

  Over the extended reals both programs are ONE function of the fourteen argument arrays (`Cert.Net.out`): a
  row-tiled kernel leaves in its output array exactly the whole-array product-plus-bias (or two-layer perceptron) of
  its input arrays, because a matrix product into a zero accumulator and the host's dot product are the same sum
  and the row blocks tile the rows. The programs differ in two spellings. A bias vector becomes a one-row matrix by a
  change of shape in one and by a broadcast in the other: the same matrix. And the kernel program takes the rows at
  the edges' ends with a gather that overwrites out-of-range rows by the not-a-number pattern, where the reference
  clamps: under the precondition that every edge index lies in [0, 30000) no row is out of range, and the two
  gathers agree. The two kernel-program frames are the generated ones; the reference's is its run, read stretch by stretch, with the
  result dropped.
-/
import proofs.«410631_j824633721181_1_alg».proof.Defs
import proofs.«410631_j824633721181_1_alg».proof.Proof.Gen.Kernel
import proofs.«410631_j824633721181_1_alg».proof.Proof.Gen.Kernel.Frame
import proofs.«410631_j824633721181_1_alg».proof.Proof.Gen.KernelIdeal
import proofs.«410631_j824633721181_1_alg».proof.Proof.Gen.KernelIdeal.Frame
import proofs.«410631_j824633721181_1_alg».proof.Proof.Gen.ReferenceIdeal
import proofs.«410631_j824633721181_1_alg».proof.Proof.Gen.Pre_finite_inputs
import proofs.«410631_j824633721181_1_alg».proof.Proof.KRun
import proofs.«410631_j824633721181_1_alg».proof.Proof.KValue
import proofs.«410631_j824633721181_1_alg».proof.Proof.RefValue
import proofs.«410631_j824633721181_1_alg».proof.Proof.BiasRow
import proofs.«410631_j824633721181_1_alg».proof.Proof.IdxRange
import proofs.«410631_j824633721181_1_alg».proof.Proof.TakeFill
import Idealize.ShloMosaic.Adequacy
import Idealize.ShloMosaic.Init

noncomputable section

namespace Cert.Proof

open Idealize.ShloMosaic Idealize.ShloMosaic.TcCoe Idealize.SL.Sem

/-- The kernel program's frame at the word level: generated. -/
theorem frame_k : Cert.frame_Kernel := fun m ρ _ => Cert.Kernel.Gen.frame m ρ

/-- The idealized kernel program's frame: generated. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Under the precondition every entry of the two index rows lies in [0, 30000): the gather that overwrites
    out-of-range rows overwrites none, and the network with the kernel program's two spellings is the network with
    the reference's. -/
theorem spellings_agree (x1 : IVec Cert.ReferenceIdeal.S2x480000 32) (hx1 : ∀ i, (x1 i).toNat < 30000) :
    (fun h : FVec Ideal Cert.ReferenceIdeal.S30000x128 .f32 => Cert.Forms.rowsAtFill h (Cert.Net.rowOf x1))
        = (fun h => Cert.Forms.rowsAt h (Cert.Net.rowOf x1))
      ∧ (fun h : FVec Ideal Cert.ReferenceIdeal.S30000x128 .f32 => Cert.Forms.rowsAtFill h (Cert.Net.colOf x1))
        = (fun h => Cert.Forms.rowsAt h (Cert.Net.colOf x1)) :=
  ⟨funext fun h => Cert.TakeFill.rowsAtFill_eq h _ (Cert.IdxRange.row_lt x1 hx1),
   funext fun h => Cert.TakeFill.rowsAtFill_eq h _ (Cert.IdxRange.col_lt x1 hx1)⟩

/-- The network depends on its four spelling parameters only through their values. -/
theorem out_congr {F : FTy → Type} [FloatOps F]
    {Tr Tr' Tc Tc' : FVec F Cert.ReferenceIdeal.S30000x128 .f32 → FVec F Cert.ReferenceIdeal.S480000x128 .f32}
    {B B' : FVec F Cert.ReferenceIdeal.S128 .f32 → FVec F Cert.ReferenceIdeal.S1x128 .f32}
    {B3 B3' : FVec F Cert.ReferenceIdeal.S3 .f32 → FVec F Cert.ReferenceIdeal.S1x3 .f32}
    (h1 : Tr = Tr') (h2 : Tc = Tc') (h3 : B = B') (h4 : B3 = B3')
    (x : FVec F Cert.ReferenceIdeal.S30000x16 .f32) (ei : IVec Cert.ReferenceIdeal.S2x480000 32)
    (encW : FVec F Cert.ReferenceIdeal.S16x128 .f32) (encb : FVec F Cert.ReferenceIdeal.S128 .f32)
    (decW : FVec F Cert.ReferenceIdeal.S128x3 .f32) (decb : FVec F Cert.ReferenceIdeal.S3 .f32)
    (eW1 : FVec F Cert.ReferenceIdeal.S3x256x128 .f32) (eb1 : FVec F Cert.ReferenceIdeal.S3x128 .f32)
    (eW2 : FVec F Cert.ReferenceIdeal.S3x128x128 .f32) (eb2 : FVec F Cert.ReferenceIdeal.S3x128 .f32)
    (nW1 : FVec F Cert.ReferenceIdeal.S3x256x128 .f32) (nb1 : FVec F Cert.ReferenceIdeal.S3x128 .f32)
    (nW2 : FVec F Cert.ReferenceIdeal.S3x128x128 .f32) (nb2 : FVec F Cert.ReferenceIdeal.S3x128 .f32) :
    Cert.Net.out Tr Tc B B3 x ei encW encb decW decb eW1 eb1 eW2 eb2 nW1 nb1 nW2 nb2
      = Cert.Net.out Tr' Tc' B' B3' x ei encW encb decW decb eW1 eb1 eW2 eb2 nW1 nb1 nW2 nb2 := by
  subst h1 h2 h3 h4; rfl

/-- The two programs, run from memories that agree on the arguments, end with one result array: the network's
    function of the arguments. -/
theorem algebraic : Cert.algebraic_KernelIdeal_ReferenceIdeal := by
  intro m ρ m' ρ' hpre hagree
  refine ⟨fun c => Cert.KernelIdeal.Gen.W24 m ρ c (Proc.devRef .tc Cert.KernelIdeal.main_v97),
    Cert.KernelIdeal.GenP.run_out (F := Ideal) m ρ, ?_⟩
  refine (θ_run Cert.ReferenceIdeal.defs _ _).mono (fun _ h c => ⟨(h c).1.trans ?_, (h c).2⟩)
    (Cert.ReferenceIdeal.RefValue.run (F := Ideal) m' ρ')
  show Cert.ReferenceIdeal.RefValue.res m' c = Cert.KernelIdeal.Gen.W24 m ρ c (Proc.devRef .tc Cert.KernelIdeal.main_v97)
  obtain ⟨a0, a1, a2, a3, a4, a5, a6, a7, a8, a9, a10, a11, a12, a13⟩ := hagree c
  rw [Cert.ReferenceIdeal.RefValue.res, Cert.KernelIdeal.KVal.result_eq,
    a0, a1, a2, a3, a4, a5, a6, a7, a8, a9, a10, a11, a12, a13]
  obtain ⟨e1, e2⟩ := spellings_agree _ (Cert.IdxRange.edge_lt m hpre c)
  exact (out_congr e1 e2 (funext Cert.Net.rowCast_eq) (funext Cert.Net.rowCast3_eq) _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
